-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg17 : FVec F S1x128 .f32) (main_arg18 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S1x128 .f32 := Host.absf main_arg17
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  let main_v59 : FVec F S1 .f32 := Host.absf main_arg18
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg13 : FVec F S128x256 .f32) (main_arg14 : FVec F S128 .f32) (main_arg15 : FVec F S128x128 .f32) (main_arg16 : FVec F S128 .f32) (main_arg17 : FVec F S1x128 .f32) (main_arg18 : FVec F S1 .f32) (main_v33 : IVec S_ 1) : IVec S_ 1 :=
  let main_v34 : FVec F S128x256 .f32 := Host.absf main_arg13
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg15
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg16
  let main_cst_18 : FVec F S_ .f32 := constant S_ .f32 0x7F800000#32
  let main_v50 : FVec F S128 .f32 := broadcastInDim S128 ![] bcast_S_S128 main_cst_18
  fn_part3 (F := F) main_arg17 main_arg18 main_v48 main_v49 main_v50

def fn_part1 {F : FTy → Type} [FloatOps F] (main_arg10 : FVec F S128x128 .f32) (main_arg11 : FVec F S128x128 .f32) (main_arg12 : FVec F S128 .f32) (main_arg13 : FVec F S128x256 .f32) (main_arg14 : FVec F S128 .f32) (main_arg15 : FVec F S128x128 .f32) (main_arg16 : FVec F S128 .f32) (main_arg17 : FVec F S1x128 .f32) (main_arg18 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_arg15 main_arg16 main_arg17 main_arg18 main_v33

def fn {F : FTy → Type} [FloatOps F] (main_arg0 : FVec F S100000x128 .f32) (main_arg1 : IVec S1600000 32) (main_arg2 : IVec S1600000 32) (main_arg3 : IVec S100000 32) (main_arg4 : IVec S100000 32) (main_arg5 : IVec S100000 32) (main_arg6 : IVec S100000 32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x256 .f32) (main_arg14 : FVec F S128 .f32) (main_arg15 : FVec F S128x128 .f32) (main_arg16 : FVec F S128 .f32) (main_arg17 : FVec F S1x128 .f32) (main_arg18 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg7
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg10 main_arg11 main_arg12 main_arg13 main_arg14 main_arg15 main_arg16 main_arg17 main_arg18 main_v13 main_v16
-- ==== Kernel.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S1 : Shape := ⟨1, ![1]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x256 : Shape := ⟨2, ![5000, 256]⟩
abbrev S256x128 : Shape := ⟨2, ![256, 128]⟩
abbrev S704 : Shape := ⟨1, ![704]⟩
abbrev S200704 : Shape := ⟨1, ![200704]⟩
abbrev S200704x1 : Shape := ⟨2, ![200704, 1]⟩
abbrev S200704x128 : Shape := ⟨2, ![200704, 128]⟩
abbrev S1x1 : Shape := ⟨2, ![1, 1]⟩
abbrev S1024x128 : Shape := ⟨2, ![1024, 128]⟩
abbrev S1024x256 : Shape := ⟨2, ![1024, 256]⟩
abbrev S200000x1 : Shape := ⟨2, ![200000, 1]⟩

abbrev nBuf : Space → Nat
  | .hbm => 100
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S100000, .i32⟩
  | .hbm, ⟨5, _⟩ => ⟨S100000, .i32⟩
  | .hbm, ⟨6, _⟩ => ⟨S100000, .i32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x256, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S1x128, .f32⟩
  | .hbm, ⟨18, _⟩ => ⟨S1, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S128x256, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S128x256, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S_, .i32⟩
  | .hbm, ⟨66, _⟩ => ⟨S704, .i32⟩
  | .hbm, ⟨67, _⟩ => ⟨S200704, .i32⟩
  | .hbm, ⟨68, _⟩ => ⟨S200704, .i32⟩
  | .hbm, ⟨69, _⟩ => ⟨S_, .i32⟩
  | .hbm, ⟨70, _⟩ => ⟨S200704, .i32⟩
  | .hbm, ⟨71, _⟩ => ⟨S200704, .i1⟩
  | .hbm, ⟨72, _⟩ => ⟨S_, .i32⟩
  | .hbm, ⟨73, _⟩ => ⟨S200704, .i32⟩
  | .hbm, ⟨74, _⟩ => ⟨S200704, .i32⟩
  | .hbm, ⟨75, _⟩ => ⟨S200704, .i32⟩
  | .hbm, ⟨76, _⟩ => ⟨S200704x1, .i32⟩
  | .hbm, ⟨77, _⟩ => ⟨S200704x128, .f32⟩
  | .hbm, ⟨78, _⟩ => ⟨S_, .i32⟩
  | .hbm, ⟨79, _⟩ => ⟨S200704, .i32⟩
  | .hbm, ⟨80, _⟩ => ⟨S200704, .i1⟩
  | .hbm, ⟨81, _⟩ => ⟨S_, .i32⟩
  | .hbm, ⟨82, _⟩ => ⟨S200704, .i32⟩
  | .hbm, ⟨83, _⟩ => ⟨S200704, .i32⟩
  | .hbm, ⟨84, _⟩ => ⟨S200704, .i32⟩
  | .hbm, ⟨85, _⟩ => ⟨S200704x1, .i32⟩
  | .hbm, ⟨86, _⟩ => ⟨S200704x128, .f32⟩
  | .hbm, ⟨87, _⟩ => ⟨S_, .i32⟩
  | .hbm, ⟨88, _⟩ => ⟨S_, .f32⟩
  | .hbm, ⟨89, _⟩ => ⟨S128x128, .f32⟩
  | .hbm, ⟨90, _⟩ => ⟨S1x1, .f32⟩
  | .hbm, ⟨91, _⟩ => ⟨S_, .i32⟩
  | .hbm, ⟨92, _⟩ => ⟨S_, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S200704x128, .f32⟩
  | .hbm, ⟨97, _⟩ => ⟨S200000x1, .f32⟩
  | .hbm, ⟨98, _⟩ => ⟨S100000x1, .f32⟩
  | .hbm, ⟨99, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x256, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x256, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S128x256, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S1024x128, .f32⟩
  | .local _ .vmem, ⟨31, _⟩ => ⟨S1024x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst_1 : Ref sig .tc := ⟨.hbm, 25, rfl⟩
abbrev main_v4 : Ref sig .tc := ⟨.hbm, 26, rfl⟩
abbrev main_v5 : Ref sig .tc := ⟨.hbm, 27, rfl⟩
abbrev main_cst_2 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c : Ref sig .tc := ⟨.hbm, 34, rfl⟩
abbrev main_v11 : Ref sig .tc := ⟨.hbm, 35, rfl⟩
abbrev main_v12 : Ref sig .tc := ⟨.hbm, 36, rfl⟩
abbrev main_c_3 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_4 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_c_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_7 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_8 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_9 : Ref sig .tc := ⟨.hbm, 69, rfl⟩
abbrev main_v39 : Ref sig .tc := ⟨.hbm, 70, rfl⟩
abbrev main_v40 : Ref sig .tc := ⟨.hbm, 71, rfl⟩
abbrev main_c_10 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_11 : Ref sig .tc := ⟨.hbm, 78, rfl⟩
abbrev main_v46 : Ref sig .tc := ⟨.hbm, 79, rfl⟩
abbrev main_v47 : Ref sig .tc := ⟨.hbm, 80, rfl⟩
abbrev main_c_12 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_13 : Ref sig .tc := ⟨.hbm, 87, rfl⟩
abbrev main_call0_v0 : Ref sig .tc := ⟨.hbm, 88, rfl⟩
abbrev main_v53 : Ref sig .tc := ⟨.hbm, 89, rfl⟩
abbrev main_v54 : Ref sig .tc := ⟨.hbm, 90, rfl⟩
abbrev main_c_14 : Ref sig .tc := ⟨.hbm, 91, rfl⟩
abbrev main_call1_v0 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg8_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem8_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![196], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1024x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S128x128_S128x128_S128x256_d1 : Shape.Concatenates [S128x128, S128x128] S128x256 1
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S704 : S_.BroadcastsInDim S704 (![] : Fin 0 → Fin S704.rank)
  concatenates_S100000_S100000_S704_S200704_d0 : Shape.Concatenates [S100000, S100000, S704] S200704 0
  bcast_S_S200704 : S_.BroadcastsInDim S200704 (![] : Fin 0 → Fin S200704.rank)
  bcast_S200704_S200704x1_0 : S200704.BroadcastsInDim S200704x1 (![0] : Fin 1 → Fin S200704x1.rank)
  pads_S1x128_S128x128_01270_000 : S1x128.Pads (![0, 0] : Fin 2 → Nat) ![127, 0] ![0, 0] S128x128
  h_S_ : 0 < S_.numel
  shapeCasts_S1_S1x1 : S1.ShapeCasts S1x1
  pads_S1x1_S1x128_000_01270 : S1x1.Pads (![0, 0] : Fin 2 → Nat) ![0, 127] ![0, 0] S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  concatenates_S1024x128_S1024x128_S1024x256_d1 : Shape.Concatenates [S1024x128, S1024x128] S1024x256 1
  broadcasts_S1x128_S1024x128 : S1x128.Broadcasts S1024x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  shapeCasts_S128x128_S128x128 : S128x128.ShapeCasts S128x128
  slices_S200704x128_S200000x1_0_0 : S200704x128.Slices ![0, 0] S200000x1
  slices_S200000x1_S100000x1_0_0 : S200000x1.Slices ![0, 0] S100000x1
  slices_S200000x1_S100000x1_100000_0 : S200000x1.Slices ![100000, 0] S100000x1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x256_S256x128_S5000x128_1_0_0_1_n_n_wf : DotDims.WF S5000x256 S256x128 S5000x128 [1] [0] [0] [1] [] []
  gather_S100000x128_S200704x1_S200704x128_1_0_n_n_0_1_1128_wf : GatherDims.WF S100000x128 S200704x1 S200704x128 [1] [0] [] [0] [] 1 ![1, 128]
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S200704x128.size a
  hwx2_0 : ∀ i : grid2.Coords, EltTy.bits .f32 = 32 ∨ (Rect.block (s := S200704x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S200704x128.size a
  hwx2_1 : ∀ i : grid2.Coords, EltTy.bits .f32 = 32 ∨ (Rect.block (s := S200704x128) S1024x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1024x128.size a ≤ S200704x128.size a
  hwx2_8 : ∀ i : grid2.Coords, EltTy.bits .f32 = 32 ∨ (Rect.block (s := S200704x128) S1024x128.size (cc2_transform_8 i) (hinb2_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S200704x1_S200704x128_1_0_n_n_0_1_1128 : GatherDims S100000x128 S200704x1 S200704x128 where
  offsetDims := [1]
  collapsedSliceDims := [0]
  operandBatchingDims := []
  startIndicesBatchingDims := []
  startIndexMap := [0]
  indexVectorDim := 1
  sliceSizes := ![1, 128]
  wf := gather_S100000x128_S200704x1_S200704x128_1_0_n_n_0_1_1128_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v55) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v58) S1024x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S1 : Shape := ⟨1, ![1]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S100000x256 : Shape := ⟨2, ![100000, 256]⟩
abbrev S256x128 : Shape := ⟨2, ![256, 128]⟩
abbrev S128x1 : Shape := ⟨2, ![128, 1]⟩
abbrev S1x1 : Shape := ⟨2, ![1, 1]⟩

abbrev nBuf : Space → Nat
  | .hbm => 168
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S100000, .i32⟩
  | 4 => ⟨S100000, .i32⟩
  | 5 => ⟨S100000, .i32⟩
  | 6 => ⟨S100000, .i32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x256, .f32⟩
  | 14 => ⟨S128, .f32⟩
  | 15 => ⟨S128x128, .f32⟩
  | 16 => ⟨S128, .f32⟩
  | 17 => ⟨S1x128, .f32⟩
  | 18 => ⟨S1, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S128x128, .f32⟩
  | 45 => ⟨S100000x128, .f32⟩
  | 46 => ⟨S128x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S_, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x128, .f32⟩
  | 79 => ⟨S100000x128, .f32⟩
  | 80 => ⟨S128x128, .f32⟩
  | 81 => ⟨S100000x128, .f32⟩
  | 82 => ⟨S128x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .i32⟩
  | 89 => ⟨S100000, .i32⟩
  | 90 => ⟨S100000, .i1⟩
  | 91 => ⟨S_, .i32⟩
  | 92 => ⟨S100000, .i32⟩
  | 93 => ⟨S100000, .i32⟩
  | 94 => ⟨S100000, .i32⟩
  | 95 => ⟨S100000x1, .i32⟩
  | 96 => ⟨S100000x128, .f32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S100000x1, .i32⟩
  | 105 => ⟨S100000x128, .f32⟩
  | 106 => ⟨S100000x256, .f32⟩
  | 107 => ⟨S256x128, .f32⟩
  | 108 => ⟨S100000x128, .f32⟩
  | 109 => ⟨S1x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S128x128, .f32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S128x1, .f32⟩
  | 124 => ⟨S100000x1, .f32⟩
  | 125 => ⟨S1x1, .f32⟩
  | 126 => ⟨S100000x1, .f32⟩
  | 127 => ⟨S100000x1, .f32⟩
  | _ => ⟨S100000x128, .f32⟩

abbrev hbmTy0_1 (i : Nat) : BufTy := match i % 128 with
  | 0 => ⟨S_, .i32⟩
  | 1 => ⟨S100000, .i32⟩
  | 2 => ⟨S100000, .i1⟩
  | 3 => ⟨S_, .i32⟩
  | 4 => ⟨S100000, .i32⟩
  | 5 => ⟨S100000, .i32⟩
  | 6 => ⟨S100000, .i32⟩
  | 7 => ⟨S100000x1, .i32⟩
  | 8 => ⟨S100000x128, .f32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S100000x128, .f32⟩
  | 18 => ⟨S100000x256, .f32⟩
  | 19 => ⟨S256x128, .f32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S128x128, .f32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S128x1, .f32⟩
  | 36 => ⟨S100000x1, .f32⟩
  | 37 => ⟨S1x1, .f32⟩
  | 38 => ⟨S100000x1, .f32⟩
  | 39 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_call0_cst : Ref sig .tc := ⟨.hbm, 52, rfl⟩
abbrev main_call0_v0 : Ref sig .tc := ⟨.hbm, 53, rfl⟩
abbrev main_v27 : Ref sig .tc := ⟨.hbm, 54, rfl⟩
abbrev main_c_4 : Ref sig .tc := ⟨.hbm, 55, rfl⟩
abbrev main_v28 : Ref sig .tc := ⟨.hbm, 56, rfl⟩
abbrev main_v29 : Ref sig .tc := ⟨.hbm, 57, rfl⟩
abbrev main_c_5 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_6 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_7 : Ref sig .tc := ⟨.hbm, 68, rfl⟩
abbrev main_v38 : Ref sig .tc := ⟨.hbm, 69, rfl⟩
abbrev main_cst_8 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_10 : Ref sig .tc := ⟨.hbm, 88, rfl⟩
abbrev main_v55 : Ref sig .tc := ⟨.hbm, 89, rfl⟩
abbrev main_v56 : Ref sig .tc := ⟨.hbm, 90, rfl⟩
abbrev main_c_11 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c_12 : Ref sig .tc := ⟨.hbm, 97, rfl⟩
abbrev main_v62 : Ref sig .tc := ⟨.hbm, 98, rfl⟩
abbrev main_v63 : Ref sig .tc := ⟨.hbm, 99, rfl⟩
abbrev main_c_13 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_call1_cst : Ref sig .tc := ⟨.hbm, 112, rfl⟩
abbrev main_call1_v0 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_call2_cst : Ref sig .tc := ⟨.hbm, 120, rfl⟩
abbrev main_call2_v0 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_c_14 : Ref sig .tc := ⟨.hbm, 128, rfl⟩
abbrev main_v87 : Ref sig .tc := ⟨.hbm, 129, rfl⟩
abbrev main_v88 : Ref sig .tc := ⟨.hbm, 130, rfl⟩
abbrev main_c_15 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_c_16 : Ref sig .tc := ⟨.hbm, 137, rfl⟩
abbrev main_v94 : Ref sig .tc := ⟨.hbm, 138, rfl⟩
abbrev main_v95 : Ref sig .tc := ⟨.hbm, 139, rfl⟩
abbrev main_c_17 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_call3_cst : Ref sig .tc := ⟨.hbm, 152, rfl⟩
abbrev main_call3_v0 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_call4_cst : Ref sig .tc := ⟨.hbm, 160, rfl⟩
abbrev main_call4_v0 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  transposes_S128x256_S256x128_1_0 : S128x256.Transposes [1, 0] S256x128
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S100000x1_S100000x128_1_0_n_n_0_1_1128_wf : GatherDims.WF S100000x128 S100000x1 S100000x128 [1] [0] [] [0] [] 1 ![1, 128]
  dot_S100000x256_S256x128_S100000x128_1_0_0_1_n_n_wf : DotDims.WF S100000x256 S256x128 S100000x128 [1] [0] [0] [1] [] []
  dot_S100000x128_S128x1_S100000x1_1_0_0_1_n_n_wf : DotDims.WF S100000x128 S128x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KRegion0.lean ====
/-
  The first SAGE combine of the kernel's @main as a pipeline, at ANY contents `V` of the TensorCore's
  buffers when the region is entered. A grid point `t` of 20 sees rows 5000·t … 5000·t + 4999 of the features, of the
  summed messages and of the reciprocal degrees, and the whole stacked weight and bias; its body stores
  max(0, [x | msg · dinv] · Wcatᵀ + b) into the matching rows of the result. Stated here: each window's block at a
  point, that an input's staging buffer holds its block at every point, the one store as a piece list, the body's
  triple, the proof data and the body obligation the pipeline library asks for.
-/
import proofs.«400663_j26508538151583_4_alg».proof.Proof.Gen.Kernel.Launch
import proofs.«400663_j26508538151583_4_alg».proof.Proof.Gen.Kernel.Skeleton
import proofs.«400663_j26508538151583_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: an unfetched point has
    the block index of the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not: an unfetched point has
    the block index of the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not: an unfetched point has
    the block index of the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not: an unfetched point has
    the block index of the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not: an unfetched point has
    the block index of the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole of a row block, of the stacked weight, of the bias row: the rectangles the body loads and stores. -/
abbrev r0_rows : Rect S5000x128 := Rect.unit (s := S5000x128) ![0, 0] S5000x128.size inb_S5000x128_S5000x128_0_0
abbrev r0_wcat : Rect S128x256 := Rect.unit (s := S128x256) ![0, 0] S128x256.size inb_S128x256_S128x256_0_0
abbrev r0_bias : Rect S1x128 := Rect.unit (s := S1x128) ![0, 0] S1x128.size inb_S1x128_S1x128_0_0

/-- The result window's staging buffer after the body: its one store, of the body's arithmetic on the five loads. -/
def out0_5 (x0 x1 x2 : Vec F S5000x128 .f32) (x3 : Vec F S128x256 .f32) (x4 : Vec F S1x128 .f32) : Vec F S5000x128 .f32 :=
  View.canon [⟨r0_rows, k0_pay1 (View.ld x0 r0_rows) (View.ld x1 r0_rows) (View.ld x2 r0_rows) (View.ld x3 r0_wcat) (View.ld x4 r0_bias)⟩]

/-- The one store is of the whole buffer. -/
theorem cover0_5 (p0 : Vec F S5000x128 .f32) (y : S5000x128.Idx) :
    ∃ pc ∈ ([⟨r0_rows, p0⟩] : List (View.Piece (Elt F) S5000x128 .f32)), y ∈ pc.1.set :=
  View.cover_of_tiled [⟨r0_rows, p0⟩] S5000x128.size (by rfl) y

set_option maxHeartbeats 1000000 in
/-- The body on whole staging memrefs, the inputs' at contents `x0 … x4` and the result's at anything, runs to the
    continuation with the inputs' as they were and the result's at `out0_5` of them. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S128x256 .f32) (harg4 : arg4.IsWhole)
    (arg5 : Memref sig .tc .vmem S1x128 .f32) (harg5 : arg5.IsWhole) (arg6 : Memref sig .tc .vmem S5000x128 .f32) (harg6 : arg6.IsWhole)
    (x0 x1 x2 : Vec F S5000x128 .f32) (x3 : Vec F S128x256 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of this pipeline on core `c`: the arrays as the region finds them; after the body at point `t`
    each input's buffer at its block and the result's at `out0_5` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KRegion1.lean ====
/-
  The second SAGE combine of the kernel's @main as a pipeline, at ANY contents `V` of the TensorCore's
  buffers when the region is entered. A grid point `t` of 20 sees rows 5000·t … 5000·t + 4999 of the features, of the
  summed messages and of the reciprocal degrees, and the whole stacked weight and bias; its body stores
  [x | msg · dinv] · Wcatᵀ + b into the matching rows of the result. Stated here: each window's block at a
  point, that an input's staging buffer holds its block at every point, the one store as a piece list, the body's
  triple, the proof data and the body obligation the pipeline library asks for.
-/
import proofs.«400663_j26508538151583_4_alg».proof.Proof.Gen.Kernel.Launch
import proofs.«400663_j26508538151583_4_alg».proof.Proof.Gen.Kernel.Skeleton
import proofs.«400663_j26508538151583_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: an unfetched point has
    the block index of the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not: an unfetched point has
    the block index of the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not: an unfetched point has
    the block index of the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not: an unfetched point has
    the block index of the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not: an unfetched point has
    the block index of the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole of a row block, of the stacked weight, of the bias row: the rectangles the body loads and stores. -/
abbrev r1_rows : Rect S5000x128 := Rect.unit (s := S5000x128) ![0, 0] S5000x128.size inb_S5000x128_S5000x128_0_0
abbrev r1_wcat : Rect S128x256 := Rect.unit (s := S128x256) ![0, 0] S128x256.size inb_S128x256_S128x256_0_0
abbrev r1_bias : Rect S1x128 := Rect.unit (s := S1x128) ![0, 0] S1x128.size inb_S1x128_S1x128_0_0

/-- The result window's staging buffer after the body: its one store, of the body's arithmetic on the five loads. -/
def out1_5 (x0 x1 x2 : Vec F S5000x128 .f32) (x3 : Vec F S128x256 .f32) (x4 : Vec F S1x128 .f32) : Vec F S5000x128 .f32 :=
  View.canon [⟨r1_rows, k1_pay1 (View.ld x0 r1_rows) (View.ld x1 r1_rows) (View.ld x2 r1_rows) (View.ld x3 r1_wcat) (View.ld x4 r1_bias)⟩]

/-- The one store is of the whole buffer. -/
theorem cover1_5 (p0 : Vec F S5000x128 .f32) (y : S5000x128.Idx) :
    ∃ pc ∈ ([⟨r1_rows, p0⟩] : List (View.Piece (Elt F) S5000x128 .f32)), y ∈ pc.1.set :=
  View.cover_of_tiled [⟨r1_rows, p0⟩] S5000x128.size (by rfl) y

set_option maxHeartbeats 1000000 in
/-- The body on whole staging memrefs, the inputs' at contents `x0 … x4` and the result's at anything, runs to the
    continuation with the inputs' as they were and the result's at `out1_5` of them. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S128x256 .f32) (harg4 : arg4.IsWhole)
    (arg5 : Memref sig .tc .vmem S1x128 .f32) (harg5 : arg5.IsWhole) (arg6 : Memref sig .tc .vmem S5000x128 .f32) (harg6 : arg6.IsWhole)
    (x0 x1 x2 : Vec F S5000x128 .f32) (x3 : Vec F S128x256 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this pipeline on core `c`: the arrays as the region finds them; after the body at point `t`
    each input's buffer at its block and the result's at `out1_5` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KRegion2.lean ====
/-
  The link predictor of the kernel's @main as a pipeline, at ANY contents `V` of the TensorCore's buffers
  when the region is entered. A grid point `t` of 196 sees rows 1024·t … 1024·t + 1023 of the two gathered endpoint
  features, and the whole of the first stacked weight, of the two square weights and of the three bias rows; its body
  stores max(0, max(0, [a | b] · W1ᵀ + b1) · W2ᵀ + b2) · W3ᵀ + b3 into the matching rows of the result. Stated here:
  each window's block at a point, that an input's staging buffer holds its block at every point, the one store as a
  piece list, the body's triple, the proof data and the body obligation the pipeline library asks for.
-/
import proofs.«400663_j26508538151583_4_alg».proof.Proof.Gen.Kernel.Launch
import proofs.«400663_j26508538151583_4_alg».proof.Proof.Gen.Kernel.Skeleton
import proofs.«400663_j26508538151583_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: an unfetched point has
    the block index of the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not: an unfetched point has
    the block index of the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not: an unfetched point has
    the block index of the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not: an unfetched point has
    the block index of the point before. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, fetched there or not: an unfetched point has
    the block index of the point before. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every point, fetched there or not: an unfetched point has
    the block index of the point before. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's staging buffer holds its block at every point, fetched there or not: an unfetched point has
    the block index of the point before. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's staging buffer holds its block at every point, fetched there or not: an unfetched point has
    the block index of the point before. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The whole of a row block, of the stacked weight, of a square weight, of a bias row: the rectangles the body loads
    and stores. -/
abbrev r2_rows : Rect S1024x128 := Rect.unit (s := S1024x128) ![0, 0] S1024x128.size inb_S1024x128_S1024x128_0_0
abbrev r2_w1 : Rect S128x256 := Rect.unit (s := S128x256) ![0, 0] S128x256.size inb_S128x256_S128x256_0_0
abbrev r2_sq : Rect S128x128 := Rect.unit (s := S128x128) ![0, 0] S128x128.size inb_S128x128_S128x128_0_0
abbrev r2_bias : Rect S1x128 := Rect.unit (s := S1x128) ![0, 0] S1x128.size inb_S1x128_S1x128_0_0

/-- The result window's staging buffer after the body: its one store, of the body's arithmetic on the eight loads. -/
def out2_8 (x0 x1 : Vec F S1024x128 .f32) (x2 : Vec F S128x256 .f32) (x3 : Vec F S1x128 .f32) (x4 : Vec F S128x128 .f32)
    (x5 : Vec F S1x128 .f32) (x6 : Vec F S128x128 .f32) (x7 : Vec F S1x128 .f32) : Vec F S1024x128 .f32 :=
  View.canon [⟨r2_rows, k2_pay1 (View.ld x0 r2_rows) (View.ld x1 r2_rows) (View.ld x2 r2_w1) (View.ld x3 r2_bias) (View.ld x4 r2_sq)
    (View.ld x5 r2_bias) (View.ld x6 r2_sq) (View.ld x7 r2_bias)⟩]

/-- The one store is of the whole buffer. -/
theorem cover2_8 (p0 : Vec F S1024x128 .f32) (y : S1024x128.Idx) :
    ∃ pc ∈ ([⟨r2_rows, p0⟩] : List (View.Piece (Elt F) S1024x128 .f32)), y ∈ pc.1.set :=
  View.cover_of_tiled [⟨r2_rows, p0⟩] S1024x128.size (by rfl) y

set_option maxHeartbeats 1000000 in
/-- The body on whole staging memrefs, the inputs' at contents `x0 … x7` and the result's at anything, runs to the
    continuation with the inputs' as they were and the result's at `out2_8` of them. -/
theorem sound_kernel2 (c : Dev nD) (E : Set ℕ) (i : grid2.Coords)
    (arg1 : Memref sig .tc .vmem S1024x128 .f32) (harg1 : arg1.IsWhole) (arg2 : Memref sig .tc .vmem S1024x128 .f32) (harg2 : arg2.IsWhole)
    (arg3 : Memref sig .tc .vmem S128x256 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S128x128 .f32) (harg7 : arg7.IsWhole) (arg8 : Memref sig .tc .vmem S1x128 .f32) (harg8 : arg8.IsWhole)
    (arg9 : Memref sig .tc .vmem S1024x128 .f32) (harg9 : arg9.IsWhole)
    (x0 x1 : Vec F S1024x128 .f32) (x2 : Vec F S128x256 .f32) (x3 : Vec F S1x128 .f32) (x4 : Vec F S128x128 .f32)
    (x5 : Vec F S1x128 .f32) (x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E
          (cc2__predict_kernel i arg1 harg1 arg2 harg2 arg3 harg3 arg4 harg4 arg5 harg5 arg6 harg6 arg7 harg7 arg8 harg8 arg9 harg9) K := by
  simp only [cc2__predict_kernel_eq_skeleton]; unfold cc2__predict_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-- The proof data of this pipeline on core `c`: the arrays as the region finds them; after the body at point `t`
    each input's buffer at its block and the result's at `out2_8` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.KRun.lean ====
/-
  The run of the kernel's @main from the launch to the return, with every unscoped buffer of a TensorCore NAMED
  at the end. Between two items of @main a core holds all its unscoped buffers at one valuation: the launch memory, then
  what each host stretch computes from the one before, and after a kernel region the valuation it was entered from
  with the region's one result array at what the pipeline's write-backs leave there (the proof data's array after the
  last grid point). The three regions' proof data are those of the regions' modules at the valuations they are entered
  from. Each region is stated as a segment between two of these valuations, the host stretches are the generated
  ones, and the launch theorem for a list of segments gives the run; the argument arrays, which no item writes, are
  read off the last valuation.
-/
import proofs.«400663_j26508538151583_4_alg».proof.Proof.KRegion0
import proofs.«400663_j26508538151583_4_alg».proof.Proof.KRegion1
import proofs.«400663_j26508538151583_4_alg».proof.Proof.KRegion2
import proofs.«400663_j26508538151583_4_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations between the items -/

/-- The TensorCore's buffers as the first combine is entered: the launch memory after the first host stretch. -/
abbrev E1 : (c : Dev nD) → (b : Ref sig .tc) → Buf (Elt F) ((c : Thread nD τ).loc b) := fun c b => Gen.V1 m c b
/-- What the first combine leaves in its result array: the array after the write-backs of all 20 points. -/
def o2 (c : Dev nD) : Buf (Elt F) ((c : Thread nD τ).loc main_v22) := (dat0 (E1 m) c).arrAt 5 cfg0.N
/-- After the first combine: as entered, but for its result array. -/
def X2 (c : Dev nD) : Valuation τ sig (Elt F) := Function.update (Gen.V1 m c) main_v22 (o2 m c)
/-- After the second host stretch. -/
def X3 (c : Dev nD) : Valuation τ sig (Elt F) := StableHlo.after hostOps1 (X2 m c)
/-- The same at the TensorCore's references: what the second combine is entered from. -/
abbrev E3 : (c : Dev nD) → (b : Ref sig .tc) → Buf (Elt F) ((c : Thread nD τ).loc b) := fun c b => X3 m c b
/-- What the second combine leaves in its result array. -/
def o4 (c : Dev nD) : Buf (Elt F) ((c : Thread nD τ).loc main_v35) := (dat1 (E3 m) c).arrAt 5 cfg1.N
/-- After the second combine: as entered, but for its result array. -/
def X4 (c : Dev nD) : Valuation τ sig (Elt F) := Function.update (X3 m c) main_v35 (o4 m c)
/-- After each of the five host stretches before the predictor, in turn. -/
def X5 (c : Dev nD) : Valuation τ sig (Elt F) := StableHlo.after hostOps2 (X4 m c)
def X6 (c : Dev nD) : Valuation τ sig (Elt F) := StableHlo.after hostOps2_1 (X5 m c)
def X7 (c : Dev nD) : Valuation τ sig (Elt F) := StableHlo.after hostOps2_2 (X6 m c)
def X8 (c : Dev nD) : Valuation τ sig (Elt F) := StableHlo.after hostOps2_3 (X7 m c)
def X9 (c : Dev nD) : Valuation τ sig (Elt F) := StableHlo.after hostOps2_4 (X8 m c)
/-- The same at the TensorCore's references: what the predictor is entered from. -/
abbrev E9 : (c : Dev nD) → (b : Ref sig .tc) → Buf (Elt F) ((c : Thread nD τ).loc b) := fun c b => X9 m c b
/-- What the predictor leaves in its result array: the array after the write-backs of all 196 points. -/
def o10 (c : Dev nD) : Buf (Elt F) ((c : Thread nD τ).loc main_v58) := (dat2 (E9 m) c).arrAt 8 cfg2.N
/-- After the predictor: as entered, but for its result array. -/
def X10 (c : Dev nD) : Valuation τ sig (Elt F) := Function.update (X9 m c) main_v58 (o10 m c)
/-- After the last host stretch: the buffers at the return. -/
def X11 (c : Dev nD) : Valuation τ sig (Elt F) := StableHlo.after hostOps3 (X10 m c)

/-- The three exits at the TensorCore's references. -/
abbrev E2 : (c : Dev nD) → (b : Ref sig .tc) → Buf (Elt F) ((c : Thread nD τ).loc b) := fun c b => X2 m c b
abbrev E4 : (c : Dev nD) → (b : Ref sig .tc) → Buf (Elt F) ((c : Thread nD τ).loc b) := fun c b => X4 m c b
abbrev E10 : (c : Dev nD) → (b : Ref sig .tc) → Buf (Elt F) ((c : Thread nD τ).loc b) := fun c b => X10 m c b

/-- A region's exit valuation at its result array, and off it. -/
theorem X2_self (c : Dev nD) : X2 m c main_v22 = o2 m c := by unfold X2; exact Function.update_self _ _ _
theorem X2_of_ne (c : Dev nD) (r : Ref sig .tc) (h : r ≠ main_v22) : X2 m c r = Gen.V1 m c r := by
  unfold X2; exact Function.update_of_ne (StableHlo.devRef_ne_of_ne h) _ _
theorem X4_self (c : Dev nD) : X4 m c main_v35 = o4 m c := by unfold X4; exact Function.update_self _ _ _
theorem X4_of_ne (c : Dev nD) (r : Ref sig .tc) (h : r ≠ main_v35) : X4 m c r = X3 m c r := by
  unfold X4; exact Function.update_of_ne (StableHlo.devRef_ne_of_ne h) _ _
theorem X10_self (c : Dev nD) : X10 m c main_v58 = o10 m c := by unfold X10; exact Function.update_self _ _ _
theorem X10_of_ne (c : Dev nD) (r : Ref sig .tc) (h : r ≠ main_v58) : X10 m c r = X9 m c r := by
  unfold X10; exact Function.update_of_ne (StableHlo.devRef_ne_of_ne h) _ _

/-! ## The generated valuations at these contents -/

/-- What the regions leave, for the generated valuations: each read is of a region's exit valuation at its result array. -/
def outs : Gen.Outs (F := F) := fun j r c => if j = 2 then X2 m c r else if j = 4 then X4 m c r else X10 m c r

theorem V2_eq (c : Dev nD) : Gen.V2 m (outs m) c = X2 m c := by
  show Function.update (Gen.V1 m c) main_v22 (X2 m c main_v22) = X2 m c
  rw [X2_self]; rfl
theorem V3_eq (c : Dev nD) : Gen.V3 m (outs m) c = X3 m c := congrArg (StableHlo.after hostOps1) (V2_eq m c)
theorem V4_eq (c : Dev nD) : Gen.V4 m (outs m) c = X4 m c := by
  show Function.update (Gen.V3 m (outs m) c) main_v35 (X4 m c main_v35) = X4 m c
  rw [X4_self, V3_eq]; rfl
theorem V5_eq (c : Dev nD) : Gen.V5 m (outs m) c = X5 m c := congrArg (StableHlo.after hostOps2) (V4_eq m c)
theorem V6_eq (c : Dev nD) : Gen.V6 m (outs m) c = X6 m c := congrArg (StableHlo.after hostOps2_1) (V5_eq m c)
theorem V7_eq (c : Dev nD) : Gen.V7 m (outs m) c = X7 m c := congrArg (StableHlo.after hostOps2_2) (V6_eq m c)
theorem V8_eq (c : Dev nD) : Gen.V8 m (outs m) c = X8 m c := congrArg (StableHlo.after hostOps2_3) (V7_eq m c)
theorem V9_eq (c : Dev nD) : Gen.V9 m (outs m) c = X9 m c := congrArg (StableHlo.after hostOps2_4) (V8_eq m c)
theorem V10_eq (c : Dev nD) : Gen.V10 m (outs m) c = X10 m c := by
  show Function.update (Gen.V9 m (outs m) c) main_v58 (X10 m c main_v58) = X10 m c
  rw [X10_self, V9_eq]; rfl
theorem V11_eq (c : Dev nD) : Gen.V11 m (outs m) c = X11 m c := congrArg (StableHlo.after hostOps3) (V10_eq m c)

/-- An argument array, which no item writes, is at the return what it was at launch. -/
theorem X11_arg (c : Dev nD) (r : Ref sig .tc) (h : Gen.V11 m (outs m) c r = m ((c : Thread nD τ).loc r)) :
    X11 m c r = m ((c : Thread nD τ).loc r) := (congrFun (V11_eq m c) _).symm.trans h

/-! ## What a region leaves in its arrays -/

/-- An input window's array is never written: at the region's exit it holds what it held at the entry. -/
theorem arr0_in (c : Dev nD) (w : Fin cfg0.W) (hin : (cfg0.win w).isOut = false) (hne : Pipeline.arrRef spec0 w ≠ main_v22) :
    (dat0 (E1 m) c).arrAt w cfg0.N = E2 m c (Pipeline.arrRef spec0 w) :=
  ((dat0 (E1 m) c).arrAt_in w hin _).trans ((A_eq0 (E1 m) c w).trans (X2_of_ne m c _ hne).symm)
theorem arr1_in (c : Dev nD) (w : Fin cfg1.W) (hin : (cfg1.win w).isOut = false) (hne : Pipeline.arrRef spec1 w ≠ main_v35) :
    (dat1 (E3 m) c).arrAt w cfg1.N = E4 m c (Pipeline.arrRef spec1 w) :=
  ((dat1 (E3 m) c).arrAt_in w hin _).trans ((A_eq1 (E3 m) c w).trans (X4_of_ne m c _ hne).symm)
theorem arr2_in (c : Dev nD) (w : Fin cfg2.W) (hin : (cfg2.win w).isOut = false) (hne : Pipeline.arrRef spec2 w ≠ main_v58) :
    (dat2 (E9 m) c).arrAt w cfg2.N = E10 m c (Pipeline.arrRef spec2 w) :=
  ((dat2 (E9 m) c).arrAt_in w hin _).trans ((A_eq2 (E9 m) c w).trans (X10_of_ne m c _ hne).symm)

/-- At a region's exit each of its arrays holds what the pipeline leaves (`hFK`) and every other buffer what it held
    at the entry (`hrestK`). -/
theorem hF0 (c : Dev nD) : ∀ w : Fin cfg0.W, (dat0 (E1 m) c).arrAt w cfg0.N = E2 m c (Pipeline.arrRef spec0 w)
  | ⟨0, _⟩ => arr0_in m c 0 rfl (by decide)
  | ⟨1, _⟩ => arr0_in m c 1 rfl (by decide)
  | ⟨2, _⟩ => arr0_in m c 2 rfl (by decide)
  | ⟨3, _⟩ => arr0_in m c 3 rfl (by decide)
  | ⟨4, _⟩ => arr0_in m c 4 rfl (by decide)
  | ⟨5, _⟩ => (X2_self m c).symm
theorem hrest0 (c : Dev nD) : ∀ b, b ∉ Finset.univ.image (Pipeline.arrRef spec0) → E2 m c b = E1 m c b :=
  fun b hb => X2_of_ne m c b fun e => hb (Finset.mem_image.mpr ⟨5, Finset.mem_univ _, e.symm⟩)
theorem hF1 (c : Dev nD) : ∀ w : Fin cfg1.W, (dat1 (E3 m) c).arrAt w cfg1.N = E4 m c (Pipeline.arrRef spec1 w)
  | ⟨0, _⟩ => arr1_in m c 0 rfl (by decide)
  | ⟨1, _⟩ => arr1_in m c 1 rfl (by decide)
  | ⟨2, _⟩ => arr1_in m c 2 rfl (by decide)
  | ⟨3, _⟩ => arr1_in m c 3 rfl (by decide)
  | ⟨4, _⟩ => arr1_in m c 4 rfl (by decide)
  | ⟨5, _⟩ => (X4_self m c).symm
theorem hrest1 (c : Dev nD) : ∀ b, b ∉ Finset.univ.image (Pipeline.arrRef spec1) → E4 m c b = E3 m c b :=
  fun b hb => X4_of_ne m c b fun e => hb (Finset.mem_image.mpr ⟨5, Finset.mem_univ _, e.symm⟩)
set_option maxHeartbeats 1000000 in
theorem hF2 (c : Dev nD) : ∀ w : Fin cfg2.W, (dat2 (E9 m) c).arrAt w cfg2.N = E10 m c (Pipeline.arrRef spec2 w) := fun
  | 0 => arr2_in m c 0 rfl (by decide)
  | 1 => arr2_in m c 1 rfl (by decide)
  | 2 => arr2_in m c 2 rfl (by decide)
  | 3 => arr2_in m c 3 rfl (by decide)
  | 4 => arr2_in m c 4 rfl (by decide)
  | 5 => arr2_in m c 5 rfl (by decide)
  | 6 => arr2_in m c 6 rfl (by decide)
  | 7 => arr2_in m c 7 rfl (by decide)
  | 8 => (X10_self m c).symm
  | ⟨_ + 9, h⟩ => absurd h (Nat.not_lt.2 (Nat.le_add_left _ _))
theorem hrest2 (c : Dev nD) : ∀ b, b ∉ Finset.univ.image (Pipeline.arrRef spec2) → E10 m c b = E9 m c b :=
  fun b hb => X10_of_ne m c b fun e => hb (Finset.mem_image.mpr ⟨8, Finset.mem_univ _, e.symm⟩)

/-! ## The proof data family and the thread state -/

/-- Every pipeline's proof data, each at the valuation its region is entered from. -/
def pdats : (p : Fin 3) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- The same between any two items. -/
abbrev Erest : Fin 4 → Dev nD → sProp 𝕄 := fun _ c => R c
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- THE FIRST COMBINE over the thread state: entered from every unscoped buffer at the valuation before it, left at the one
    after it. Its arrays are split out of the unscoped buffers at the entry and put back at the exit contents; the
    generator register goes into the pipeline's invariant and comes out; nothing is owed; the kernel has no
    semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND COMBINE over the thread state: entered from every unscoped buffer at the valuation before it, left at the one
    after it. Its arrays are split out of the unscoped buffers at the entry and put back at the exit contents; the
    generator register goes into the pipeline's invariant and comes out; nothing is owed; the kernel has no
    semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE PREDICTOR over the thread state: entered from every unscoped buffer at the valuation before it, left at the one
    after it. Its arrays are split out of the unscoped buffers at the entry and put back at the exit contents; the
    generator register goes into the pipeline's invariant and comes out; nothing is owed; the kernel has no
    semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E9 m) c).loose
  hwaits := Pipeline.hwaits_of_owed_zero _ _ _ _ L lv 2 fun _ _ => rfl
  pre c := iprop(StableHlo.held (c : Thread nD τ) (Pipeline.ucRefs τ sig) (X9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E9 m c) (E10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The chaining: each region is entered from what the stretch before it leaves, and leaves what the next is entered from -/

theorem hpre0 (c : Dev nD) : iprop(StableHlo.held (c : Thread nD τ) (Pipeline.ucRefs τ sig) (Gen.V1 m c) ∗ Erest 0 c) ⊢ (reg0 m).pre c := .rfl
theorem hpost0 (c : Dev nD) : (reg0 m).post c ⊢ iprop(StableHlo.held (c : Thread nD τ) (Pipeline.ucRefs τ sig) (Gen.V2 m (outs m) c) ∗ Erest 1 c) := by
  rw [V2_eq]; exact .rfl
theorem hpre1 (c : Dev nD) : iprop(StableHlo.held (c : Thread nD τ) (Pipeline.ucRefs τ sig) (Gen.V3 m (outs m) c) ∗ Erest 1 c) ⊢ (reg1 m).pre c := by
  rw [V3_eq]; exact .rfl
theorem hpost1 (c : Dev nD) : (reg1 m).post c ⊢ iprop(StableHlo.held (c : Thread nD τ) (Pipeline.ucRefs τ sig) (Gen.V4 m (outs m) c) ∗ Erest 2 c) := by
  rw [V4_eq]; exact .rfl
theorem hpre2 (c : Dev nD) : iprop(StableHlo.held (c : Thread nD τ) (Pipeline.ucRefs τ sig) (Gen.V9 m (outs m) c) ∗ Erest 2 c) ⊢ (reg2 m).pre c := by
  rw [V9_eq]; exact .rfl
theorem hpost2 (c : Dev nD) : (reg2 m).post c ⊢ iprop(StableHlo.held (c : Thread nD τ) (Pipeline.ucRefs τ sig) (Gen.V10 m (outs m) c) ∗ Erest 3 c) := by
  rw [V10_eq]; exact .rfl
/-- The last thread state: every unscoped buffer at the return's contents, beside the core owing nothing. -/
theorem hlast (c : Dev nD) : iprop(StableHlo.held (c : Thread nD τ) (Pipeline.ucRefs τ sig) (Gen.V11 m (outs m) c) ∗ Erest 3 c)
    ⊢ iprop(StableHlo.held (c : Thread nD τ) (Pipeline.ucRefs τ sig) (X11 m c) ∗ ∃ W, owes (c : Thread nD τ) (0 : CellTallies nD τ sig Unit) W) := by
  rw [V11_eq]
  iintro ⟨Hh, -, HO⟩
  isplitl [Hh]; · iexact Hh
  iexact HO

/-! ## The launch -/

set_option backward.isDefEq.respectTransparency.types false in
/-- THE RUN: from any memory with zero counters, every weakly fair execution of @main on the TensorCores terminates,
    nothing faulting, and in every final state each unscoped buffer of each core holds the last valuation's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = X11 m c b) :=
  Pipeline.θ_run_regions_kit_dev (pcfgs (F := F)) Gen.adm (pdats m) () cellOf_inj emb₁ defs₀ 𝒱₀ L lv m ρ main
    (Gen.segs m (outs m) 𝒱₀ L lv Erest () (pdats m) (reg0 m) (reg1 m) (reg2 m))
    (fun c Q => by
      rewrite [main_chain c, Pipeline.Seg.run_eq_chain,
        show (Gen.segs m (outs m) 𝒱₀ L lv Erest () (pdats m) (reg0 m) (reg1 m) (reg2 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Erest 0 c))
    (Tₙ := fun c => StableHlo.held (c : Thread nD τ) (Pipeline.ucRefs τ sig) (X11 m c))
    (hch := fun c => ⟨.rfl, hpre0 m c, hpost0 m c, hpre1 m c, hpost1 m c, .rfl, .rfl, .rfl, .rfl, hpre2 m c, hpost2 m c, hlast m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X11 m c b)
    (hfin := fun c s' => by
      iintro ⟨Hh, HSI⟩
      unfold StableHlo.held
      imodintro
      iapply (pointsTo_read_all (Pipeline.ucRefs τ sig) (fun b => (((c : Thread nD τ)).1, b)) (X11 m c) s')
      isplitl [Hh] <;> iassumption)
    (hQ := fun s h => h)

/-- THE FRAME: every weakly fair execution of @main terminates, nothing faulting, and every final state has the
    argument arrays as launched: each is an unscoped buffer no item writes, read off the last valuation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_arg0 (by decide))).trans (X11_arg m c main_arg0 (Gen.V11_main_arg0 m (outs m) c)),
     (h c _ (mem_uc main_arg1 (by decide))).trans (X11_arg m c main_arg1 (Gen.V11_main_arg1 m (outs m) c)),
     (h c _ (mem_uc main_arg2 (by decide))).trans (X11_arg m c main_arg2 (Gen.V11_main_arg2 m (outs m) c)),
     (h c _ (mem_uc main_arg3 (by decide))).trans (X11_arg m c main_arg3 (Gen.V11_main_arg3 m (outs m) c)),
     (h c _ (mem_uc main_arg4 (by decide))).trans (X11_arg m c main_arg4 (Gen.V11_main_arg4 m (outs m) c)),
     (h c _ (mem_uc main_arg5 (by decide))).trans (X11_arg m c main_arg5 (Gen.V11_main_arg5 m (outs m) c)),
     (h c _ (mem_uc main_arg6 (by decide))).trans (X11_arg m c main_arg6 (Gen.V11_main_arg6 m (outs m) c)),
     (h c _ (mem_uc main_arg7 (by decide))).trans (X11_arg m c main_arg7 (Gen.V11_main_arg7 m (outs m) c)),
     (h c _ (mem_uc main_arg8 (by decide))).trans (X11_arg m c main_arg8 (Gen.V11_main_arg8 m (outs m) c)),
     (h c _ (mem_uc main_arg9 (by decide))).trans (X11_arg m c main_arg9 (Gen.V11_main_arg9 m (outs m) c)),
     (h c _ (mem_uc main_arg10 (by decide))).trans (X11_arg m c main_arg10 (Gen.V11_main_arg10 m (outs m) c)),
     (h c _ (mem_uc main_arg11 (by decide))).trans (X11_arg m c main_arg11 (Gen.V11_main_arg11 m (outs m) c)),
     (h c _ (mem_uc main_arg12 (by decide))).trans (X11_arg m c main_arg12 (Gen.V11_main_arg12 m (outs m) c)),
     (h c _ (mem_uc main_arg13 (by decide))).trans (X11_arg m c main_arg13 (Gen.V11_main_arg13 m (outs m) c)),
     (h c _ (mem_uc main_arg14 (by decide))).trans (X11_arg m c main_arg14 (Gen.V11_main_arg14 m (outs m) c)),
     (h c _ (mem_uc main_arg15 (by decide))).trans (X11_arg m c main_arg15 (Gen.V11_main_arg15 m (outs m) c)),
     (h c _ (mem_uc main_arg16 (by decide))).trans (X11_arg m c main_arg16 (Gen.V11_main_arg16 m (outs m) c)),
     (h c _ (mem_uc main_arg17 (by decide))).trans (X11_arg m c main_arg17 (Gen.V11_main_arg17 m (outs m) c)),
     (h c _ (mem_uc main_arg18 (by decide))).trans (X11_arg m c main_arg18 (Gen.V11_main_arg18 m (outs m) c))⟩)
    (run_all m ρ)

end Cert.Kernel.Frm

end
-- ==== Proof.KiRegion0.lean ====
/-
  The first SAGE combine of the idealized kernel's @main as a pipeline, at ANY contents `V` of the TensorCore's
  buffers when the region is entered. A grid point `t` of 20 sees rows 5000·t … 5000·t + 4999 of the features, of the
  summed messages and of the reciprocal degrees, and the whole stacked weight and bias; its body stores
  max(0, [x | msg · dinv] · Wcatᵀ + b) into the matching rows of the result. Stated here: each window's block at a
  point, that an input's staging buffer holds its block at every point, the one store as a piece list, the body's
  triple, the proof data and the body obligation the pipeline library asks for.
-/
import proofs.«400663_j26508538151583_4_alg».proof.Proof.Gen.KernelIdeal.Launch
import proofs.«400663_j26508538151583_4_alg».proof.Proof.Gen.KernelIdeal.Skeleton
import proofs.«400663_j26508538151583_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: an unfetched point has
    the block index of the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not: an unfetched point has
    the block index of the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not: an unfetched point has
    the block index of the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not: an unfetched point has
    the block index of the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not: an unfetched point has
    the block index of the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole of a row block, of the stacked weight, of the bias row: the rectangles the body loads and stores. -/
abbrev r0_rows : Rect S5000x128 := Rect.unit (s := S5000x128) ![0, 0] S5000x128.size inb_S5000x128_S5000x128_0_0
abbrev r0_wcat : Rect S128x256 := Rect.unit (s := S128x256) ![0, 0] S128x256.size inb_S128x256_S128x256_0_0
abbrev r0_bias : Rect S1x128 := Rect.unit (s := S1x128) ![0, 0] S1x128.size inb_S1x128_S1x128_0_0

/-- The result window's staging buffer after the body: its one store, of the body's arithmetic on the five loads. -/
def out0_5 (x0 x1 x2 : Vec F S5000x128 .f32) (x3 : Vec F S128x256 .f32) (x4 : Vec F S1x128 .f32) : Vec F S5000x128 .f32 :=
  View.canon [⟨r0_rows, k0_pay1 (View.ld x0 r0_rows) (View.ld x1 r0_rows) (View.ld x2 r0_rows) (View.ld x3 r0_wcat) (View.ld x4 r0_bias)⟩]

/-- The one store is of the whole buffer. -/
theorem cover0_5 (p0 : Vec F S5000x128 .f32) (y : S5000x128.Idx) :
    ∃ pc ∈ ([⟨r0_rows, p0⟩] : List (View.Piece (Elt F) S5000x128 .f32)), y ∈ pc.1.set :=
  View.cover_of_tiled [⟨r0_rows, p0⟩] S5000x128.size (by rfl) y

set_option maxHeartbeats 1000000 in
/-- The body on whole staging memrefs, the inputs' at contents `x0 … x4` and the result's at anything, runs to the
    continuation with the inputs' as they were and the result's at `out0_5` of them. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S128x256 .f32) (harg4 : arg4.IsWhole)
    (arg5 : Memref sig .tc .vmem S1x128 .f32) (harg5 : arg5.IsWhole) (arg6 : Memref sig .tc .vmem S5000x128 .f32) (harg6 : arg6.IsWhole)
    (x0 x1 x2 : Vec F S5000x128 .f32) (x3 : Vec F S128x256 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of this pipeline on core `c`: the arrays as the region finds them; after the body at point `t`
    each input's buffer at its block and the result's at `out0_5` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KiRegion1.lean ====
/-
  The second SAGE combine of the idealized kernel's @main as a pipeline, at ANY contents `V` of the TensorCore's
  buffers when the region is entered. A grid point `t` of 20 sees rows 5000·t … 5000·t + 4999 of the features, of the
  summed messages and of the reciprocal degrees, and the whole stacked weight and bias; its body stores
  [x | msg · dinv] · Wcatᵀ + b into the matching rows of the result. Stated here: each window's block at a
  point, that an input's staging buffer holds its block at every point, the one store as a piece list, the body's
  triple, the proof data and the body obligation the pipeline library asks for.
-/
import proofs.«400663_j26508538151583_4_alg».proof.Proof.Gen.KernelIdeal.Launch
import proofs.«400663_j26508538151583_4_alg».proof.Proof.Gen.KernelIdeal.Skeleton
import proofs.«400663_j26508538151583_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: an unfetched point has
    the block index of the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not: an unfetched point has
    the block index of the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not: an unfetched point has
    the block index of the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not: an unfetched point has
    the block index of the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not: an unfetched point has
    the block index of the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole of a row block, of the stacked weight, of the bias row: the rectangles the body loads and stores. -/
abbrev r1_rows : Rect S5000x128 := Rect.unit (s := S5000x128) ![0, 0] S5000x128.size inb_S5000x128_S5000x128_0_0
abbrev r1_wcat : Rect S128x256 := Rect.unit (s := S128x256) ![0, 0] S128x256.size inb_S128x256_S128x256_0_0
abbrev r1_bias : Rect S1x128 := Rect.unit (s := S1x128) ![0, 0] S1x128.size inb_S1x128_S1x128_0_0

/-- The result window's staging buffer after the body: its one store, of the body's arithmetic on the five loads. -/
def out1_5 (x0 x1 x2 : Vec F S5000x128 .f32) (x3 : Vec F S128x256 .f32) (x4 : Vec F S1x128 .f32) : Vec F S5000x128 .f32 :=
  View.canon [⟨r1_rows, k1_pay1 (View.ld x0 r1_rows) (View.ld x1 r1_rows) (View.ld x2 r1_rows) (View.ld x3 r1_wcat) (View.ld x4 r1_bias)⟩]

/-- The one store is of the whole buffer. -/
theorem cover1_5 (p0 : Vec F S5000x128 .f32) (y : S5000x128.Idx) :
    ∃ pc ∈ ([⟨r1_rows, p0⟩] : List (View.Piece (Elt F) S5000x128 .f32)), y ∈ pc.1.set :=
  View.cover_of_tiled [⟨r1_rows, p0⟩] S5000x128.size (by rfl) y

set_option maxHeartbeats 1000000 in
/-- The body on whole staging memrefs, the inputs' at contents `x0 … x4` and the result's at anything, runs to the
    continuation with the inputs' as they were and the result's at `out1_5` of them. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S128x256 .f32) (harg4 : arg4.IsWhole)
    (arg5 : Memref sig .tc .vmem S1x128 .f32) (harg5 : arg5.IsWhole) (arg6 : Memref sig .tc .vmem S5000x128 .f32) (harg6 : arg6.IsWhole)
    (x0 x1 x2 : Vec F S5000x128 .f32) (x3 : Vec F S128x256 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this pipeline on core `c`: the arrays as the region finds them; after the body at point `t`
    each input's buffer at its block and the result's at `out1_5` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KiRegion2.lean ====
/-
  The link predictor of the idealized kernel's @main as a pipeline, at ANY contents `V` of the TensorCore's buffers
  when the region is entered. A grid point `t` of 196 sees rows 1024·t … 1024·t + 1023 of the two gathered endpoint
  features, and the whole of the first stacked weight, of the two square weights and of the three bias rows; its body
  stores max(0, max(0, [a | b] · W1ᵀ + b1) · W2ᵀ + b2) · W3ᵀ + b3 into the matching rows of the result. Stated here:
  each window's block at a point, that an input's staging buffer holds its block at every point, the one store as a
  piece list, the body's triple, the proof data and the body obligation the pipeline library asks for.
-/
import proofs.«400663_j26508538151583_4_alg».proof.Proof.Gen.KernelIdeal.Launch
import proofs.«400663_j26508538151583_4_alg».proof.Proof.Gen.KernelIdeal.Skeleton
import proofs.«400663_j26508538151583_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: an unfetched point has
    the block index of the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not: an unfetched point has
    the block index of the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not: an unfetched point has
    the block index of the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not: an unfetched point has
    the block index of the point before. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, fetched there or not: an unfetched point has
    the block index of the point before. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every point, fetched there or not: an unfetched point has
    the block index of the point before. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's staging buffer holds its block at every point, fetched there or not: an unfetched point has
    the block index of the point before. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's staging buffer holds its block at every point, fetched there or not: an unfetched point has
    the block index of the point before. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The whole of a row block, of the stacked weight, of a square weight, of a bias row: the rectangles the body loads
    and stores. -/
abbrev r2_rows : Rect S1024x128 := Rect.unit (s := S1024x128) ![0, 0] S1024x128.size inb_S1024x128_S1024x128_0_0
abbrev r2_w1 : Rect S128x256 := Rect.unit (s := S128x256) ![0, 0] S128x256.size inb_S128x256_S128x256_0_0
abbrev r2_sq : Rect S128x128 := Rect.unit (s := S128x128) ![0, 0] S128x128.size inb_S128x128_S128x128_0_0
abbrev r2_bias : Rect S1x128 := Rect.unit (s := S1x128) ![0, 0] S1x128.size inb_S1x128_S1x128_0_0

/-- The result window's staging buffer after the body: its one store, of the body's arithmetic on the eight loads. -/
def out2_8 (x0 x1 : Vec F S1024x128 .f32) (x2 : Vec F S128x256 .f32) (x3 : Vec F S1x128 .f32) (x4 : Vec F S128x128 .f32)
    (x5 : Vec F S1x128 .f32) (x6 : Vec F S128x128 .f32) (x7 : Vec F S1x128 .f32) : Vec F S1024x128 .f32 :=
  View.canon [⟨r2_rows, k2_pay1 (View.ld x0 r2_rows) (View.ld x1 r2_rows) (View.ld x2 r2_w1) (View.ld x3 r2_bias) (View.ld x4 r2_sq)
    (View.ld x5 r2_bias) (View.ld x6 r2_sq) (View.ld x7 r2_bias)⟩]

/-- The one store is of the whole buffer. -/
theorem cover2_8 (p0 : Vec F S1024x128 .f32) (y : S1024x128.Idx) :
    ∃ pc ∈ ([⟨r2_rows, p0⟩] : List (View.Piece (Elt F) S1024x128 .f32)), y ∈ pc.1.set :=
  View.cover_of_tiled [⟨r2_rows, p0⟩] S1024x128.size (by rfl) y

set_option maxHeartbeats 1000000 in
/-- The body on whole staging memrefs, the inputs' at contents `x0 … x7` and the result's at anything, runs to the
    continuation with the inputs' as they were and the result's at `out2_8` of them. -/
theorem sound_kernel2 (c : Dev nD) (E : Set ℕ) (i : grid2.Coords)
    (arg1 : Memref sig .tc .vmem S1024x128 .f32) (harg1 : arg1.IsWhole) (arg2 : Memref sig .tc .vmem S1024x128 .f32) (harg2 : arg2.IsWhole)
    (arg3 : Memref sig .tc .vmem S128x256 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S128x128 .f32) (harg7 : arg7.IsWhole) (arg8 : Memref sig .tc .vmem S1x128 .f32) (harg8 : arg8.IsWhole)
    (arg9 : Memref sig .tc .vmem S1024x128 .f32) (harg9 : arg9.IsWhole)
    (x0 x1 : Vec F S1024x128 .f32) (x2 : Vec F S128x256 .f32) (x3 : Vec F S1x128 .f32) (x4 : Vec F S128x128 .f32)
    (x5 : Vec F S1x128 .f32) (x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E
          (cc2__predict_kernel i arg1 harg1 arg2 harg2 arg3 harg3 arg4 harg4 arg5 harg5 arg6 harg6 arg7 harg7 arg8 harg8 arg9 harg9) K := by
  simp only [cc2__predict_kernel_eq_skeleton]; unfold cc2__predict_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-- The proof data of this pipeline on core `c`: the arrays as the region finds them; after the body at point `t`
    each input's buffer at its block and the result's at `out2_8` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KiRun.lean ====
/-
  The run of the idealized kernel's @main from the launch to the return, with every unscoped buffer of a TensorCore NAMED
  at the end. Between two items of @main a core holds all its unscoped buffers at one valuation: the launch memory, then
  what each host stretch computes from the one before, and after a kernel region the valuation it was entered from
  with the region's one result array at what the pipeline's write-backs leave there (the proof data's array after the
  last grid point). The three regions' proof data are those of the regions' modules at the valuations they are entered
  from. Each region is stated as a segment between two of these valuations, the host stretches are the generated
  ones, and the launch theorem for a list of segments gives the run; the argument arrays, which no item writes, are
  read off the last valuation.
-/
import proofs.«400663_j26508538151583_4_alg».proof.Proof.KiRegion0
import proofs.«400663_j26508538151583_4_alg».proof.Proof.KiRegion1
import proofs.«400663_j26508538151583_4_alg».proof.Proof.KiRegion2
import proofs.«400663_j26508538151583_4_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations between the items -/

/-- The TensorCore's buffers as the first combine is entered: the launch memory after the first host stretch. -/
abbrev E1 : (c : Dev nD) → (b : Ref sig .tc) → Buf (Elt F) ((c : Thread nD τ).loc b) := fun c b => Gen.V1 m c b
/-- What the first combine leaves in its result array: the array after the write-backs of all 20 points. -/
def o2 (c : Dev nD) : Buf (Elt F) ((c : Thread nD τ).loc main_v22) := (dat0 (E1 m) c).arrAt 5 cfg0.N
/-- After the first combine: as entered, but for its result array. -/
def X2 (c : Dev nD) : Valuation τ sig (Elt F) := Function.update (Gen.V1 m c) main_v22 (o2 m c)
/-- After the second host stretch. -/
def X3 (c : Dev nD) : Valuation τ sig (Elt F) := StableHlo.after hostOps1 (X2 m c)
/-- The same at the TensorCore's references: what the second combine is entered from. -/
abbrev E3 : (c : Dev nD) → (b : Ref sig .tc) → Buf (Elt F) ((c : Thread nD τ).loc b) := fun c b => X3 m c b
/-- What the second combine leaves in its result array. -/
def o4 (c : Dev nD) : Buf (Elt F) ((c : Thread nD τ).loc main_v35) := (dat1 (E3 m) c).arrAt 5 cfg1.N
/-- After the second combine: as entered, but for its result array. -/
def X4 (c : Dev nD) : Valuation τ sig (Elt F) := Function.update (X3 m c) main_v35 (o4 m c)
/-- After each of the five host stretches before the predictor, in turn. -/
def X5 (c : Dev nD) : Valuation τ sig (Elt F) := StableHlo.after hostOps2 (X4 m c)
def X6 (c : Dev nD) : Valuation τ sig (Elt F) := StableHlo.after hostOps2_1 (X5 m c)
def X7 (c : Dev nD) : Valuation τ sig (Elt F) := StableHlo.after hostOps2_2 (X6 m c)
def X8 (c : Dev nD) : Valuation τ sig (Elt F) := StableHlo.after hostOps2_3 (X7 m c)
def X9 (c : Dev nD) : Valuation τ sig (Elt F) := StableHlo.after hostOps2_4 (X8 m c)
/-- The same at the TensorCore's references: what the predictor is entered from. -/
abbrev E9 : (c : Dev nD) → (b : Ref sig .tc) → Buf (Elt F) ((c : Thread nD τ).loc b) := fun c b => X9 m c b
/-- What the predictor leaves in its result array: the array after the write-backs of all 196 points. -/
def o10 (c : Dev nD) : Buf (Elt F) ((c : Thread nD τ).loc main_v58) := (dat2 (E9 m) c).arrAt 8 cfg2.N
/-- After the predictor: as entered, but for its result array. -/
def X10 (c : Dev nD) : Valuation τ sig (Elt F) := Function.update (X9 m c) main_v58 (o10 m c)
/-- After the last host stretch: the buffers at the return. -/
def X11 (c : Dev nD) : Valuation τ sig (Elt F) := StableHlo.after hostOps3 (X10 m c)

/-- The three exits at the TensorCore's references. -/
abbrev E2 : (c : Dev nD) → (b : Ref sig .tc) → Buf (Elt F) ((c : Thread nD τ).loc b) := fun c b => X2 m c b
abbrev E4 : (c : Dev nD) → (b : Ref sig .tc) → Buf (Elt F) ((c : Thread nD τ).loc b) := fun c b => X4 m c b
abbrev E10 : (c : Dev nD) → (b : Ref sig .tc) → Buf (Elt F) ((c : Thread nD τ).loc b) := fun c b => X10 m c b

/-- A region's exit valuation at its result array, and off it. -/
theorem X2_self (c : Dev nD) : X2 m c main_v22 = o2 m c := by unfold X2; exact Function.update_self _ _ _
theorem X2_of_ne (c : Dev nD) (r : Ref sig .tc) (h : r ≠ main_v22) : X2 m c r = Gen.V1 m c r := by
  unfold X2; exact Function.update_of_ne (StableHlo.devRef_ne_of_ne h) _ _
theorem X4_self (c : Dev nD) : X4 m c main_v35 = o4 m c := by unfold X4; exact Function.update_self _ _ _
theorem X4_of_ne (c : Dev nD) (r : Ref sig .tc) (h : r ≠ main_v35) : X4 m c r = X3 m c r := by
  unfold X4; exact Function.update_of_ne (StableHlo.devRef_ne_of_ne h) _ _
theorem X10_self (c : Dev nD) : X10 m c main_v58 = o10 m c := by unfold X10; exact Function.update_self _ _ _
theorem X10_of_ne (c : Dev nD) (r : Ref sig .tc) (h : r ≠ main_v58) : X10 m c r = X9 m c r := by
  unfold X10; exact Function.update_of_ne (StableHlo.devRef_ne_of_ne h) _ _

/-! ## The generated valuations at these contents -/

/-- What the regions leave, for the generated valuations: each read is of a region's exit valuation at its result array. -/
def outs : Gen.Outs (F := F) := fun j r c => if j = 2 then X2 m c r else if j = 4 then X4 m c r else X10 m c r

theorem V2_eq (c : Dev nD) : Gen.V2 m (outs m) c = X2 m c := by
  show Function.update (Gen.V1 m c) main_v22 (X2 m c main_v22) = X2 m c
  rw [X2_self]; rfl
theorem V3_eq (c : Dev nD) : Gen.V3 m (outs m) c = X3 m c := congrArg (StableHlo.after hostOps1) (V2_eq m c)
theorem V4_eq (c : Dev nD) : Gen.V4 m (outs m) c = X4 m c := by
  show Function.update (Gen.V3 m (outs m) c) main_v35 (X4 m c main_v35) = X4 m c
  rw [X4_self, V3_eq]; rfl
theorem V5_eq (c : Dev nD) : Gen.V5 m (outs m) c = X5 m c := congrArg (StableHlo.after hostOps2) (V4_eq m c)
theorem V6_eq (c : Dev nD) : Gen.V6 m (outs m) c = X6 m c := congrArg (StableHlo.after hostOps2_1) (V5_eq m c)
theorem V7_eq (c : Dev nD) : Gen.V7 m (outs m) c = X7 m c := congrArg (StableHlo.after hostOps2_2) (V6_eq m c)
theorem V8_eq (c : Dev nD) : Gen.V8 m (outs m) c = X8 m c := congrArg (StableHlo.after hostOps2_3) (V7_eq m c)
theorem V9_eq (c : Dev nD) : Gen.V9 m (outs m) c = X9 m c := congrArg (StableHlo.after hostOps2_4) (V8_eq m c)
theorem V10_eq (c : Dev nD) : Gen.V10 m (outs m) c = X10 m c := by
  show Function.update (Gen.V9 m (outs m) c) main_v58 (X10 m c main_v58) = X10 m c
  rw [X10_self, V9_eq]; rfl
theorem V11_eq (c : Dev nD) : Gen.V11 m (outs m) c = X11 m c := congrArg (StableHlo.after hostOps3) (V10_eq m c)

/-- An argument array, which no item writes, is at the return what it was at launch. -/
theorem X11_arg (c : Dev nD) (r : Ref sig .tc) (h : Gen.V11 m (outs m) c r = m ((c : Thread nD τ).loc r)) :
    X11 m c r = m ((c : Thread nD τ).loc r) := (congrFun (V11_eq m c) _).symm.trans h

/-! ## What a region leaves in its arrays -/

/-- An input window's array is never written: at the region's exit it holds what it held at the entry. -/
theorem arr0_in (c : Dev nD) (w : Fin cfg0.W) (hin : (cfg0.win w).isOut = false) (hne : Pipeline.arrRef spec0 w ≠ main_v22) :
    (dat0 (E1 m) c).arrAt w cfg0.N = E2 m c (Pipeline.arrRef spec0 w) :=
  ((dat0 (E1 m) c).arrAt_in w hin _).trans ((A_eq0 (E1 m) c w).trans (X2_of_ne m c _ hne).symm)
theorem arr1_in (c : Dev nD) (w : Fin cfg1.W) (hin : (cfg1.win w).isOut = false) (hne : Pipeline.arrRef spec1 w ≠ main_v35) :
    (dat1 (E3 m) c).arrAt w cfg1.N = E4 m c (Pipeline.arrRef spec1 w) :=
  ((dat1 (E3 m) c).arrAt_in w hin _).trans ((A_eq1 (E3 m) c w).trans (X4_of_ne m c _ hne).symm)
theorem arr2_in (c : Dev nD) (w : Fin cfg2.W) (hin : (cfg2.win w).isOut = false) (hne : Pipeline.arrRef spec2 w ≠ main_v58) :
    (dat2 (E9 m) c).arrAt w cfg2.N = E10 m c (Pipeline.arrRef spec2 w) :=
  ((dat2 (E9 m) c).arrAt_in w hin _).trans ((A_eq2 (E9 m) c w).trans (X10_of_ne m c _ hne).symm)

/-- At a region's exit each of its arrays holds what the pipeline leaves (`hFK`) and every other buffer what it held
    at the entry (`hrestK`). -/
theorem hF0 (c : Dev nD) : ∀ w : Fin cfg0.W, (dat0 (E1 m) c).arrAt w cfg0.N = E2 m c (Pipeline.arrRef spec0 w)
  | ⟨0, _⟩ => arr0_in m c 0 rfl (by decide)
  | ⟨1, _⟩ => arr0_in m c 1 rfl (by decide)
  | ⟨2, _⟩ => arr0_in m c 2 rfl (by decide)
  | ⟨3, _⟩ => arr0_in m c 3 rfl (by decide)
  | ⟨4, _⟩ => arr0_in m c 4 rfl (by decide)
  | ⟨5, _⟩ => (X2_self m c).symm
theorem hrest0 (c : Dev nD) : ∀ b, b ∉ Finset.univ.image (Pipeline.arrRef spec0) → E2 m c b = E1 m c b :=
  fun b hb => X2_of_ne m c b fun e => hb (Finset.mem_image.mpr ⟨5, Finset.mem_univ _, e.symm⟩)
theorem hF1 (c : Dev nD) : ∀ w : Fin cfg1.W, (dat1 (E3 m) c).arrAt w cfg1.N = E4 m c (Pipeline.arrRef spec1 w)
  | ⟨0, _⟩ => arr1_in m c 0 rfl (by decide)
  | ⟨1, _⟩ => arr1_in m c 1 rfl (by decide)
  | ⟨2, _⟩ => arr1_in m c 2 rfl (by decide)
  | ⟨3, _⟩ => arr1_in m c 3 rfl (by decide)
  | ⟨4, _⟩ => arr1_in m c 4 rfl (by decide)
  | ⟨5, _⟩ => (X4_self m c).symm
theorem hrest1 (c : Dev nD) : ∀ b, b ∉ Finset.univ.image (Pipeline.arrRef spec1) → E4 m c b = E3 m c b :=
  fun b hb => X4_of_ne m c b fun e => hb (Finset.mem_image.mpr ⟨5, Finset.mem_univ _, e.symm⟩)
set_option maxHeartbeats 1000000 in
theorem hF2 (c : Dev nD) : ∀ w : Fin cfg2.W, (dat2 (E9 m) c).arrAt w cfg2.N = E10 m c (Pipeline.arrRef spec2 w) := fun
  | 0 => arr2_in m c 0 rfl (by decide)
  | 1 => arr2_in m c 1 rfl (by decide)
  | 2 => arr2_in m c 2 rfl (by decide)
  | 3 => arr2_in m c 3 rfl (by decide)
  | 4 => arr2_in m c 4 rfl (by decide)
  | 5 => arr2_in m c 5 rfl (by decide)
  | 6 => arr2_in m c 6 rfl (by decide)
  | 7 => arr2_in m c 7 rfl (by decide)
  | 8 => (X10_self m c).symm
  | ⟨_ + 9, h⟩ => absurd h (Nat.not_lt.2 (Nat.le_add_left _ _))
theorem hrest2 (c : Dev nD) : ∀ b, b ∉ Finset.univ.image (Pipeline.arrRef spec2) → E10 m c b = E9 m c b :=
  fun b hb => X10_of_ne m c b fun e => hb (Finset.mem_image.mpr ⟨8, Finset.mem_univ _, e.symm⟩)

/-! ## The proof data family and the thread state -/

/-- Every pipeline's proof data, each at the valuation its region is entered from. -/
def pdats : (p : Fin 3) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- The same between any two items. -/
abbrev Erest : Fin 4 → Dev nD → sProp 𝕄 := fun _ c => R c
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- THE FIRST COMBINE over the thread state: entered from every unscoped buffer at the valuation before it, left at the one
    after it. Its arrays are split out of the unscoped buffers at the entry and put back at the exit contents; the
    generator register goes into the pipeline's invariant and comes out; nothing is owed; the kernel has no
    semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND COMBINE over the thread state: entered from every unscoped buffer at the valuation before it, left at the one
    after it. Its arrays are split out of the unscoped buffers at the entry and put back at the exit contents; the
    generator register goes into the pipeline's invariant and comes out; nothing is owed; the kernel has no
    semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE PREDICTOR over the thread state: entered from every unscoped buffer at the valuation before it, left at the one
    after it. Its arrays are split out of the unscoped buffers at the entry and put back at the exit contents; the
    generator register goes into the pipeline's invariant and comes out; nothing is owed; the kernel has no
    semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E9 m) c).loose
  hwaits := Pipeline.hwaits_of_owed_zero _ _ _ _ L lv 2 fun _ _ => rfl
  pre c := iprop(StableHlo.held (c : Thread nD τ) (Pipeline.ucRefs τ sig) (X9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E9 m c) (E10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The chaining: each region is entered from what the stretch before it leaves, and leaves what the next is entered from -/

theorem hpre0 (c : Dev nD) : iprop(StableHlo.held (c : Thread nD τ) (Pipeline.ucRefs τ sig) (Gen.V1 m c) ∗ Erest 0 c) ⊢ (reg0 m).pre c := .rfl
theorem hpost0 (c : Dev nD) : (reg0 m).post c ⊢ iprop(StableHlo.held (c : Thread nD τ) (Pipeline.ucRefs τ sig) (Gen.V2 m (outs m) c) ∗ Erest 1 c) := by
  rw [V2_eq]; exact .rfl
theorem hpre1 (c : Dev nD) : iprop(StableHlo.held (c : Thread nD τ) (Pipeline.ucRefs τ sig) (Gen.V3 m (outs m) c) ∗ Erest 1 c) ⊢ (reg1 m).pre c := by
  rw [V3_eq]; exact .rfl
theorem hpost1 (c : Dev nD) : (reg1 m).post c ⊢ iprop(StableHlo.held (c : Thread nD τ) (Pipeline.ucRefs τ sig) (Gen.V4 m (outs m) c) ∗ Erest 2 c) := by
  rw [V4_eq]; exact .rfl
theorem hpre2 (c : Dev nD) : iprop(StableHlo.held (c : Thread nD τ) (Pipeline.ucRefs τ sig) (Gen.V9 m (outs m) c) ∗ Erest 2 c) ⊢ (reg2 m).pre c := by
  rw [V9_eq]; exact .rfl
theorem hpost2 (c : Dev nD) : (reg2 m).post c ⊢ iprop(StableHlo.held (c : Thread nD τ) (Pipeline.ucRefs τ sig) (Gen.V10 m (outs m) c) ∗ Erest 3 c) := by
  rw [V10_eq]; exact .rfl
/-- The last thread state: every unscoped buffer at the return's contents, beside the core owing nothing. -/
theorem hlast (c : Dev nD) : iprop(StableHlo.held (c : Thread nD τ) (Pipeline.ucRefs τ sig) (Gen.V11 m (outs m) c) ∗ Erest 3 c)
    ⊢ iprop(StableHlo.held (c : Thread nD τ) (Pipeline.ucRefs τ sig) (X11 m c) ∗ ∃ W, owes (c : Thread nD τ) (0 : CellTallies nD τ sig Unit) W) := by
  rw [V11_eq]
  iintro ⟨Hh, -, HO⟩
  isplitl [Hh]; · iexact Hh
  iexact HO

/-! ## The launch -/

set_option backward.isDefEq.respectTransparency.types false in
/-- THE RUN: from any memory with zero counters, every weakly fair execution of @main on the TensorCores terminates,
    nothing faulting, and in every final state each unscoped buffer of each core holds the last valuation's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = X11 m c b) :=
  Pipeline.θ_run_regions_kit_dev (pcfgs (F := F)) Gen.adm (pdats m) () cellOf_inj emb₁ defs₀ 𝒱₀ L lv m ρ main
    (Gen.segs m (outs m) 𝒱₀ L lv Erest () (pdats m) (reg0 m) (reg1 m) (reg2 m))
    (fun c Q => by
      rewrite [main_chain c, Pipeline.Seg.run_eq_chain,
        show (Gen.segs m (outs m) 𝒱₀ L lv Erest () (pdats m) (reg0 m) (reg1 m) (reg2 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Erest 0 c))
    (Tₙ := fun c => StableHlo.held (c : Thread nD τ) (Pipeline.ucRefs τ sig) (X11 m c))
    (hch := fun c => ⟨.rfl, hpre0 m c, hpost0 m c, hpre1 m c, hpost1 m c, .rfl, .rfl, .rfl, .rfl, hpre2 m c, hpost2 m c, hlast m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X11 m c b)
    (hfin := fun c s' => by
      iintro ⟨Hh, HSI⟩
      unfold StableHlo.held
      imodintro
      iapply (pointsTo_read_all (Pipeline.ucRefs τ sig) (fun b => (((c : Thread nD τ)).1, b)) (X11 m c) s')
      isplitl [Hh] <;> iassumption)
    (hQ := fun s h => h)

/-- THE FRAME: every weakly fair execution of @main terminates, nothing faulting, and every final state has the
    argument arrays as launched: each is an unscoped buffer no item writes, read off the last valuation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_arg0 (by decide))).trans (X11_arg m c main_arg0 (Gen.V11_main_arg0 m (outs m) c)),
     (h c _ (mem_uc main_arg1 (by decide))).trans (X11_arg m c main_arg1 (Gen.V11_main_arg1 m (outs m) c)),
     (h c _ (mem_uc main_arg2 (by decide))).trans (X11_arg m c main_arg2 (Gen.V11_main_arg2 m (outs m) c)),
     (h c _ (mem_uc main_arg3 (by decide))).trans (X11_arg m c main_arg3 (Gen.V11_main_arg3 m (outs m) c)),
     (h c _ (mem_uc main_arg4 (by decide))).trans (X11_arg m c main_arg4 (Gen.V11_main_arg4 m (outs m) c)),
     (h c _ (mem_uc main_arg5 (by decide))).trans (X11_arg m c main_arg5 (Gen.V11_main_arg5 m (outs m) c)),
     (h c _ (mem_uc main_arg6 (by decide))).trans (X11_arg m c main_arg6 (Gen.V11_main_arg6 m (outs m) c)),
     (h c _ (mem_uc main_arg7 (by decide))).trans (X11_arg m c main_arg7 (Gen.V11_main_arg7 m (outs m) c)),
     (h c _ (mem_uc main_arg8 (by decide))).trans (X11_arg m c main_arg8 (Gen.V11_main_arg8 m (outs m) c)),
     (h c _ (mem_uc main_arg9 (by decide))).trans (X11_arg m c main_arg9 (Gen.V11_main_arg9 m (outs m) c)),
     (h c _ (mem_uc main_arg10 (by decide))).trans (X11_arg m c main_arg10 (Gen.V11_main_arg10 m (outs m) c)),
     (h c _ (mem_uc main_arg11 (by decide))).trans (X11_arg m c main_arg11 (Gen.V11_main_arg11 m (outs m) c)),
     (h c _ (mem_uc main_arg12 (by decide))).trans (X11_arg m c main_arg12 (Gen.V11_main_arg12 m (outs m) c)),
     (h c _ (mem_uc main_arg13 (by decide))).trans (X11_arg m c main_arg13 (Gen.V11_main_arg13 m (outs m) c)),
     (h c _ (mem_uc main_arg14 (by decide))).trans (X11_arg m c main_arg14 (Gen.V11_main_arg14 m (outs m) c)),
     (h c _ (mem_uc main_arg15 (by decide))).trans (X11_arg m c main_arg15 (Gen.V11_main_arg15 m (outs m) c)),
     (h c _ (mem_uc main_arg16 (by decide))).trans (X11_arg m c main_arg16 (Gen.V11_main_arg16 m (outs m) c)),
     (h c _ (mem_uc main_arg17 (by decide))).trans (X11_arg m c main_arg17 (Gen.V11_main_arg17 m (outs m) c)),
     (h c _ (mem_uc main_arg18 (by decide))).trans (X11_arg m c main_arg18 (Gen.V11_main_arg18 m (outs m) c))⟩)
    (run_all m ρ)

end Cert.KernelIdeal.Frm

end
-- ==== Proof.Spec.lean ====
/-
  The mathematics both programs compute, over literal shapes and the extended reals.
  Two graph-convolution layers and an edge predictor. A layer maps node features h : [100000, 128] to
      h'[i, j] = Σ_k h[i, k] · Ws[j, k] + Σ_k (msg[i, k] / max(deg i, 1)) · Wn[j, k] + b[j],
  where msg[i, ·] is the sum of h[src e, ·] over the edges e with dst e = i and deg i their number; the first layer is
  followed by max(·, 0). The predictor scores a pair of nodes (u, v) by a three-layer perceptron on the row
  [h[u, ·] | h[v, ·]]. The reference computes a layer as written; the kernel multiplies msg by the reciprocal
  1 / max(deg i, 1) and contracts the row [h[i, ·] | msg[i, ·] · dinv i] with the stacked weight [Ws | Wn] in one sum
  of 256 terms. The two agree because max(deg i, 1) is a nonzero real number (a count), where dividing is multiplying by
  the reciprocal for every extended real, and a sum over 256 = 128 + 128 indices splits.
  Stated here: the index-level arrangements of both sides, the law between them, and the gathered and summed messages
  and degrees as the host operations both programs apply (so that they stay closed terms shared by the two sides).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## Shapes -/

abbrev Nodes : Shape := ⟨2, ![100000, 128]⟩
abbrev NodeVec : Shape := ⟨1, ![100000]⟩
abbrev NodeCol : Shape := ⟨2, ![100000, 1]⟩
abbrev Edges : Shape := ⟨1, ![1600000]⟩
abbrev EdgeCol : Shape := ⟨2, ![1600000, 1]⟩
abbrev EdgeRows : Shape := ⟨2, ![1600000, 128]⟩
abbrev Sc : Shape := ⟨0, ![]⟩

/-! ## Rows and their arrangements -/

/-- Two rows of 128 side by side. -/
def sideBySide (a b : Fin 128 → EReal) : Fin 256 → EReal :=
  fun k => if h : k.val < 128 then a ⟨k.val, h⟩ else b ⟨k.val - 128, by have := k.isLt; omega⟩

/-- A layer's entry as the kernel arranges it: the row [x | msg · dinv] against the stacked weight row, plus the bias. -/
def combineStacked (x msg : Fin 128 → EReal) (dinv : EReal) (wcat : Fin 256 → EReal) (b : EReal) : EReal :=
  (∑ k : Fin 256, sideBySide x (fun k => msg k * dinv) k * wcat k) + b

/-- A layer's entry as the reference arranges it: the self product, plus the product of the mean message, plus the bias. -/
def combineSplit (x msg : Fin 128 → EReal) (d : EReal) (ws wn : Fin 128 → EReal) (b : EReal) : EReal :=
  ((∑ k : Fin 128, x k * ws k) + ∑ k : Fin 128, Ideal.div (msg k) d * wn k) + b

/-- The predictor's score of a pair of rows: three linear layers, the first two followed by max(·, 0). -/
def mlp (a b : Fin 128 → EReal) (W1 : Fin 128 → Fin 256 → EReal) (c1 : Fin 128 → EReal)
    (W2 : Fin 128 → Fin 128 → EReal) (c2 : Fin 128 → EReal) (w3 : Fin 128 → EReal) (c3 : EReal) : EReal :=
  (∑ k : Fin 128,
      max ((∑ l : Fin 128, max ((∑ q : Fin 256, sideBySide a b q * W1 l q) + c1 l) 0 * W2 k l) + c2 k) 0 * w3 k) + c3

/-! ## The host operations both programs share -/

/-- An index word as jnp reads it: a negative one counts from the end. -/
def wrapWord (w : BitVec 32) : BitVec 32 := Scalar.select (Scalar.cmpi .slt w 0#32) (w + 100000#32) w

/-- The node an index word names once StableHLO's gather has clamped it into the table. -/
def nodeOf (w : BitVec 32) : Fin 100000 := ⟨min (wrapWord w).toInt.toNat 99999, by omega⟩

/-! ## Dimension numbers of the row gathers and the row scatters (the printed records' fields) -/

abbrev Pairs : Shape := ⟨1, ![200704]⟩
abbrev PairCol : Shape := ⟨2, ![200704, 1]⟩
abbrev PairRows : Shape := ⟨2, ![200704, 128]⟩
abbrev W256 : Shape := ⟨2, ![128, 256]⟩
abbrev W128 : Shape := ⟨2, ![128, 128]⟩
abbrev Row128 : Shape := ⟨2, ![1, 128]⟩
abbrev Vec128 : Shape := ⟨1, ![128]⟩

theorem wf_gatherEdges : GatherDims.WF Nodes EdgeCol EdgeRows [1] [0] [] [0] [] 1 ![1, 128] := by decide
theorem wf_gatherPairs : GatherDims.WF Nodes PairCol PairRows [1] [0] [] [0] [] 1 ![1, 128] := by decide
theorem wf_scatterRows : ScatterDims.WF Nodes EdgeCol EdgeRows [1] [0] [0] 1 := by decide
theorem wf_scatterCount : ScatterDims.WF NodeVec EdgeCol Edges [] [0] [0] 1 := by decide

/-- Rows of a node table picked by a column of indices. -/
def gatherRowsDims {M : Nat} (wf : GatherDims.WF Nodes ⟨2, ![M, 1]⟩ ⟨2, ![M, 128]⟩ [1] [0] [] [0] [] 1 ![1, 128]) :
    GatherDims Nodes ⟨2, ![M, 1]⟩ ⟨2, ![M, 128]⟩ where
  offsetDims := [1]
  collapsedSliceDims := [0]
  operandBatchingDims := []
  startIndicesBatchingDims := []
  startIndexMap := [0]
  indexVectorDim := 1
  sliceSizes := ![1, 128]
  wf := wf

/-- Rows added into a node table at a column of indices. -/
def scatterRowsDims : ScatterDims Nodes EdgeCol EdgeRows where
  updateWindowDims := [1]
  insertedWindowDims := [0]
  scatterDimsToOperandDims := [0]
  indexVectorDim := 1
  wf := wf_scatterRows

/-- Numbers added into a node vector at a column of indices. -/
def scatterCountDims : ScatterDims NodeVec EdgeCol Edges where
  updateWindowDims := []
  insertedWindowDims := [0]
  scatterDimsToOperandDims := [0]
  indexVectorDim := 1
  wf := wf_scatterCount

/-! ## The host terms both programs apply -/

theorem bc_sc_edges : Sc.BroadcastsInDim Edges (![] : Fin 0 → Fin Edges.rank) := by decide
theorem bc_sc_pairs : Sc.BroadcastsInDim Pairs (![] : Fin 0 → Fin Pairs.rank) := by decide
theorem bc_sc_nodevec : Sc.BroadcastsInDim NodeVec (![] : Fin 0 → Fin NodeVec.rank) := by decide
theorem bc_sc_nodes : Sc.BroadcastsInDim Nodes (![] : Fin 0 → Fin Nodes.rank) := by decide
theorem bc_edges_col : Edges.BroadcastsInDim EdgeCol (![0] : Fin 1 → Fin EdgeCol.rank) := by decide
theorem bc_pairs_col : Pairs.BroadcastsInDim PairCol (![0] : Fin 1 → Fin PairCol.rank) := by decide
theorem bc_nodevec_col : NodeVec.BroadcastsInDim NodeCol (![0] : Fin 1 → Fin NodeCol.rank) := by decide
theorem bc_col_nodes : NodeCol.BroadcastsInDim Nodes (![0, 1] : Fin 2 → Fin Nodes.rank) := by decide

/-- The edge sources as a column of wrapped index words. -/
def srcCol (src : IVec Edges 32) : IVec EdgeCol 32 :=
  broadcastInDim EdgeCol ![0] bc_edges_col
    (select (cmpi .slt src (broadcastInDim Edges ![] bc_sc_edges (constantI Sc 32 0#32)))
      (addi src (broadcastInDim Edges ![] bc_sc_edges (constantI Sc 32 100000#32))) src)

/-- A list of 200704 node indices as a column of wrapped index words. -/
def pairCol (idx : IVec Pairs 32) : IVec PairCol 32 :=
  broadcastInDim PairCol ![0] bc_pairs_col
    (select (cmpi .slt idx (broadcastInDim Pairs ![] bc_sc_pairs (constantI Sc 32 0#32)))
      (addi idx (broadcastInDim Pairs ![] bc_sc_pairs (constantI Sc 32 100000#32))) idx)

/-- The summed messages: row i is the sum of the rows h[src e, ·] over the edges e with dst e = i. -/
def msgSum (h : FVec Ideal Nodes .f32) (src dst : IVec Edges 32) : FVec Ideal Nodes .f32 :=
  Host.scatterAdd (F := Ideal) scatterRowsDims
    (broadcastInDim Nodes ![] bc_sc_nodes (constant (F := Ideal) Sc .f32 0x00000000#32))
    (broadcastInDim EdgeCol ![0] bc_edges_col dst)
    (Host.gather (gatherRowsDims wf_gatherEdges) h (srcCol src))

/-- The in-degrees: entry i is the number of edges e with dst e = i, as a sum of ones. -/
def degree (dst : IVec Edges 32) : FVec Ideal NodeVec .f32 :=
  Host.scatterAdd (F := Ideal) scatterCountDims
    (broadcastInDim NodeVec ![] bc_sc_nodevec (constant (F := Ideal) Sc .f32 0x00000000#32))
    (broadcastInDim EdgeCol ![0] bc_edges_col dst)
    (broadcastInDim Edges ![] bc_sc_edges (constant (F := Ideal) Sc .f32 0x3F800000#32))

/-- max(deg, 1), the divisor of a mean that leaves an isolated node's zero sum alone. -/
def dmax (dst : IVec Edges 32) : FVec Ideal NodeVec .f32 :=
  maximumf (degree dst) (broadcastInDim NodeVec ![] bc_sc_nodevec (constant (F := Ideal) Sc .f32 0x3F800000#32))

/-! ## Whole arrays -/

/-- What a combine region leaves, from the arrays it is entered with: the stacked arrangement at every index. -/
def stackedArr (relu : Bool) (X M D : FVec Ideal Nodes .f32) (Wc : FVec Ideal W256 .f32) (B : FVec Ideal Row128 .f32) :
    FVec Ideal Nodes .f32 := fun y =>
  let p : Fin 100000 := ⟨(y 0).val, idx2_lt0 y⟩
  let q : Fin 128 := ⟨(y 1).val, idx2_lt1 y⟩
  let v := (∑ k : Fin 256, sideBySide (fun k => X (ix2 p k)) (fun k => M (ix2 p k) * D (ix2 p k)) k * Wc (ix2 q k)) + B (ix2 (0 : Fin 1) q)
  if relu then max v 0 else v

/-- A layer as the reference arranges it, from the features, the summed messages and the divisors. -/
def splitArr (relu : Bool) (X M : FVec Ideal Nodes .f32) (Dm : FVec Ideal NodeVec .f32) (Ws Wn : FVec Ideal W128 .f32)
    (b : FVec Ideal Vec128 .f32) : FVec Ideal Nodes .f32 := fun y =>
  let p : Fin 100000 := ⟨(y 0).val, idx2_lt0 y⟩
  let q : Fin 128 := ⟨(y 1).val, idx2_lt1 y⟩
  let v := combineSplit (fun k => X (ix2 p k)) (fun k => M (ix2 p k)) (Dm (ix1 p)) (fun k => Ws (ix2 q k)) (fun k => Wn (ix2 q k)) (b (ix1 q))
  if relu then max v 0 else v

/-- One graph-convolution layer. -/
def layer (relu : Bool) (H : FVec Ideal Nodes .f32) (src dst : IVec Edges 32) (Ws Wn : FVec Ideal W128 .f32)
    (b : FVec Ideal Vec128 .f32) : FVec Ideal Nodes .f32 :=
  splitArr relu H (msgSum H src dst) (dmax dst) Ws Wn b

/-- What the predictor region leaves, from the arrays it is entered with: row p, column q is the perceptron of rows p
    of the two gathered tables, its last layer's weight row q and bias entry q. -/
def mlpArr (HS HD : FVec Ideal PairRows .f32) (P1 : FVec Ideal W256 .f32) (c1 : FVec Ideal Row128 .f32)
    (P2 : FVec Ideal W128 .f32) (c2 : FVec Ideal Row128 .f32) (P3 : FVec Ideal W128 .f32) (c3 : FVec Ideal Row128 .f32) :
    FVec Ideal PairRows .f32 := fun y =>
  let p : Fin 200704 := ⟨(y 0).val, idx2_lt0 y⟩
  let q : Fin 128 := ⟨(y 1).val, idx2_lt1 y⟩
  mlp (fun k => HS (ix2 p k)) (fun k => HD (ix2 p k)) (fun l r => P1 (ix2 l r)) (fun l => c1 (ix2 (0 : Fin 1) l))
    (fun k l => P2 (ix2 k l)) (fun k => c2 (ix2 (0 : Fin 1) k)) (fun k => P3 (ix2 q k)) (c3 (ix2 (0 : Fin 1) q))

/-- The scores of 100000 pairs of nodes named by two lists of index words. -/
def scoreArr (H : FVec Ideal Nodes .f32) (s d : IVec NodeVec 32) (P1 : FVec Ideal W256 .f32) (c1 : FVec Ideal Vec128 .f32)
    (P2 : FVec Ideal W128 .f32) (c2 : FVec Ideal Vec128 .f32) (P3 : FVec Ideal Row128 .f32) (c3 : FVec Ideal ⟨1, ![1]⟩ .f32) :
    FVec Ideal NodeCol .f32 := fun y =>
  let p : Fin 100000 := ⟨(y 0).val, idx2_lt0 y⟩
  mlp (fun k => H (ix2 (nodeOf (s (ix1 p))) k)) (fun k => H (ix2 (nodeOf (d (ix1 p))) k)) (fun l r => P1 (ix2 l r)) (fun l => c1 (ix1 l))
    (fun k l => P2 (ix2 k l)) (fun k => c2 (ix1 k)) (fun k => P3 (ix2 (0 : Fin 1) k)) (c3 (ix1 (0 : Fin 1)))

end Cert.Spec

end
-- ==== Proof.LibPlainDot.lean ====
/- The plain product of an M×K matrix by a K×N matrix, read at an index of the result, at the ideal (extended-real)
   values: entry (r, c) is the sum over the contracted coordinate k of x[r, k] * w[k, c]. Stated for the reference's
   product with no accumulator and for the kernel's product accumulated into a zero array, which is the same sum
   because 0 + s = s. -/
import Idealize.ShloMosaic.Lib.StackMember

noncomputable section

open scoped BigOperators

namespace Cert.LibPlainDot

open Idealize.ShloMosaic

/-- The reference's plain product at an index: the sum over the contracted coordinate. -/
theorem dotGeneral_plain_apply (M K N : Nat) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    Host.dotGeneral (DotDims.plain M K N) prec x w j = ∑ k : Fin K, x (ValueIdx.ix2 (j 0) k) * w (ValueIdx.ix2 k (j 1)) := by
  have e := StackMember.dotGeneral_plain_apply (m := M) (n := N) (k := K) prec x w (j 0) (j 1)
  exact (congrArg (Host.dotGeneral (DotDims.plain M K N) prec x w) (ValueIdx.eq_ix2 j)).trans e

/-- The kernel's product into a zero accumulator at an index: the same sum. -/
theorem matmul_zero_plain_apply {M K N : Nat} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (j : (⟨2, ![M, N]⟩ : Shape).Idx) :
    matmul d prec x w (constant ⟨2, ![M, N]⟩ .f32 0x00000000#32) j
      = ∑ k : Fin K, x (ValueIdx.ix2 (j 0) k) * w (ValueIdx.ix2 k (j 1)) := by
  subst hd
  rw [matmul_zero_eq_dotGeneral]
  exact dotGeneral_plain_apply M K N prec x w j

end Cert.LibPlainDot

end
-- ==== Proof.KiValue0.lean ====
/-
  The value of the first combine region at the extended reals. Grid point t of 20 holds rows 5000·t … 5000·t + 4999 of
  the features x, of the summed messages msg and of the reciprocal degrees dinv, and the whole stacked weight wcat
  (128 × 256) and bias row b. At (p, q) of its block the body computes
      max((Σ_{k<256} [x | msg · dinv][p, k] · wcat[q, k]) + b[0, q], 0):
  the product is against the transpose of the loaded weight, and the row [x | msg · dinv] is the concatenation of the
  feature row with the scaled message row. Every row of the array lies in exactly the block of point row / 5000, so
  after the region the result array holds that expression at every (5000·t + p, q): the stacked arrangement of Spec.
-/
import proofs.«400663_j26508538151583_4_alg».proof.Proof.KiRegion0
import proofs.«400663_j26508538151583_4_alg».proof.Proof.Spec
import proofs.«400663_j26508538151583_4_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

/-- Two row blocks side by side, read at a point of the wide block. -/
theorem cat_apply (a b : Vec Ideal S5000x128 .f32) (h : Shape.Concatenates [S5000x128, S5000x128] S5000x256 1)
    (p : Fin 5000) (k : Fin 256) :
    concatenate S5000x256 1 [⟨S5000x128, a⟩, ⟨S5000x128, b⟩] h (ix2 p k)
      = Cert.Spec.sideBySide (fun k => a (ix2 p k)) (fun k => b (ix2 p k)) k := by
  unfold Cert.Spec.sideBySide
  by_cases hk : k.val < 128
  · rw [dif_pos hk]
    refine concatenate_pair_apply_left (1 : Fin 2) a b h (ix2 p k) rfl (ix2 p ⟨k.val, hk⟩) fun c => ?_
    match c with
    | ⟨0, _⟩ => rfl
    | ⟨1, _⟩ => rfl
  · rw [dif_neg hk]
    have hk2 : k.val - 128 < 128 := by have := k.isLt; omega
    refine concatenate_pair_apply_right (1 : Fin 2) a b h (ix2 p k) rfl rfl (ix2 p ⟨k.val - 128, hk2⟩) (fun c hc => ?_) ?_
    · match c with
      | ⟨0, _⟩ => rfl
      | ⟨1, _⟩ => exact absurd rfl hc
    · show k.val - 128 + 128 = k.val
      omega

/-- The first combine's arithmetic at a point of the block: the row [x | msg · dinv] against row q of the stacked weight,
    plus the bias, then max(·, 0). -/
theorem pay0_apply (x0 x1 x2 : Vec Ideal S5000x128 .f32) (x3 : Vec Ideal S128x256 .f32) (x4 : Vec Ideal S1x128 .f32)
    (p : Fin 5000) (q : Fin 128) :
    k0_pay1 x0 x1 x2 x3 x4 (ix2 p q)
      = max ((∑ k : Fin 256, Cert.Spec.sideBySide (fun k => x0 (ix2 p k)) (fun k => x1 (ix2 p k) * x2 (ix2 p k)) k * x3 (ix2 q k))
          + x4 (ix2 (0 : Fin 1) q)) 0 := by
  unfold k0_pay1
  simp only [shapeCast_self, maximumf_apply, addf_apply, broadcast_apply]
  rw [broadcastTo_1b_ab_apply]
  refine congrArg₂ max (congrArg₂ (· + ·)
    ((Cert.LibPlainDot.matmul_zero_plain_apply dot_S5000x256_S256x128_S5000x128_1_0_0_1_n_n rfl none _ _ (ix2 p q)).trans
      (Finset.sum_congr rfl fun k _ => ?_)) rfl) Ideal.ofBits_zero_f32
  refine congrArg₂ (· * ·) ((cat_apply _ _ _ p k).trans ?_) (transpose_ix2_apply x3 _ k q)
  simp only [shapeCast_self]
  rfl

variable (V : (c : Dev nD) → (b : Ref sig .tc) → Buf (Elt Ideal) ((c : Thread nD τ).loc b))

theorem hz : (![0, 0] : Fin 2 → Nat) = fun _ => 0 := funext fun a => by fin_cases a <;> rfl

/-! ## The arrays the region is entered with and the blocks a point sees, at their literal types -/

/-- The features, the summed messages, the reciprocal degrees, the stacked weight and the bias row as the region finds them. -/
abbrev xarr (c : Dev nD) : FVec Ideal Cert.Spec.Nodes .f32 := V c main_arg0
abbrev marr (c : Dev nD) : FVec Ideal Cert.Spec.Nodes .f32 := V c main_v20
abbrev darr (c : Dev nD) : FVec Ideal Cert.Spec.Nodes .f32 := V c main_v9
abbrev warr (c : Dev nD) : FVec Ideal Cert.Spec.W256 .f32 := V c main_v10
abbrev barr (c : Dev nD) : FVec Ideal Cert.Spec.Row128 .f32 := V c main_v21

/-- Their blocks at point `t`. -/
abbrev xblk (c : Dev nD) (t : Fin cfg0.N) : Vec Ideal S5000x128 .f32 := Frm.iblk0 V c 0 t
abbrev mblk (c : Dev nD) (t : Fin cfg0.N) : Vec Ideal S5000x128 .f32 := Frm.iblk0 V c 1 t
abbrev dblk (c : Dev nD) (t : Fin cfg0.N) : Vec Ideal S5000x128 .f32 := Frm.iblk0 V c 2 t
abbrev wblk (c : Dev nD) (t : Fin cfg0.N) : Vec Ideal S128x256 .f32 := Frm.iblk0 V c 3 t
abbrev bblk (c : Dev nD) (t : Fin cfg0.N) : Vec Ideal S1x128 .f32 := Frm.iblk0 V c 4 t

/-- What the region leaves: the stacked arrangement, followed by max(·, 0), of the arrays it is entered with. -/
abbrev G0 (c : Dev nD) : FVec Ideal Cert.Spec.Nodes .f32 :=
  Cert.Spec.stackedArr true (xarr V c) (marr V c) (darr V c) (warr V c) (barr V c)

/-! ## Where a point's blocks lie -/

theorem point_lt (t : Fin cfg0.N) : t.val < 20 := lt_of_lt_of_eq t.isLt N_0

/-- Row `p` of point `t`'s row block is row `5000 · t + p` of the array. -/
def rowOf (t : Fin cfg0.N) (p : Fin 5000) : Fin 100000 := ⟨5000 * t.val + p.val, by have := point_lt t; have := p.isLt; omega⟩

/-- The printed index maps over the grid: the three row-blocked inputs and the result are at block row `t`, column
    block 0; the weight and the bias are at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem xblk_apply (c : Dev nD) (t : Fin cfg0.N) (p : Fin 5000) (k : Fin 128) :
    xblk V c t (ix2 p k) = xarr V c (ix2 (rowOf t p) k) := by
  obtain ⟨e0, e1, -⟩ := idx_facts t
  show V c main_arg0 (((cfg0.win 0).blk t).view.emb (ix2 p k)) = V c main_arg0 (ix2 (rowOf t p) k)
  congr 1
  funext a; apply Fin.ext
  match a with
  | ⟨0, _⟩ => show win0_0.index t (0 : Fin 2) * 5000 + 1 * p.val = 5000 * t.val + p.val; omega
  | ⟨1, _⟩ => show win0_0.index t (1 : Fin 2) * 128 + 1 * k.val = k.val; omega

theorem mblk_apply (c : Dev nD) (t : Fin cfg0.N) (p : Fin 5000) (k : Fin 128) :
    mblk V c t (ix2 p k) = marr V c (ix2 (rowOf t p) k) := by
  obtain ⟨-, -, e0, e1, -⟩ := idx_facts t
  show V c main_v20 (((cfg0.win 1).blk t).view.emb (ix2 p k)) = V c main_v20 (ix2 (rowOf t p) k)
  congr 1
  funext a; apply Fin.ext
  match a with
  | ⟨0, _⟩ => show win0_1.index t (0 : Fin 2) * 5000 + 1 * p.val = 5000 * t.val + p.val; omega
  | ⟨1, _⟩ => show win0_1.index t (1 : Fin 2) * 128 + 1 * k.val = k.val; omega

theorem dblk_apply (c : Dev nD) (t : Fin cfg0.N) (p : Fin 5000) (k : Fin 128) :
    dblk V c t (ix2 p k) = darr V c (ix2 (rowOf t p) k) := by
  obtain ⟨-, -, -, -, e0, e1, -⟩ := idx_facts t
  show V c main_v9 (((cfg0.win 2).blk t).view.emb (ix2 p k)) = V c main_v9 (ix2 (rowOf t p) k)
  congr 1
  funext a; apply Fin.ext
  match a with
  | ⟨0, _⟩ => show win0_2.index t (0 : Fin 2) * 5000 + 1 * p.val = 5000 * t.val + p.val; omega
  | ⟨1, _⟩ => show win0_2.index t (1 : Fin 2) * 128 + 1 * k.val = k.val; omega

theorem wblk_apply (c : Dev nD) (t : Fin cfg0.N) (q : Fin 128) (k : Fin 256) :
    wblk V c t (ix2 q k) = warr V c (ix2 q k) := by
  obtain ⟨-, -, -, -, -, -, e0, e1, -⟩ := idx_facts t
  show V c main_v10 (((cfg0.win 3).blk t).view.emb (ix2 q k)) = V c main_v10 (ix2 q k)
  congr 1
  funext a; apply Fin.ext
  match a with
  | ⟨0, _⟩ => show win0_3.index t (0 : Fin 2) * 128 + 1 * q.val = q.val; omega
  | ⟨1, _⟩ => show win0_3.index t (1 : Fin 2) * 256 + 1 * k.val = k.val; omega

theorem bblk_apply (c : Dev nD) (t : Fin cfg0.N) (z : Fin 1) (q : Fin 128) :
    bblk V c t (ix2 z q) = barr V c (ix2 z q) := by
  obtain ⟨-, -, -, -, -, -, -, -, e0, e1, -⟩ := idx_facts t
  show V c main_v21 (((cfg0.win 4).blk t).view.emb (ix2 z q)) = V c main_v21 (ix2 z q)
  congr 1
  funext a; apply Fin.ext
  match a with
  | ⟨0, _⟩ => show win0_4.index t (0 : Fin 2) * 1 + 1 * z.val = z.val; omega
  | ⟨1, _⟩ => show win0_4.index t (1 : Fin 2) * 128 + 1 * q.val = q.val; omega

/-- An element of the result's block at point `t` sits in the array at row `5000 · t + p`. -/
theorem emb5 (t : Fin cfg0.N) (p : Fin 5000) (q : Fin 128) :
    ((cfg0.win 5).blk t).view.emb (ix2 p q) = (ix2 (rowOf t p) q : S100000x128.Idx) := by
  obtain ⟨-, -, -, -, -, -, -, -, -, -, e0, e1⟩ := idx_facts t
  funext a; apply Fin.ext
  match a with
  | ⟨0, _⟩ => show win0_5.index t (0 : Fin 2) * 5000 + 1 * p.val = 5000 * t.val + p.val; omega
  | ⟨1, _⟩ => show win0_5.index t (1 : Fin 2) * 128 + 1 * q.val = q.val; omega

/-! ## What a point writes back -/

/-- The body's arithmetic on point `t`'s blocks, at a point of the block, is the stacked arrangement at the array's
    row `5000 · t + p`. -/
theorem point0 (c : Dev nD) (t : Fin cfg0.N) (p : Fin 5000) (q : Fin 128) :
    k0_pay1 (xblk V c t) (mblk V c t) (dblk V c t) (wblk V c t) (bblk V c t) (ix2 p q) = G0 V c (ix2 (rowOf t p) q) := by
  refine (pay0_apply (xblk V c t) (mblk V c t) (dblk V c t) (wblk V c t) (bblk V c t) p q).trans ?_
  simp only [xblk_apply, mblk_apply, dblk_apply, wblk_apply, bblk_apply]
  rfl

/-- What point `t` writes back is block `t` of `G0`. -/
theorem flushed0_eq (c : Dev nD) (t : Fin cfg0.N) :
    (Frm.dat0 (F := Ideal) V c).flushed 5 t = ((cfg0.win 5).blk t).view.read (Elt Ideal) (G0 V c) := by
  show (cfg0.win 5).cut (grid0.coords t) ((Frm.dat0 (F := Ideal) V c).after 5 t) = _
  rw [Frm.after0_5]
  unfold Frm.out0_5
  rw [View.canon_unit_zero hz]
  simp only [View.ld_unit_zero (S := S5000x128) hz, View.ld_unit_zero (S := S128x256) hz, View.ld_unit_zero (S := S1x128) hz]
  funext j
  obtain ⟨p, q, rfl⟩ : ∃ (p : Fin 5000) (q : Fin 128), j = ix2 p q := ⟨j 0, j 1, eq_ix2 j⟩
  show k0_pay1 (xblk V c t) (mblk V c t) (dblk V c t) (wblk V c t) (bblk V c t) (ix2 p q)
    = G0 V c (((cfg0.win 5).blk t).view.emb (ix2 p q))
  rw [emb5 t p q]
  exact point0 V c t p q

/-! ## The blocks cover the array -/

/-- An index of the array is in point `t`'s block iff each coordinate is in the block's range on its axis. -/
theorem mem_blk5 (t : Fin cfg0.N) (i : S100000x128.Idx) :
    i ∈ ((cfg0.win 5).blk t).view.set
      ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- Row `r` of the array is in the block of point `r / 5000`. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 5000, lt_of_lt_of_eq (by omega : (i 0).val / 5000 < 20) N_0.symm⟩
  obtain ⟨-, -, -, -, -, -, -, -, -, -, e0, e1⟩ := idx_facts t
  have ht : t.val = (i 0).val / 5000 := rfl
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-! ## The array after the region -/

/-- The result array after the first combine: the stacked arrangement, followed by max(·, 0), at every index. -/
theorem arr0 (V : (c : Dev nD) → (b : Ref sig .tc) → Buf (Elt Ideal) ((c : Thread nD τ).loc b)) (c : Dev nD) :
    (Frm.dat0 (F := Ideal) V c).arrAt 5 cfg0.N
      = Cert.Spec.stackedArr true (V c main_arg0) (V c main_v20) (V c main_v9) (V c main_v10) (V c main_v21) :=
  (Frm.dat0 (F := Ideal) V c).arrAt_eq_of_cover 5 (G0 V c) (fun t _ => flushed0_eq V c t) cover0

end Cert.KernelIdeal.Val

end
-- ==== Proof.KiValue1.lean ====
/-
  The value of the second combine region at the extended reals. Grid point t of 20 holds rows 5000·t … 5000·t + 4999 of
  the first layer's result h, of its summed messages msg and of the reciprocal degrees dinv, and the whole stacked weight
  wcat (128 × 256) and bias row b of the second layer. At (p, q) of its block the body computes
      (Σ_{k<256} [h | msg · dinv][p, k] · wcat[q, k]) + b[0, q],
  the first combine's expression without the closing maximum. Every row of the array lies in exactly the block of point
  row / 5000, so after the region the result array holds that expression at every (5000·t + p, q).
-/
import proofs.«400663_j26508538151583_4_alg».proof.Proof.KiRegion1
import proofs.«400663_j26508538151583_4_alg».proof.Proof.KiValue0
import proofs.«400663_j26508538151583_4_alg».proof.Proof.Spec
import proofs.«400663_j26508538151583_4_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

/-- The second combine's arithmetic at a point of the block: the row [x | msg · dinv] against row q of the stacked weight,
    plus the bias. -/
theorem pay1_apply (x0 x1 x2 : Vec Ideal S5000x128 .f32) (x3 : Vec Ideal S128x256 .f32) (x4 : Vec Ideal S1x128 .f32)
    (p : Fin 5000) (q : Fin 128) :
    k1_pay1 x0 x1 x2 x3 x4 (ix2 p q)
      = (∑ k : Fin 256, Cert.Spec.sideBySide (fun k => x0 (ix2 p k)) (fun k => x1 (ix2 p k) * x2 (ix2 p k)) k * x3 (ix2 q k))
          + x4 (ix2 (0 : Fin 1) q) := by
  unfold k1_pay1
  simp only [shapeCast_self, addf_apply]
  rw [broadcastTo_1b_ab_apply]
  refine congrArg₂ (· + ·)
    ((Cert.LibPlainDot.matmul_zero_plain_apply dot_S5000x256_S256x128_S5000x128_1_0_0_1_n_n rfl none _ _ (ix2 p q)).trans
      (Finset.sum_congr rfl fun k _ => ?_)) rfl
  refine congrArg₂ (· * ·) ((cat_apply _ _ _ p k).trans ?_) (transpose_ix2_apply x3 _ k q)
  simp only [shapeCast_self]
  rfl

variable (V : (c : Dev nD) → (b : Ref sig .tc) → Buf (Elt Ideal) ((c : Thread nD τ).loc b))

/-! ## The arrays the region is entered with and the blocks a point sees, at their literal types -/

/-- The first layer's result, its summed messages, the reciprocal degrees, the second layer's stacked weight and bias row
    as the region finds them. -/
abbrev xarr1 (c : Dev nD) : FVec Ideal Cert.Spec.Nodes .f32 := V c main_v22
abbrev marr1 (c : Dev nD) : FVec Ideal Cert.Spec.Nodes .f32 := V c main_v33
abbrev darr1 (c : Dev nD) : FVec Ideal Cert.Spec.Nodes .f32 := V c main_v9
abbrev warr1 (c : Dev nD) : FVec Ideal Cert.Spec.W256 .f32 := V c main_v23
abbrev barr1 (c : Dev nD) : FVec Ideal Cert.Spec.Row128 .f32 := V c main_v34

/-- Their blocks at point `t`. -/
abbrev xblk1 (c : Dev nD) (t : Fin cfg1.N) : Vec Ideal S5000x128 .f32 := Frm.iblk1 V c 0 t
abbrev mblk1 (c : Dev nD) (t : Fin cfg1.N) : Vec Ideal S5000x128 .f32 := Frm.iblk1 V c 1 t
abbrev dblk1 (c : Dev nD) (t : Fin cfg1.N) : Vec Ideal S5000x128 .f32 := Frm.iblk1 V c 2 t
abbrev wblk1 (c : Dev nD) (t : Fin cfg1.N) : Vec Ideal S128x256 .f32 := Frm.iblk1 V c 3 t
abbrev bblk1 (c : Dev nD) (t : Fin cfg1.N) : Vec Ideal S1x128 .f32 := Frm.iblk1 V c 4 t

/-- What the region leaves: the stacked arrangement of the arrays it is entered with. -/
abbrev G1 (c : Dev nD) : FVec Ideal Cert.Spec.Nodes .f32 :=
  Cert.Spec.stackedArr false (xarr1 V c) (marr1 V c) (darr1 V c) (warr1 V c) (barr1 V c)

/-! ## Where a point's blocks lie -/

theorem point_lt1 (t : Fin cfg1.N) : t.val < 20 := lt_of_lt_of_eq t.isLt N_1

/-- Row `p` of point `t`'s row block is row `5000 · t + p` of the array. -/
def rowOf1 (t : Fin cfg1.N) (p : Fin 5000) : Fin 100000 := ⟨5000 * t.val + p.val, by have := point_lt1 t; have := p.isLt; omega⟩

/-- The printed index maps over the grid: the three row-blocked inputs and the result are at block row `t`, column
    block 0; the weight and the bias are at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem xblk1_apply (c : Dev nD) (t : Fin cfg1.N) (p : Fin 5000) (k : Fin 128) :
    xblk1 V c t (ix2 p k) = xarr1 V c (ix2 (rowOf1 t p) k) := by
  obtain ⟨e0, e1, -⟩ := idx_facts1 t
  show V c main_v22 (((cfg1.win 0).blk t).view.emb (ix2 p k)) = V c main_v22 (ix2 (rowOf1 t p) k)
  congr 1
  funext a; apply Fin.ext
  match a with
  | ⟨0, _⟩ => show win1_0.index t (0 : Fin 2) * 5000 + 1 * p.val = 5000 * t.val + p.val; omega
  | ⟨1, _⟩ => show win1_0.index t (1 : Fin 2) * 128 + 1 * k.val = k.val; omega

theorem mblk1_apply (c : Dev nD) (t : Fin cfg1.N) (p : Fin 5000) (k : Fin 128) :
    mblk1 V c t (ix2 p k) = marr1 V c (ix2 (rowOf1 t p) k) := by
  obtain ⟨-, -, e0, e1, -⟩ := idx_facts1 t
  show V c main_v33 (((cfg1.win 1).blk t).view.emb (ix2 p k)) = V c main_v33 (ix2 (rowOf1 t p) k)
  congr 1
  funext a; apply Fin.ext
  match a with
  | ⟨0, _⟩ => show win1_1.index t (0 : Fin 2) * 5000 + 1 * p.val = 5000 * t.val + p.val; omega
  | ⟨1, _⟩ => show win1_1.index t (1 : Fin 2) * 128 + 1 * k.val = k.val; omega

theorem dblk1_apply (c : Dev nD) (t : Fin cfg1.N) (p : Fin 5000) (k : Fin 128) :
    dblk1 V c t (ix2 p k) = darr1 V c (ix2 (rowOf1 t p) k) := by
  obtain ⟨-, -, -, -, e0, e1, -⟩ := idx_facts1 t
  show V c main_v9 (((cfg1.win 2).blk t).view.emb (ix2 p k)) = V c main_v9 (ix2 (rowOf1 t p) k)
  congr 1
  funext a; apply Fin.ext
  match a with
  | ⟨0, _⟩ => show win1_2.index t (0 : Fin 2) * 5000 + 1 * p.val = 5000 * t.val + p.val; omega
  | ⟨1, _⟩ => show win1_2.index t (1 : Fin 2) * 128 + 1 * k.val = k.val; omega

theorem wblk1_apply (c : Dev nD) (t : Fin cfg1.N) (q : Fin 128) (k : Fin 256) :
    wblk1 V c t (ix2 q k) = warr1 V c (ix2 q k) := by
  obtain ⟨-, -, -, -, -, -, e0, e1, -⟩ := idx_facts1 t
  show V c main_v23 (((cfg1.win 3).blk t).view.emb (ix2 q k)) = V c main_v23 (ix2 q k)
  congr 1
  funext a; apply Fin.ext
  match a with
  | ⟨0, _⟩ => show win1_3.index t (0 : Fin 2) * 128 + 1 * q.val = q.val; omega
  | ⟨1, _⟩ => show win1_3.index t (1 : Fin 2) * 256 + 1 * k.val = k.val; omega

theorem bblk1_apply (c : Dev nD) (t : Fin cfg1.N) (z : Fin 1) (q : Fin 128) :
    bblk1 V c t (ix2 z q) = barr1 V c (ix2 z q) := by
  obtain ⟨-, -, -, -, -, -, -, -, e0, e1, -⟩ := idx_facts1 t
  show V c main_v34 (((cfg1.win 4).blk t).view.emb (ix2 z q)) = V c main_v34 (ix2 z q)
  congr 1
  funext a; apply Fin.ext
  match a with
  | ⟨0, _⟩ => show win1_4.index t (0 : Fin 2) * 1 + 1 * z.val = z.val; omega
  | ⟨1, _⟩ => show win1_4.index t (1 : Fin 2) * 128 + 1 * q.val = q.val; omega

/-- An element of the result's block at point `t` sits in the array at row `5000 · t + p`. -/
theorem emb5_1 (t : Fin cfg1.N) (p : Fin 5000) (q : Fin 128) :
    ((cfg1.win 5).blk t).view.emb (ix2 p q) = (ix2 (rowOf1 t p) q : S100000x128.Idx) := by
  obtain ⟨-, -, -, -, -, -, -, -, -, -, e0, e1⟩ := idx_facts1 t
  funext a; apply Fin.ext
  match a with
  | ⟨0, _⟩ => show win1_5.index t (0 : Fin 2) * 5000 + 1 * p.val = 5000 * t.val + p.val; omega
  | ⟨1, _⟩ => show win1_5.index t (1 : Fin 2) * 128 + 1 * q.val = q.val; omega

/-! ## What a point writes back -/

/-- The body's arithmetic on point `t`'s blocks, at a point of the block, is the stacked arrangement at the array's
    row `5000 · t + p`. -/
theorem point1 (c : Dev nD) (t : Fin cfg1.N) (p : Fin 5000) (q : Fin 128) :
    k1_pay1 (xblk1 V c t) (mblk1 V c t) (dblk1 V c t) (wblk1 V c t) (bblk1 V c t) (ix2 p q) = G1 V c (ix2 (rowOf1 t p) q) := by
  refine (pay1_apply (xblk1 V c t) (mblk1 V c t) (dblk1 V c t) (wblk1 V c t) (bblk1 V c t) p q).trans ?_
  simp only [xblk1_apply, mblk1_apply, dblk1_apply, wblk1_apply, bblk1_apply]
  rfl

/-- What point `t` writes back is block `t` of `G1`. -/
theorem flushed1_eq (c : Dev nD) (t : Fin cfg1.N) :
    (Frm.dat1 (F := Ideal) V c).flushed 5 t = ((cfg1.win 5).blk t).view.read (Elt Ideal) (G1 V c) := by
  show (cfg1.win 5).cut (grid1.coords t) ((Frm.dat1 (F := Ideal) V c).after 5 t) = _
  rw [Frm.after1_5]
  unfold Frm.out1_5
  rw [View.canon_unit_zero hz]
  simp only [View.ld_unit_zero (S := S5000x128) hz, View.ld_unit_zero (S := S128x256) hz, View.ld_unit_zero (S := S1x128) hz]
  funext j
  obtain ⟨p, q, rfl⟩ : ∃ (p : Fin 5000) (q : Fin 128), j = ix2 p q := ⟨j 0, j 1, eq_ix2 j⟩
  show k1_pay1 (xblk1 V c t) (mblk1 V c t) (dblk1 V c t) (wblk1 V c t) (bblk1 V c t) (ix2 p q)
    = G1 V c (((cfg1.win 5).blk t).view.emb (ix2 p q))
  rw [emb5_1 t p q]
  exact point1 V c t p q

/-! ## The blocks cover the array -/

/-- An index of the array is in point `t`'s block iff each coordinate is in the block's range on its axis. -/
theorem mem_blk5_1 (t : Fin cfg1.N) (i : S100000x128.Idx) :
    i ∈ ((cfg1.win 5).blk t).view.set
      ↔ ∀ a : Fin 2, win1_5.index t a * S5000x128.size a ≤ (i a).val ∧ (i a).val < win1_5.index t a * S5000x128.size a + S5000x128.size a := by
  show i ∈ ((View.whole main_v35).slice (win1_5.rect t)).set ↔ _
  rw [View.set_slice_whole, Rect.mem_set_unit]
  exact Iff.rfl

/-- Row `r` of the array is in the block of point `r / 5000`. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 5000, lt_of_lt_of_eq (by omega : (i 0).val / 5000 < 20) N_1.symm⟩
  obtain ⟨-, -, -, -, -, -, -, -, -, -, e0, e1⟩ := idx_facts1 t
  have ht : t.val = (i 0).val / 5000 := rfl
  refine ⟨t, flush1_5 t, ?_⟩
  rw [mem_blk5_1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-! ## The array after the region -/

/-- The result array after the second combine: the stacked arrangement at every index. -/
theorem arr1 (V : (c : Dev nD) → (b : Ref sig .tc) → Buf (Elt Ideal) ((c : Thread nD τ).loc b)) (c : Dev nD) :
    (Frm.dat1 (F := Ideal) V c).arrAt 5 cfg1.N
      = Cert.Spec.stackedArr false (V c main_v22) (V c main_v33) (V c main_v9) (V c main_v23) (V c main_v34) :=
  (Frm.dat1 (F := Ideal) V c).arrAt_eq_of_cover 5 (G1 V c) (fun t _ => flushed1_eq V c t) cover1

end Cert.KernelIdeal.Val

end
-- ==== Proof.KiValue2.lean ====
/-
  The value of the link predictor region. A grid point t of 196 holds rows 1024·t … 1024·t + 1023 of the two gathered
  endpoint tables and the whole of the three weights and the three bias rows; its body puts the two row blocks side by
  side and applies three linear layers, each a product against the transpose of the loaded weight plus the bias row
  broadcast over the rows, the first two followed by max(·, 0). Read at an entry (p, q) of the block this is the
  perceptron Spec.mlp of rows p of the two blocks, with the last layer's weight row q and bias entry q. The two row
  windows' block at point t is rows 1024·t + p of their arrays, the six other windows' block is the whole array, and
  the result window's block at t is rows 1024·t + p of the result; every row r lies in the block of point r / 1024, so
  the result array ends at Spec.mlpArr of the arrays the region is entered with.
-/
import proofs.«400663_j26508538151583_4_alg».proof.Proof.KiRegion2
import proofs.«400663_j26508538151583_4_alg».proof.Proof.Spec
import proofs.«400663_j26508538151583_4_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val2

open Cert.KernelIdeal Cert.KernelIdeal.Gen
open Idealize.ShloMosaic Idealize.ShloMosaic.TcCoe Idealize.ShloMosaic.ValueIdx
open Idealize.SL.Sem
open Idealize.ShloMosaic.Pipeline (Dat)

/-! ## One linear layer at an entry -/

/-- A product of A : [M, K] against the transpose of W : [N, K] into a zero accumulator, plus the bias row b : [1, N]
    broadcast over the rows, read at (p, q): the sum over k of A[p, k] · W[q, k], plus b[0, q]. -/
theorem linear_apply {M K N : Nat} (d : DotDims ⟨2, ![M, K]⟩ ⟨2, ![K, N]⟩ ⟨2, ![M, N]⟩) (hd : d = DotDims.plain M K N)
    (A : FVec Ideal ⟨2, ![M, K]⟩ .f32) (W : FVec Ideal ⟨2, ![N, K]⟩ .f32)
    (hT : (⟨2, ![N, K]⟩ : Shape).Transposes [1, 0] ⟨2, ![K, N]⟩)
    (b : FVec Ideal ⟨2, ![1, N]⟩ .f32) (hS : (⟨2, ![1, N]⟩ : Shape).ShapeCasts ⟨2, ![1, N]⟩)
    (hB : (⟨2, ![1, N]⟩ : Shape).Broadcasts ⟨2, ![M, N]⟩) (p : Fin M) (q : Fin N) :
    addf (matmul d none A (transpose ⟨2, ![K, N]⟩ [1, 0] W hT) (constant (F := Ideal) ⟨2, ![M, N]⟩ .f32 0x00000000#32))
        (broadcastTo ⟨2, ![M, N]⟩ (shapeCast ⟨2, ![1, N]⟩ b hS) hB) (ix2 p q)
      = (∑ k : Fin K, A (ix2 p k) * W (ix2 q k)) + b (ix2 (0 : Fin 1) q) := by
  show matmul d none A (transpose ⟨2, ![K, N]⟩ [1, 0] W hT) (constant (F := Ideal) ⟨2, ![M, N]⟩ .f32 0x00000000#32) (ix2 p q)
      + broadcastTo ⟨2, ![M, N]⟩ (shapeCast ⟨2, ![1, N]⟩ b hS) hB (ix2 p q) = _
  rw [Cert.LibPlainDot.matmul_zero_plain_apply d hd none A _ (ix2 p q), shapeCast_self, broadcastTo_1b_ab_apply]
  refine congrArg (· + b (ix2 (0 : Fin 1) q)) (Finset.sum_congr rfl fun k _ => ?_)
  exact congrArg (A (ix2 p k) * ·) (transpose_ix2_apply W hT k q)

/-- max(·, 0) as the body writes it, read at an entry. -/
theorem relu_apply {s : Shape} (v : FVec Ideal s .f32) (i : s.Idx) :
    maximumf v (broadcast s (Scalar.ofBits (F := Ideal) .f32 0x00000000#32)) i = max (v i) 0 := by
  show max (v i) (Ideal.ofBits .f32 0x00000000#32) = _
  rw [Ideal.ofBits_zero_f32]

/-- Two [M, 128] blocks put side by side, read at (p, k): the first block's row p below column 128, the second's from it. -/
theorem sideBySide_apply {M : Nat} (x y : FVec Ideal ⟨2, ![M, 128]⟩ .f32)
    (h : Shape.Concatenates [(⟨2, ![M, 128]⟩ : Shape), ⟨2, ![M, 128]⟩] ⟨2, ![M, 256]⟩ 1) (p : Fin M) (k : Fin 256) :
    concatenate ⟨2, ![M, 256]⟩ 1 [⟨⟨2, ![M, 128]⟩, x⟩, ⟨⟨2, ![M, 128]⟩, y⟩] h (ix2 p k)
      = Cert.Spec.sideBySide (fun k => x (ix2 p k)) (fun k => y (ix2 p k)) k := by
  unfold Cert.Spec.sideBySide
  by_cases hk : k.val < 128
  · rw [dif_pos hk]
    refine concatenate_pair_apply_left (1 : Fin 2) x y h (ix2 p k) rfl (ix2 p ⟨k.val, hk⟩) fun b => ?_
    match b with
    | ⟨0, _⟩ => rfl
    | ⟨1, _⟩ => rfl
  · rw [dif_neg hk]
    refine concatenate_pair_apply_right (1 : Fin 2) x y h (ix2 p k) rfl rfl (ix2 p ⟨k.val - 128, by have := k.isLt; omega⟩) (fun b hb => ?_) ?_
    · match b with
      | ⟨0, _⟩ => rfl
      | ⟨1, _⟩ => exact absurd rfl hb
    · show k.val - 128 + 128 = k.val
      omega

/-! ## The body's arithmetic at an entry -/

/-- The first hidden layer of the body: the two row blocks side by side against the transpose of the stacked weight,
    plus the bias row, then max(·, 0). -/
def hidden1 (x0 x1 : FVec Ideal S1024x128 .f32) (x2 : FVec Ideal S128x256 .f32) (x3 : FVec Ideal S1x128 .f32) :
    FVec Ideal S1024x128 .f32 :=
  maximumf
    (addf
      (matmul dot_S1024x256_S256x128_S1024x128_1_0_0_1_n_n none
        (concatenate S1024x256 1 [⟨S1024x128, shapeCast S1024x128 x0 shapeCasts_S1024x128_S1024x128⟩,
          ⟨S1024x128, shapeCast S1024x128 x1 shapeCasts_S1024x128_S1024x128⟩] concatenates_S1024x128_S1024x128_S1024x256_d1)
        (transpose S256x128 [1, 0] x2 transposes_S128x256_p1_0_S256x128)
        (constant (F := Ideal) S1024x128 .f32 0x00000000#32))
      (broadcastTo S1024x128 (shapeCast S1x128 x3 shapeCasts_S1x128_S1x128) broadcasts_S1x128_S1024x128))
    (broadcast S1024x128 (Scalar.ofBits (F := Ideal) .f32 0x00000000#32))

/-- The second hidden layer, of any first one. -/
def hidden2 (A : FVec Ideal S1024x128 .f32) (x4 : FVec Ideal S128x128 .f32) (x5 : FVec Ideal S1x128 .f32) :
    FVec Ideal S1024x128 .f32 :=
  maximumf
    (addf
      (matmul dot_S1024x128_S128x128_S1024x128_1_0_0_1_n_n none A
        (transpose S128x128 [1, 0] x4 transposes_S128x128_p1_0_S128x128)
        (constant (F := Ideal) S1024x128 .f32 0x00000000#32))
      (broadcastTo S1024x128 (shapeCast S1x128 x5 shapeCasts_S1x128_S1x128) broadcasts_S1x128_S1024x128))
    (broadcast S1024x128 (Scalar.ofBits (F := Ideal) .f32 0x00000000#32))

/-- The last layer, of any second one. -/
def scores (A : FVec Ideal S1024x128 .f32) (x6 : FVec Ideal S128x128 .f32) (x7 : FVec Ideal S1x128 .f32) :
    FVec Ideal S1024x128 .f32 :=
  addf
    (matmul dot_S1024x128_S128x128_S1024x128_1_0_0_1_n_n none A
      (transpose S128x128 [1, 0] (shapeCast S128x128 x6 shapeCasts_S128x128_S128x128) transposes_S128x128_p1_0_S128x128)
      (constant (F := Ideal) S1024x128 .f32 0x00000000#32))
    (broadcastTo S1024x128 (shapeCast S1x128 x7 shapeCasts_S1x128_S1x128) broadcasts_S1x128_S1024x128)

/-- The body's stored value is the three layers one after another. -/
theorem pay_eq_layers (x0 x1 : Vec Ideal S1024x128 .f32) (x2 : Vec Ideal S128x256 .f32) (x3 : Vec Ideal S1x128 .f32)
    (x4 : Vec Ideal S128x128 .f32) (x5 : Vec Ideal S1x128 .f32) (x6 : Vec Ideal S128x128 .f32) (x7 : Vec Ideal S1x128 .f32) :
    k2_pay1 (F := Ideal) x0 x1 x2 x3 x4 x5 x6 x7 = scores (hidden2 (hidden1 x0 x1 x2 x3) x4 x5) x6 x7 := rfl

/-- The first hidden layer at (p, l). -/
theorem hidden1_apply (x0 x1 : FVec Ideal S1024x128 .f32) (x2 : FVec Ideal S128x256 .f32) (x3 : FVec Ideal S1x128 .f32)
    (p : Fin 1024) (l : Fin 128) :
    hidden1 x0 x1 x2 x3 (ix2 p l)
      = max ((∑ r : Fin 256, Cert.Spec.sideBySide (fun k => x0 (ix2 p k)) (fun k => x1 (ix2 p k)) r * x2 (ix2 l r))
          + x3 (ix2 (0 : Fin 1) l)) 0 := by
  unfold hidden1
  rw [relu_apply, linear_apply dot_S1024x256_S256x128_S1024x128_1_0_0_1_n_n rfl]
  refine congrArg (fun s => max (s + x3 (ix2 (0 : Fin 1) l)) 0) (Finset.sum_congr rfl fun r _ => ?_)
  rw [sideBySide_apply, shapeCast_self, shapeCast_self]

/-- The second hidden layer at (p, k). -/
theorem hidden2_apply (A : FVec Ideal S1024x128 .f32) (x4 : FVec Ideal S128x128 .f32) (x5 : FVec Ideal S1x128 .f32)
    (p : Fin 1024) (k : Fin 128) :
    hidden2 A x4 x5 (ix2 p k) = max ((∑ l : Fin 128, A (ix2 p l) * x4 (ix2 k l)) + x5 (ix2 (0 : Fin 1) k)) 0 := by
  unfold hidden2
  rw [relu_apply, linear_apply dot_S1024x128_S128x128_S1024x128_1_0_0_1_n_n rfl]

/-- The last layer at (p, q). -/
theorem scores_apply (A : FVec Ideal S1024x128 .f32) (x6 : FVec Ideal S128x128 .f32) (x7 : FVec Ideal S1x128 .f32)
    (p : Fin 1024) (q : Fin 128) :
    scores A x6 x7 (ix2 p q) = (∑ k : Fin 128, A (ix2 p k) * x6 (ix2 q k)) + x7 (ix2 (0 : Fin 1) q) := by
  unfold scores
  rw [linear_apply dot_S1024x128_S128x128_S1024x128_1_0_0_1_n_n rfl, shapeCast_self]

/-- THE BODY AT AN ENTRY: the stored value at (p, q) is the perceptron of rows p of the two row blocks, with the last
    layer's weight row q and bias entry q. -/
theorem pay_apply (x0 x1 : Vec Ideal S1024x128 .f32) (x2 : Vec Ideal S128x256 .f32) (x3 : Vec Ideal S1x128 .f32)
    (x4 : Vec Ideal S128x128 .f32) (x5 : Vec Ideal S1x128 .f32) (x6 : Vec Ideal S128x128 .f32) (x7 : Vec Ideal S1x128 .f32)
    (p : Fin 1024) (q : Fin 128) :
    k2_pay1 (F := Ideal) x0 x1 x2 x3 x4 x5 x6 x7 (ix2 p q)
      = Cert.Spec.mlp (fun k => x0 (ix2 p k)) (fun k => x1 (ix2 p k)) (fun l r => x2 (ix2 l r)) (fun l => x3 (ix2 (0 : Fin 1) l))
          (fun k l => x4 (ix2 k l)) (fun k => x5 (ix2 (0 : Fin 1) k)) (fun k => x6 (ix2 q k)) (x7 (ix2 (0 : Fin 1) q)) := by
  rw [pay_eq_layers, scores_apply]
  unfold Cert.Spec.mlp
  refine congrArg (· + x7 (ix2 (0 : Fin 1) q)) (Finset.sum_congr rfl fun k _ => ?_)
  rw [hidden2_apply]
  refine congrArg (fun s => max (s + x5 (ix2 (0 : Fin 1) k)) 0 * x6 (ix2 q k)) (Finset.sum_congr rfl fun l _ => ?_)
  rw [hidden1_apply]

/-! ## The blocks of the windows -/

theorem hz : (![0, 0] : Fin 2 → Nat) = fun _ => 0 := funext fun a => by fin_cases a <;> rfl

/-- The printed index maps over the grid: the two row windows and the result window sit at block (t, 0) at point t, the
    six weight and bias windows at block (0, 0) at every point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

variable (V : (c : Dev nD) → (b : Ref sig .tc) → Buf (Elt Ideal) ((c : Thread nD τ).loc b))

/-- The first row window's block at point t is rows 1024·t + p of the first gathered table. -/
theorem rows0_apply (c : Dev nD) (t : Fin cfg2.N) (p : Fin 1024) (k : Fin 128) (r : Fin 200704) (hr : r.val = t.val * 1024 + p.val) :
    (Frm.iblk2 V c 0 t : Vec Ideal S1024x128 .f32) (ix2 p k) = (V c main_v45 : S200704x128.Idx → Elt Ideal .f32) (ix2 r k) := by
  obtain ⟨e0, e1, -⟩ := idx_facts t
  show V c main_v45 (((cfg2.win 0).blk t).view.emb (ix2 p k)) = _
  refine congrArg _ (funext fun a => Fin.ext ?_)
  match a with
  | ⟨0, _⟩ => show win2_0.index t (0 : Fin 2) * 1024 + 1 * p.val = r.val; omega
  | ⟨1, _⟩ => show win2_0.index t (1 : Fin 2) * 128 + 1 * k.val = k.val; omega

/-- The second row window's block at point t is rows 1024·t + p of the second gathered table. -/
theorem rows1_apply (c : Dev nD) (t : Fin cfg2.N) (p : Fin 1024) (k : Fin 128) (r : Fin 200704) (hr : r.val = t.val * 1024 + p.val) :
    (Frm.iblk2 V c 1 t : Vec Ideal S1024x128 .f32) (ix2 p k) = (V c main_v52 : S200704x128.Idx → Elt Ideal .f32) (ix2 r k) := by
  obtain ⟨-, -, e0, e1, -⟩ := idx_facts t
  show V c main_v52 (((cfg2.win 1).blk t).view.emb (ix2 p k)) = _
  refine congrArg _ (funext fun a => Fin.ext ?_)
  match a with
  | ⟨0, _⟩ => show win2_1.index t (0 : Fin 2) * 1024 + 1 * p.val = r.val; omega
  | ⟨1, _⟩ => show win2_1.index t (1 : Fin 2) * 128 + 1 * k.val = k.val; omega

/-- The stacked weight's window holds the whole weight at every point. -/
theorem whole2_apply (c : Dev nD) (t : Fin cfg2.N) (l : Fin 128) (r : Fin 256) :
    (Frm.iblk2 V c 2 t : Vec Ideal S128x256 .f32) (ix2 l r) = (V c main_arg13 : S128x256.Idx → Elt Ideal .f32) (ix2 l r) := by
  obtain ⟨-, -, -, -, e0, e1, -⟩ := idx_facts t
  show V c main_arg13 (((cfg2.win 2).blk t).view.emb (ix2 l r)) = _
  refine congrArg _ (funext fun a => Fin.ext ?_)
  match a with
  | ⟨0, _⟩ => show win2_2.index t (0 : Fin 2) * 128 + 1 * l.val = l.val; omega
  | ⟨1, _⟩ => show win2_2.index t (1 : Fin 2) * 256 + 1 * r.val = r.val; omega

/-- The first bias row's window holds the whole row at every point. -/
theorem whole3_apply (c : Dev nD) (t : Fin cfg2.N) (z : Fin 1) (l : Fin 128) :
    (Frm.iblk2 V c 3 t : Vec Ideal S1x128 .f32) (ix2 z l) = (V c main_v56 : S1x128.Idx → Elt Ideal .f32) (ix2 z l) := by
  obtain ⟨-, -, -, -, -, -, e0, e1, -⟩ := idx_facts t
  show V c main_v56 (((cfg2.win 3).blk t).view.emb (ix2 z l)) = _
  refine congrArg _ (funext fun a => Fin.ext ?_)
  match a with
  | ⟨0, _⟩ => show win2_3.index t (0 : Fin 2) * 1 + 1 * z.val = z.val; omega
  | ⟨1, _⟩ => show win2_3.index t (1 : Fin 2) * 128 + 1 * l.val = l.val; omega

/-- The second weight's window holds the whole weight at every point. -/
theorem whole4_apply (c : Dev nD) (t : Fin cfg2.N) (k l : Fin 128) :
    (Frm.iblk2 V c 4 t : Vec Ideal S128x128 .f32) (ix2 k l) = (V c main_arg15 : S128x128.Idx → Elt Ideal .f32) (ix2 k l) := by
  obtain ⟨-, -, -, -, -, -, -, -, e0, e1, -⟩ := idx_facts t
  show V c main_arg15 (((cfg2.win 4).blk t).view.emb (ix2 k l)) = _
  refine congrArg _ (funext fun a => Fin.ext ?_)
  match a with
  | ⟨0, _⟩ => show win2_4.index t (0 : Fin 2) * 128 + 1 * k.val = k.val; omega
  | ⟨1, _⟩ => show win2_4.index t (1 : Fin 2) * 128 + 1 * l.val = l.val; omega

/-- The second bias row's window holds the whole row at every point. -/
theorem whole5_apply (c : Dev nD) (t : Fin cfg2.N) (z : Fin 1) (k : Fin 128) :
    (Frm.iblk2 V c 5 t : Vec Ideal S1x128 .f32) (ix2 z k) = (V c main_v57 : S1x128.Idx → Elt Ideal .f32) (ix2 z k) := by
  obtain ⟨-, -, -, -, -, -, -, -, -, -, e0, e1, -⟩ := idx_facts t
  show V c main_v57 (((cfg2.win 5).blk t).view.emb (ix2 z k)) = _
  refine congrArg _ (funext fun a => Fin.ext ?_)
  match a with
  | ⟨0, _⟩ => show win2_5.index t (0 : Fin 2) * 1 + 1 * z.val = z.val; omega
  | ⟨1, _⟩ => show win2_5.index t (1 : Fin 2) * 128 + 1 * k.val = k.val; omega

/-- The last weight's window holds the whole weight at every point. -/
theorem whole6_apply (c : Dev nD) (t : Fin cfg2.N) (q k : Fin 128) :
    (Frm.iblk2 V c 6 t : Vec Ideal S128x128 .f32) (ix2 q k) = (V c main_v53 : S128x128.Idx → Elt Ideal .f32) (ix2 q k) := by
  obtain ⟨-, -, -, -, -, -, -, -, -, -, -, -, e0, e1, -⟩ := idx_facts t
  show V c main_v53 (((cfg2.win 6).blk t).view.emb (ix2 q k)) = _
  refine congrArg _ (funext fun a => Fin.ext ?_)
  match a with
  | ⟨0, _⟩ => show win2_6.index t (0 : Fin 2) * 128 + 1 * q.val = q.val; omega
  | ⟨1, _⟩ => show win2_6.index t (1 : Fin 2) * 128 + 1 * k.val = k.val; omega

/-- The last bias row's window holds the whole row at every point. -/
theorem whole7_apply (c : Dev nD) (t : Fin cfg2.N) (z : Fin 1) (q : Fin 128) :
    (Frm.iblk2 V c 7 t : Vec Ideal S1x128 .f32) (ix2 z q) = (V c main_v55 : S1x128.Idx → Elt Ideal .f32) (ix2 z q) := by
  obtain ⟨-, -, -, -, -, -, -, -, -, -, -, -, -, -, e0, e1, -⟩ := idx_facts t
  show V c main_v55 (((cfg2.win 7).blk t).view.emb (ix2 z q)) = _
  refine congrArg _ (funext fun a => Fin.ext ?_)
  match a with
  | ⟨0, _⟩ => show win2_7.index t (0 : Fin 2) * 1 + 1 * z.val = z.val; omega
  | ⟨1, _⟩ => show win2_7.index t (1 : Fin 2) * 128 + 1 * q.val = q.val; omega

/-! ## What a point writes back, and the array after the region -/

/-- The perceptron array at an entry whose row and column are named. -/
theorem mlpArr_apply (HS HD : FVec Ideal Cert.Spec.PairRows .f32) (P1 : FVec Ideal Cert.Spec.W256 .f32)
    (c1 : FVec Ideal Cert.Spec.Row128 .f32) (P2 : FVec Ideal Cert.Spec.W128 .f32) (c2 : FVec Ideal Cert.Spec.Row128 .f32)
    (P3 : FVec Ideal Cert.Spec.W128 .f32) (c3 : FVec Ideal Cert.Spec.Row128 .f32) (y : Cert.Spec.PairRows.Idx)
    (r : Fin 200704) (q : Fin 128) (h0 : (y 0).val = r.val) (h1 : (y 1).val = q.val) :
    Cert.Spec.mlpArr HS HD P1 c1 P2 c2 P3 c3 y
      = Cert.Spec.mlp (fun k => HS (ix2 r k)) (fun k => HD (ix2 r k)) (fun l r => P1 (ix2 l r)) (fun l => c1 (ix2 (0 : Fin 1) l))
          (fun k l => P2 (ix2 k l)) (fun k => c2 (ix2 (0 : Fin 1) k)) (fun k => P3 (ix2 q k)) (c3 (ix2 (0 : Fin 1) q)) := by
  have er : (⟨(y 0).val, idx2_lt0 y⟩ : Fin 200704) = r := Fin.ext h0
  have eq : (⟨(y 1).val, idx2_lt1 y⟩ : Fin 128) = q := Fin.ext h1
  unfold Cert.Spec.mlpArr
  dsimp only
  rw [er, eq]

/-- WHAT POINT t WRITES BACK is block t of the perceptron array of the arrays the region is entered with. -/
theorem flushed_eq (c : Dev nD) (t : Fin cfg2.N) :
    (Frm.dat2 (F := Ideal) V c).flushed 8 t
      = ((cfg2.win 8).blk t).view.read (Elt Ideal)
          (Cert.Spec.mlpArr (V c main_v45) (V c main_v52) (V c main_arg13) (V c main_v56) (V c main_arg15) (V c main_v57)
            (V c main_v53) (V c main_v55)) := by
  show (cfg2.win 8).cut (grid2.coords t) ((Frm.dat2 V c).after 8 t) = _
  rw [Frm.after2_8]
  unfold Frm.out2_8
  rw [View.canon_unit_zero hz]
  simp only [View.ld_unit_zero (S := S1024x128) hz, View.ld_unit_zero (S := S128x256) hz, View.ld_unit_zero (S := S128x128) hz,
    View.ld_unit_zero (S := S1x128) hz]
  obtain ⟨-, -, -, -, -, -, -, -, -, -, -, -, -, -, -, -, e0, e1⟩ := idx_facts t
  have ht : t.val < 196 := lt_of_lt_of_eq t.isLt N_2
  funext j
  obtain ⟨p, q, rfl⟩ : ∃ (p : Fin 1024) (q : Fin 128), j = ix2 p q := ⟨j 0, j 1, eq_ix2 j⟩
  have hr : t.val * 1024 + p.val < 200704 := by have := p.isLt; omega
  refine (pay_apply (Frm.iblk2 V c 0 t) (Frm.iblk2 V c 1 t) (Frm.iblk2 V c 2 t) (Frm.iblk2 V c 3 t) (Frm.iblk2 V c 4 t)
    (Frm.iblk2 V c 5 t) (Frm.iblk2 V c 6 t) (Frm.iblk2 V c 7 t) p q).trans ?_
  refine Eq.trans ?_ (mlpArr_apply (V c main_v45) (V c main_v52) (V c main_arg13) (V c main_v56) (V c main_arg15) (V c main_v57)
    (V c main_v53) (V c main_v55) (((cfg2.win 8).blk t).view.emb (ix2 p q)) ⟨t.val * 1024 + p.val, hr⟩ q ?_ ?_).symm
  · exact congr (congr (congr (congr (congr (congr (congr (congrArg Cert.Spec.mlp
      (funext fun k => rows0_apply V c t p k ⟨t.val * 1024 + p.val, hr⟩ rfl))
      (funext fun k => rows1_apply V c t p k ⟨t.val * 1024 + p.val, hr⟩ rfl))
      (funext fun l => funext fun r => whole2_apply V c t l r))
      (funext fun l => whole3_apply V c t 0 l))
      (funext fun k => funext fun l => whole4_apply V c t k l))
      (funext fun k => whole5_apply V c t 0 k))
      (funext fun k => whole6_apply V c t q k))
      (whole7_apply V c t 0 q)
  · show win2_8.index t (0 : Fin 2) * 1024 + 1 * p.val = t.val * 1024 + p.val
    omega
  · show win2_8.index t (1 : Fin 2) * 128 + 1 * q.val = q.val
    omega

/-- An index of the result array is in point t's block exactly when each coordinate is in the block's range on its axis. -/
theorem mem_blk (t : Fin cfg2.N) (i : S200704x128.Idx) :
    i ∈ ((cfg2.win 8).blk t).view.set
      ↔ ∀ a : Fin 2, win2_8.index t a * S1024x128.size a ≤ (i a).val ∧ (i a).val < win2_8.index t a * S1024x128.size a + S1024x128.size a := by
  show i ∈ ((View.whole main_v58).slice (win2_8.rect t)).set ↔ _
  rw [View.set_slice_whole, Rect.mem_set_unit]
  exact Iff.rfl

/-- THE RESULT ARRAY AFTER THE REGION: row r lies in the block of point r / 1024, so every entry is written, and the array
    ends at the perceptron array of the arrays the region is entered with. -/
theorem arr2 (c : Dev nD) :
    (Frm.dat2 (F := Ideal) V c).arrAt 8 cfg2.N
      = Cert.Spec.mlpArr (V c main_v45) (V c main_v52) (V c main_arg13) (V c main_v56) (V c main_arg15) (V c main_v57)
          (V c main_v53) (V c main_v55) :=
  (Frm.dat2 (F := Ideal) V c).arrAt_eq_of_cover 8
    (Cert.Spec.mlpArr (V c main_v45) (V c main_v52) (V c main_arg13) (V c main_v56) (V c main_arg15) (V c main_v57)
      (V c main_v53) (V c main_v55))
    (fun t _ => flushed_eq V c t) fun i => by
      have hi0 : (i 0).val < 200704 := (i 0).isLt
      have hi1 : (i 1).val < 128 := (i 1).isLt
      have hN : cfg2.N = 196 := N_2
      have hlt : (i 0).val / 1024 < cfg2.N := by rw [hN]; omega
      obtain ⟨-, -, -, -, -, -, -, -, -, -, -, -, -, -, -, -, e0, e1⟩ := idx_facts ⟨(i 0).val / 1024, hlt⟩
      refine ⟨⟨(i 0).val / 1024, hlt⟩, flush2_8 _, ?_⟩
      rw [mem_blk]
      intro a
      match a with
      | ⟨0, _⟩ =>
        show win2_8.index ⟨(i 0).val / 1024, hlt⟩ (0 : Fin 2) * 1024 ≤ (i 0).val
          ∧ (i 0).val < win2_8.index ⟨(i 0).val / 1024, hlt⟩ (0 : Fin 2) * 1024 + 1024
        rw [e0]
        show (i 0).val / 1024 * 1024 ≤ (i 0).val ∧ (i 0).val < (i 0).val / 1024 * 1024 + 1024
        omega
      | ⟨1, _⟩ =>
        show win2_8.index ⟨(i 0).val / 1024, hlt⟩ (1 : Fin 2) * 128 ≤ (i 1).val
          ∧ (i 1).val < win2_8.index ⟨(i 0).val / 1024, hlt⟩ (1 : Fin 2) * 128 + 128
        rw [e1]
        omega

end Cert.KernelIdeal.Val2

end
-- ==== Proof.SpecHost.lean ====
/-
  The host-side arrays the kernel's program prepares for its three launches, as closed terms of the argument arrays:
  the reciprocal divisors 1 / max(deg, 1) broadcast to full rows, the two weights of a layer stacked side by side, a bias as
  a row, the two endpoint lists of the positive and negative pairs joined and padded with zeros to 200704 entries, the rows
  gathered at them, and the last linear layer's weight and bias padded from one output column to 128.
-/
import proofs.«400663_j26508538151583_4_alg».proof.Proof.Spec
import Idealize.ShloMosaic.PureOps.ShapeOps

noncomputable section

namespace Cert.Spec

open Idealize.ShloMosaic Idealize.ShloMosaic.ValueIdx

abbrev Tail : Shape := ⟨1, ![704]⟩
abbrev One1 : Shape := ⟨1, ![1]⟩
abbrev One11 : Shape := ⟨2, ![1, 1]⟩
abbrev Out2 : Shape := ⟨2, ![200000, 1]⟩

theorem cat_w : Shape.Concatenates [W128, W128] W256 1 := by decide
theorem cat_idx : Shape.Concatenates [NodeVec, NodeVec, Tail] Pairs 0 := by decide
theorem sc_vec_row : Vec128.ShapeCasts Row128 := by decide
theorem sc_one : One1.ShapeCasts One11 := by decide
theorem bc_sc_tail : Sc.BroadcastsInDim Tail (![] : Fin 0 → Fin Tail.rank) := by decide
theorem pads_w : Row128.Pads (![0, 0] : Fin 2 → Nat) ![127, 0] ![0, 0] W128 := by decide
theorem pads_b : One11.Pads (![0, 0] : Fin 2 → Nat) ![0, 127] ![0, 0] Row128 := by decide
theorem pos_sc : 0 < Sc.numel := by decide
theorem sl_out2 : PairRows.Slices ![0, 0] Out2 := by decide
theorem sl_lo : Out2.Slices ![0, 0] NodeCol := by decide
theorem sl_hi : Out2.Slices ![100000, 0] NodeCol := by decide

/-- The reciprocal divisors, one per node, repeated along each row. -/
def dinvFull (dst : IVec Edges 32) : FVec Ideal Nodes .f32 :=
  broadcastInDim Nodes ![0, 1] bc_col_nodes
    (broadcastInDim NodeCol ![0] bc_nodevec_col
      (Host.divf (broadcastInDim NodeVec ![] bc_sc_nodevec (constant (F := Ideal) Sc .f32 0x3F800000#32)) (dmax dst)))

/-- The self weight and the neighbour weight side by side: a 128 × 256 matrix. -/
def catW (Ws Wn : FVec Ideal W128 .f32) : FVec Ideal W256 .f32 :=
  concatenate W256 1 [⟨W128, Ws⟩, ⟨W128, Wn⟩] cat_w

/-- A bias vector as a one-row matrix. -/
def rowB (b : FVec Ideal Vec128 .f32) : FVec Ideal Row128 .f32 := shapeCast Row128 b sc_vec_row

/-- Two lists of 100000 index words followed by 704 zeros. -/
def catIdx (a b : IVec NodeVec 32) : IVec Pairs 32 :=
  concatenate Pairs 0 [⟨NodeVec, a⟩, ⟨NodeVec, b⟩, ⟨Tail, broadcastInDim Tail ![] bc_sc_tail (constantI Sc 32 0#32)⟩] cat_idx

/-- The rows of a node table at a list of 200704 index words. -/
def gatherPairs (H : FVec Ideal Nodes .f32) (idx : IVec Pairs 32) : FVec Ideal PairRows .f32 :=
  Host.gather (gatherRowsDims wf_gatherPairs) H (pairCol idx)

/-- The last layer's one weight row followed by 127 rows of padding. -/
def padW (P3 : FVec Ideal Row128 .f32) : FVec Ideal W128 .f32 :=
  pad W128 ![0, 0] ![127, 0] ![0, 0] P3 (sitofp (F := Ideal) .f32 (constantI Sc 32 0#32)) pads_w pos_sc

/-- The last layer's one bias entry followed by 127 entries of padding, as a row. -/
def padB (c3 : FVec Ideal One1 .f32) : FVec Ideal Row128 .f32 :=
  pad Row128 ![0, 0] ![0, 127] ![0, 0] (shapeCast One11 c3 sc_one) (sitofp (F := Ideal) .f32 (constantI Sc 32 0#32)) pads_b pos_sc

/-- The first 100000 rows' first column of the predictor's 200704 × 128 result. -/
def scoresLo (R : FVec Ideal PairRows .f32) : FVec Ideal NodeCol .f32 :=
  extractStridedSlice NodeCol ![0, 0] (extractStridedSlice Out2 ![0, 0] R sl_out2) sl_lo

/-- Rows 100000 … 199999, first column. -/
def scoresHi (R : FVec Ideal PairRows .f32) : FVec Ideal NodeCol .f32 :=
  extractStridedSlice NodeCol ![100000, 0] (extractStridedSlice Out2 ![0, 0] R sl_out2) sl_hi

end Cert.Spec

end
-- ==== Proof.LibNaryResults.lean ====
/-
  A host operation over a LITERAL family of three, or of nine, operand buffers, read at its result buffer.

  The library's `nary_result` hands the operation's function the family `fun k => F ↑(xs k)`: under that binder
  the buffer `xs k` is no literal, so a computation of the operands' contents stops there. For a literal family
  `![a, b, c]` the family is the three contents themselves, each at its own literal buffer (the library states
  this for four operands, `nary4_result`); stated here for three (a join of three index columns) and for nine (a
  join of nine basis columns), with the forms a `simp` pass can use, and the one-pass tactic of the library
  with these two lemmas in place of the general one.
-/
import Idealize.ShloMosaic.Lib.StableHlo.Run

namespace Idealize.ShloMosaic.StableHlo.Nary

open Idealize.ShloMosaic Idealize.ShloMosaic.StableHlo

variable {τ : Topo} {sig : RefSig} {Val : EltTy → Type}

section Three

variable {x a b y : Ref sig .tc}

/-- `nary` over a literal family of three references: its result, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for a `simp` pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Three

section Nine

variable {x0 x1 x2 x3 x4 x5 x6 x7 x8 y : Ref sig .tc}

/-- `nary` over a literal family of nine references: its result, each operand's contents at its own reference. -/
theorem nary9_result
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [nary_result]; congr 1; funext k; fin_cases k <;> rfl

/-- The same with the result reference un-indexed, for a `simp` pass. -/
theorem nary9_result'
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) :=
  nary9_result f hxs hy F

end Nine

/-- The library's one-pass computation of what a buffer holds after a literal list of host operations, with a
    three- or nine-operand line read at its literal operand buffers. -/
macro "after_results_lit" : tactic =>
  `(tactic| (simp (disch := decide) only [after_cons, after_nil,
      nullary_result', unary_result', binary_result', ternary_result', quaternary_result', reshape_result', nary4_result',
      Idealize.ShloMosaic.StableHlo.Nary.nary3_result', Idealize.ShloMosaic.StableHlo.Nary.nary9_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo.Nary
-- ==== Proof.KiHost.lean ====
/-
  What each host stretch of the idealized kernel's @main writes, as closed terms of the buffers it starts from:
  before the first launch the summed messages of the features, the reciprocal divisors along rows, the stacked weight and
  the bias row; between the launches the same from the first layer's result; before the predictor the rows gathered at the
  joined endpoint lists, the padded last layer and the bias rows; after it the two slices that are returned.
-/
import proofs.«400663_j26508538151583_4_alg».proof.Proof.Gen.KernelIdeal.Launch
import proofs.«400663_j26508538151583_4_alg».proof.Proof.SpecHost
import Idealize.ShloMosaic.Lib.StableHlo.Run
import proofs.«400663_j26508538151583_4_alg».proof.Proof.LibNaryResults

set_option maxRecDepth 16384

noncomputable section

namespace Cert.KernelIdeal.Val

open Cert.KernelIdeal Cert.KernelIdeal.Gen
open Idealize.ShloMosaic Idealize.ShloMosaic.TcCoe Idealize.ShloMosaic.StableHlo Idealize.SL.Sem
open Idealize.ShloMosaic.StableHlo.Nary

/-! ## The printed terms are the shared ones -/

theorem srcCol_eq (a : IVec S1600000 32) :
    broadcastInDim S1600000x1 ![0] bcast_S1600000_S1600000x1_0
      (select (cmpi .slt a (broadcastInDim S1600000 ![] bcast_S_S1600000 (constantI S_ 32 0#32)))
        (addi a (broadcastInDim S1600000 ![] bcast_S_S1600000 (constantI S_ 32 100000#32))) a) = Cert.Spec.srcCol a := rfl

theorem msg_eq (x : FVec Ideal S100000x128 .f32) (a d : IVec S1600000 32) :
    Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 d)
      (Host.gather gather_S100000x128_S1600000x1_S1600000x128_1_0_n_n_0_1_1128 x (Cert.Spec.srcCol a)) = Cert.Spec.msgSum x a d := rfl

theorem pairCol_eq (a : IVec S200704 32) :
    broadcastInDim S200704x1 ![0] bcast_S200704_S200704x1_0
      (select (cmpi .slt a (broadcastInDim S200704 ![] bcast_S_S200704 (constantI S_ 32 0#32)))
        (addi a (broadcastInDim S200704 ![] bcast_S_S200704 (constantI S_ 32 100000#32))) a) = Cert.Spec.pairCol a := rfl

theorem catIdx_eq (a b : IVec S100000 32) :
    concatenate S200704 0 [⟨S100000, a⟩, ⟨S100000, b⟩, ⟨S704, broadcastInDim S704 ![] bcast_S_S704 (constantI S_ 32 0#32)⟩]
      concatenates_S100000_S100000_S704_S200704_d0 = Cert.Spec.catIdx a b := rfl

theorem gatherPairs_eq (H : FVec Ideal S100000x128 .f32) (idx : IVec S200704 32) :
    Host.gather gather_S100000x128_S200704x1_S200704x128_1_0_n_n_0_1_1128 H (Cert.Spec.pairCol idx) = Cert.Spec.gatherPairs H idx := rfl

/-- The rows gathered at two lists joined with the zero tail, as the program spells them. -/
theorem gathered_eq (H : FVec Ideal S100000x128 .f32) (a b : IVec S100000 32) :
    Host.gather gather_S100000x128_S200704x1_S200704x128_1_0_n_n_0_1_1128 H
      (broadcastInDim S200704x1 ![0] bcast_S200704_S200704x1_0
        (select
          (cmpi .slt
            (concatenate S200704 0 [⟨S100000, a⟩, ⟨S100000, b⟩, ⟨S704, broadcastInDim S704 ![] bcast_S_S704 (constantI S_ 32 0#32)⟩]
              concatenates_S100000_S100000_S704_S200704_d0)
            (broadcastInDim S200704 ![] bcast_S_S200704 (constantI S_ 32 0#32)))
          (addi
            (concatenate S200704 0 [⟨S100000, a⟩, ⟨S100000, b⟩, ⟨S704, broadcastInDim S704 ![] bcast_S_S704 (constantI S_ 32 0#32)⟩]
              concatenates_S100000_S100000_S704_S200704_d0)
            (broadcastInDim S200704 ![] bcast_S_S200704 (constantI S_ 32 100000#32)))
          (concatenate S200704 0 [⟨S100000, a⟩, ⟨S100000, b⟩, ⟨S704, broadcastInDim S704 ![] bcast_S_S704 (constantI S_ 32 0#32)⟩]
            concatenates_S100000_S100000_S704_S200704_d0)))
      = Cert.Spec.gatherPairs H (Cert.Spec.catIdx a b) := by
  rw [catIdx_eq, pairCol_eq]; exact gatherPairs_eq _ _

variable (W : Valuation τ sig (Elt Ideal))

/-! ## Before the first launch -/

set_option maxHeartbeats 1000000 in
theorem host0_msg : StableHlo.after (hostOps0 (F := Ideal)) W (Proc.devRef .tc main_v20)
    = Cert.Spec.msgSum (W (Proc.devRef .tc main_arg0)) (W (Proc.devRef .tc main_arg1)) (W (Proc.devRef .tc main_arg2)) := by
  after_results
  rw [srcCol_eq]
  exact msg_eq _ _ _

theorem host0_dinv : StableHlo.after (hostOps0 (F := Ideal)) W (Proc.devRef .tc main_v9)
    = Cert.Spec.dinvFull (W (Proc.devRef .tc main_arg2)) := by
  after_results; rfl

theorem host0_wcat : StableHlo.after (hostOps0 (F := Ideal)) W (Proc.devRef .tc main_v10)
    = Cert.Spec.catW (W (Proc.devRef .tc main_arg8)) (W (Proc.devRef .tc main_arg7)) := by
  after_results; rfl

theorem host0_bias : StableHlo.after (hostOps0 (F := Ideal)) W (Proc.devRef .tc main_v21)
    = Cert.Spec.rowB (W (Proc.devRef .tc main_arg9)) := by
  after_results; rfl

theorem host0_x : StableHlo.after (hostOps0 (F := Ideal)) W (Proc.devRef .tc main_arg0) = W (Proc.devRef .tc main_arg0) := by
  after_results

/-! ## Between the first and the second launch -/

set_option maxHeartbeats 1000000 in
theorem host1_msg : StableHlo.after (hostOps1 (F := Ideal)) W (Proc.devRef .tc main_v33)
    = Cert.Spec.msgSum (W (Proc.devRef .tc main_v22)) (W (Proc.devRef .tc main_arg1)) (W (Proc.devRef .tc main_arg2)) := by
  after_results
  rw [srcCol_eq]
  exact msg_eq _ _ _

theorem host1_wcat : StableHlo.after (hostOps1 (F := Ideal)) W (Proc.devRef .tc main_v23)
    = Cert.Spec.catW (W (Proc.devRef .tc main_arg11)) (W (Proc.devRef .tc main_arg10)) := by
  after_results; rfl

theorem host1_bias : StableHlo.after (hostOps1 (F := Ideal)) W (Proc.devRef .tc main_v34)
    = Cert.Spec.rowB (W (Proc.devRef .tc main_arg12)) := by
  after_results; rfl

theorem host1_h : StableHlo.after (hostOps1 (F := Ideal)) W (Proc.devRef .tc main_v22) = W (Proc.devRef .tc main_v22) := by
  after_results

theorem host1_dinv : StableHlo.after (hostOps1 (F := Ideal)) W (Proc.devRef .tc main_v9) = W (Proc.devRef .tc main_v9) := by
  after_results

/-! ## Between the second launch and the predictor: five stretches in a row -/

/-- The buffers after the five stretches, from the buffers `W` the second launch leaves. -/
abbrev pre2 : Valuation τ sig (Elt Ideal) :=
  StableHlo.after (hostOps2_4 (F := Ideal)) (StableHlo.after (hostOps2_3 (F := Ideal)) (StableHlo.after (hostOps2_2 (F := Ideal))
    (StableHlo.after (hostOps2_1 (F := Ideal)) (StableHlo.after (hostOps2 (F := Ideal)) W))))

set_option maxHeartbeats 1000000 in
theorem pre2_hs : pre2 W (Proc.devRef .tc main_v45)
    = Cert.Spec.gatherPairs (W (Proc.devRef .tc main_v35)) (Cert.Spec.catIdx (W (Proc.devRef .tc main_arg3)) (W (Proc.devRef .tc main_arg5))) := by
  after_results_lit
  exact gathered_eq _ _ _

set_option maxHeartbeats 1000000 in
theorem pre2_hd : pre2 W (Proc.devRef .tc main_v52)
    = Cert.Spec.gatherPairs (W (Proc.devRef .tc main_v35)) (Cert.Spec.catIdx (W (Proc.devRef .tc main_arg4)) (W (Proc.devRef .tc main_arg6))) := by
  after_results_lit
  exact gathered_eq _ _ _

theorem pre2_p1 : pre2 W (Proc.devRef .tc main_arg13) = W (Proc.devRef .tc main_arg13) := by
  after_results

theorem pre2_p2 : pre2 W (Proc.devRef .tc main_arg15) = W (Proc.devRef .tc main_arg15) := by
  after_results

theorem pre2_c1 : pre2 W (Proc.devRef .tc main_v56) = Cert.Spec.rowB (W (Proc.devRef .tc main_arg14)) := by
  after_results; rfl

theorem pre2_c2 : pre2 W (Proc.devRef .tc main_v57) = Cert.Spec.rowB (W (Proc.devRef .tc main_arg16)) := by
  after_results; rfl

theorem pre2_w3 : pre2 W (Proc.devRef .tc main_v53) = Cert.Spec.padW (W (Proc.devRef .tc main_arg17)) := by
  after_results; rfl

theorem pre2_c3 : pre2 W (Proc.devRef .tc main_v55) = Cert.Spec.padB (W (Proc.devRef .tc main_arg18)) := by
  after_results; rfl

/-! ## After the predictor -/

theorem host3_lo : StableHlo.after (hostOps3 (F := Ideal)) W (Proc.devRef .tc main_v60) = Cert.Spec.scoresLo (W (Proc.devRef .tc main_v58)) := by
  after_results; rfl

theorem host3_hi : StableHlo.after (hostOps3 (F := Ideal)) W (Proc.devRef .tc main_v61) = Cert.Spec.scoresHi (W (Proc.devRef .tc main_v58)) := by
  after_results; rfl

end Cert.KernelIdeal.Val

end
-- ==== Proof.LawCombine.lean ====
/-
  One layer, the kernel's arrangement against the reference's. The kernel enters its combine with the reciprocal
  divisors repeated along rows, the two weights stacked side by side and the bias as a row, and contracts the row
  [x | msg · dinv] of 256 entries once; the reference divides the summed messages by max(deg, 1) and contracts twice over
  128 entries. They agree at every index: the sum over 256 = 128 + 128 splits, and max(deg, 1) is a real number that is
  not zero (deg is a sum of ones, a count), where x / d = x · (1 / d) for every extended real x.
-/
import proofs.«400663_j26508538151583_4_alg».proof.Proof.SpecHost
import Idealize.ShloMosaic.Lib.Pipeline.Value
import Idealize.ShloMosaic.Lib.ValueLayout
import Idealize.ShloMosaic.PureOps.IdealRules
import Mathlib.Algebra.BigOperators.Fin
import Mathlib.Data.EReal.Basic

noncomputable section

open scoped BigOperators

namespace Cert.Spec

open Idealize.ShloMosaic Idealize.ShloMosaic.ValueIdx

/-! ## The two constants and the host operations read at an index -/

/-- The word 0x3F800000 is the number one. -/
theorem ofBits_one_f32 : Ideal.ofBits .f32 0x3F800000#32 = 1 := IdealRules.sign_bit.ideal_onePat .f32

/-- A scalar constant repeated over a shape reads, everywhere, the number its word denotes. -/
theorem splat_apply {t : Shape} (h : Sc.BroadcastsInDim t (![] : Fin 0 → Fin t.rank)) (w : BitVec 32) (j : t.Idx) :
    broadcastInDim t ![] h (constant (F := Ideal) Sc .f32 w) j = Ideal.ofBits .f32 w := rfl

/-- An accumulating scatter of a repeated constant into a repeated constant, read at an index: the operand's number
    plus the update's number once for every update index that lands there. -/
theorem scatterAdd_splat_apply {s si su : Shape} (d : ScatterDims s si su) {w : Nat}
    (hs : Sc.BroadcastsInDim s (![] : Fin 0 → Fin s.rank)) (hu : Sc.BroadcastsInDim su (![] : Fin 0 → Fin su.rank))
    (a c : BitVec 32) (idx : IVec si w) (i : s.Idx) :
    Host.scatterAdd (F := Ideal) d (broadcastInDim s ![] hs (constant (F := Ideal) Sc .f32 a)) idx
        (broadcastInDim su ![] hu (constant (F := Ideal) Sc .f32 c)) i
      = Ideal.ofBits .f32 a + ∑ _j ∈ Finset.univ.filter (fun j => d.resultIdx? j idx = some i), Ideal.ofBits .f32 c := rfl

/-- A sum of ones over a finite set is a natural number, the set's size. -/
theorem sum_one_nat {ι : Type} (S : Finset ι) : ∃ n : ℕ, ∑ _j ∈ S, (1 : EReal) = ((n : ℝ) : EReal) :=
  ⟨S.card, by rw [Finset.sum_const, ← EReal.coe_one, ← EReal.coe_nsmul, nsmul_eq_mul, mul_one]⟩

/-! ## The in-degree and the divisor -/

/-- The in-degree at a node, opened: zero plus a one for every edge that lands there. -/
theorem degree_apply (dst : IVec Edges 32) (i : NodeVec.Idx) :
    degree dst i
      = Ideal.ofBits .f32 0x00000000#32
        + ∑ _j ∈ Finset.univ.filter (fun j =>
            scatterCountDims.resultIdx? j (broadcastInDim EdgeCol ![0] bc_edges_col dst) = some i),
          Ideal.ofBits .f32 0x3F800000#32 :=
  scatterAdd_splat_apply scatterCountDims bc_sc_nodevec bc_sc_edges _ _ _ i

/-- The in-degree is a natural number. -/
theorem degree_nat (dst : IVec Edges 32) (i : NodeVec.Idx) : ∃ n : ℕ, degree dst i = ((n : ℝ) : EReal) := by
  rw [degree_apply, Ideal.ofBits_zero_f32, ofBits_one_f32, zero_add]
  exact sum_one_nat _

/-- The divisor at a node: the larger of the in-degree and one. -/
theorem dmax_apply (dst : IVec Edges 32) (i : NodeVec.Idx) : dmax dst i = max (degree dst i) 1 := by
  rw [dmax, maximumf_apply, splat_apply, ofBits_one_f32]

/-- max(deg, 1) is a real number and not zero. -/
theorem dmax_real (dst : IVec Edges 32) (i : NodeVec.Idx) : ∃ r : ℝ, r ≠ 0 ∧ dmax dst i = (r : EReal) := by
  obtain ⟨n, hn⟩ := degree_nat dst i
  refine ⟨max (n : ℝ) 1, ?_, ?_⟩
  · have h1 : (1 : ℝ) ≤ max (n : ℝ) 1 := le_max_right _ _
    intro h0
    rw [h0] at h1
    exact absurd h1 (by norm_num)
  · rw [dmax_apply, hn, ← EReal.coe_one]
    exact (EReal.coe_strictMono.monotone.map_max).symm

/-! ## A sum over 256 = 128 + 128 indices -/

/-- Two rows side by side, read in the left half. -/
theorem sideBySide_left (a b : Fin 128 → EReal) (k : Fin 128) : sideBySide a b (Fin.castAdd 128 k) = a k := by
  unfold sideBySide
  rw [dif_pos (show (Fin.castAdd 128 k).val < 128 from k.isLt)]
  rfl

/-- Two rows side by side, read in the right half. -/
theorem sideBySide_right (a b : Fin 128 → EReal) (k : Fin 128) : sideBySide a b (Fin.natAdd 128 k) = b k := by
  unfold sideBySide
  rw [dif_neg (show ¬ (Fin.natAdd 128 k).val < 128 from by simp)]
  exact congrArg b (Fin.ext (by simp))

/-- The contraction of two side-by-side rows is the sum of the two halves' contractions. -/
theorem sum_sideBySide_mul (a b c d : Fin 128 → EReal) :
    ∑ k : Fin 256, sideBySide a b k * sideBySide c d k = (∑ k : Fin 128, a k * c k) + ∑ k : Fin 128, b k * d k := by
  have h := Fin.sum_univ_add (a := 128) (b := 128) (fun k : Fin (128 + 128) => sideBySide a b k * sideBySide c d k)
  refine h.trans ?_
  simp only [sideBySide_left, sideBySide_right]

/-- The layer law, entry by entry. -/
theorem combineStacked_eq_split (x msg : Fin 128 → EReal) (r : ℝ) (hr : r ≠ 0) (ws wn : Fin 128 → EReal) (b : EReal) :
    (∑ k : Fin 256, sideBySide x (fun k => msg k * Ideal.div 1 (r : EReal)) k * sideBySide ws wn k) + b
      = combineSplit x msg (r : EReal) ws wn b := by
  unfold combineSplit
  rw [sum_sideBySide_mul]
  congr 2
  refine Finset.sum_congr rfl fun k _ => ?_
  rw [Ideal.div_coe hr, Ideal.div_coe hr, one_mul]

/-! ## The host-prepared arrays read at an index -/

/-- A host quotient read at an index: the quotient of the elements. -/
theorem hostDivf_apply {s : Shape} (a b : FVec Ideal s .f32) (i : s.Idx) : Host.divf a b i = Ideal.div (a i) (b i) := rfl

/-- The reciprocal divisors read at (p, k): one over the divisor of node p, whatever the column. -/
theorem dinvFull_apply (dst : IVec Edges 32) (p : Fin 100000) (k : Fin 128) :
    dinvFull dst (ix2 p k) = Ideal.div 1 (dmax dst (ix1 p)) := by
  unfold dinvFull
  rw [broadcastInDim_apply _ bc_col_nodes _ (ix2 p k) (ix2 p (0 : Fin 1))
        (fun a => match a with | ⟨0, _⟩ => rfl | ⟨1, _⟩ => rfl),
      broadcastInDim_apply _ bc_nodevec_col _ (ix2 p (0 : Fin 1)) (ix1 p)
        (fun a => match a with | ⟨0, _⟩ => rfl),
      hostDivf_apply, splat_apply, ofBits_one_f32]

/-- The stacked weight read at (q, k): row q of the self weight for k below 128, of the neighbour weight from 128 on. -/
theorem catW_apply_at (Ws Wn : FVec Ideal W128 .f32) (q : Fin 128) (k : Fin 256) :
    catW Ws Wn (ix2 q k) = sideBySide (fun k => Ws (ix2 q k)) (fun k => Wn (ix2 q k)) k := by
  unfold catW sideBySide
  by_cases h : k.val < 128
  · rw [dif_pos h]
    exact concatenate_pair_apply_left (1 : Fin 2) Ws Wn cat_w (ix2 q k) rfl (ix2 q ⟨k.val, h⟩)
      (fun b => match b with | ⟨0, _⟩ => rfl | ⟨1, _⟩ => rfl)
  · rw [dif_neg h]
    refine concatenate_pair_apply_right (1 : Fin 2) Ws Wn cat_w (ix2 q k) rfl rfl
      (ix2 q ⟨k.val - 128, by have := k.isLt; omega⟩) (fun b => match b with
        | ⟨0, _⟩ => fun _ => rfl
        | ⟨1, _⟩ => fun hb => absurd rfl hb) ?_
    show k.val - 128 + 128 = k.val
    omega

/-- Row q of the stacked weight is rows q of the two weights side by side. -/
theorem catW_apply (Ws Wn : FVec Ideal W128 .f32) (q : Fin 128) :
    (fun k => catW Ws Wn (ix2 q k)) = sideBySide (fun k => Ws (ix2 q k)) (fun k => Wn (ix2 q k)) :=
  funext fun k => catW_apply_at Ws Wn q k

/-- The bias as a row read at (0, q): entry q of the bias. -/
theorem rowB_apply (b : FVec Ideal Vec128 .f32) (q : Fin 128) : rowB b (ix2 (0 : Fin 1) q) = b (ix1 q) :=
  shapeCast_a_1a_apply b sc_vec_row 0 q

/-! ## The layer law -/

/-- The stacked arrangement at (p, q), opened. -/
theorem stackedArr_apply (relu : Bool) (X M D : FVec Ideal Nodes .f32) (Wc : FVec Ideal W256 .f32) (B : FVec Ideal Row128 .f32)
    (p : Fin 100000) (q : Fin 128) :
    stackedArr relu X M D Wc B (ix2 p q)
      = if relu then
          max ((∑ k : Fin 256, sideBySide (fun k => X (ix2 p k)) (fun k => M (ix2 p k) * D (ix2 p k)) k * Wc (ix2 q k))
            + B (ix2 (0 : Fin 1) q)) 0
        else (∑ k : Fin 256, sideBySide (fun k => X (ix2 p k)) (fun k => M (ix2 p k) * D (ix2 p k)) k * Wc (ix2 q k))
            + B (ix2 (0 : Fin 1) q) := rfl

/-- The split arrangement at (p, q), opened. -/
theorem splitArr_apply (relu : Bool) (X M : FVec Ideal Nodes .f32) (Dm : FVec Ideal NodeVec .f32) (Ws Wn : FVec Ideal W128 .f32)
    (b : FVec Ideal Vec128 .f32) (p : Fin 100000) (q : Fin 128) :
    splitArr relu X M Dm Ws Wn b (ix2 p q)
      = if relu then
          max (combineSplit (fun k => X (ix2 p k)) (fun k => M (ix2 p k)) (Dm (ix1 p)) (fun k => Ws (ix2 q k))
            (fun k => Wn (ix2 q k)) (b (ix1 q))) 0
        else combineSplit (fun k => X (ix2 p k)) (fun k => M (ix2 p k)) (Dm (ix1 p)) (fun k => Ws (ix2 q k))
            (fun k => Wn (ix2 q k)) (b (ix1 q)) := rfl

/-- THE LAYER LAW for whole arrays: the stacked arrangement over the host-prepared arrays is the split arrangement. -/
theorem stacked_eq_split (relu : Bool) (X M : FVec Ideal Nodes .f32) (dst : IVec Edges 32) (Ws Wn : FVec Ideal W128 .f32)
    (b : FVec Ideal Vec128 .f32) :
    stackedArr relu X M (dinvFull dst) (catW Ws Wn) (rowB b) = splitArr relu X M (dmax dst) Ws Wn b := by
  funext y
  obtain ⟨p, q, rfl⟩ : ∃ (p : Fin 100000) (q : Fin 128), y = ix2 p q := ⟨y 0, y 1, eq_ix2 y⟩
  obtain ⟨r, hr, hd⟩ := dmax_real dst (ix1 p)
  have e1 : (fun k : Fin 128 => M (ix2 p k) * dinvFull dst (ix2 p k)) = fun k => M (ix2 p k) * Ideal.div 1 (r : EReal) :=
    funext fun k => by rw [dinvFull_apply, hd]
  have hv : (∑ k : Fin 256, sideBySide (fun k => X (ix2 p k)) (fun k => M (ix2 p k) * dinvFull dst (ix2 p k)) k
        * catW Ws Wn (ix2 q k)) + rowB b (ix2 (0 : Fin 1) q)
      = combineSplit (fun k => X (ix2 p k)) (fun k => M (ix2 p k)) (dmax dst (ix1 p)) (fun k => Ws (ix2 q k))
          (fun k => Wn (ix2 q k)) (b (ix1 q)) := by
    rw [e1, rowB_apply, hd]
    simp only [catW_apply_at]
    exact combineStacked_eq_split _ _ r hr _ _ _
  rw [stackedArr_apply, splitArr_apply, hv]

end Cert.Spec

end
-- ==== Proof.LibRowGather.lean ====
/-
  `stablehlo.gather` as jnp's `x[idx]` lowers it for a table `x : [N, D]` and a list of M row indices carried as a column
  `[M, 1]`: offset axis 1, collapsed slice axis 0, start index map [0], index vector axis 1, slices of one whole row.
  Result element (i, k) is the table's element (r, k) at the row r the start index `idx[i, 0]` names, read as a signed
  integer and clamped into [0, N − 1].
-/
import Idealize.ShloMosaic.Lib.ValueIdx

noncomputable section

namespace Cert.LibRowGather

open Idealize.ShloMosaic Idealize.ShloMosaic.ValueIdx

variable {α : Type}

/-- Those dimension numbers; their conditions `wf` are decided on a program's literal shapes. -/
abbrev rowDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- THE GATHER READ AT (i, k): the table at the clamped start row and column k. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (i : Fin M) (k : Fin D) :
    Host.gather (rowDims N D M wf) x idx (ix2 i k)
      = x (ix2 ⟨min (idx (ix2 i (0 : Fin 1))).toInt.toNat (N - 1), by omega⟩ k) := by
  unfold Host.gather
  congr 1
  -- axis 0 is collapsed (no offset coordinate) and carries the clamped start row
  have h0 : (rowDims N D M wf).start (ix2 i k) idx (0 : Fin 2) + (rowDims N D M wf).batchCoord (ix2 i k) (0 : Fin 2)
      + (rowDims N D M wf).offCoord (ix2 i k) (0 : Fin 2) = min (idx (ix2 i (0 : Fin 1))).toInt.toNat (N - 1) := by
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 i k) ⟨List.idxOf (0 : Fin 2) (rowDims N D M wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  -- axis 1 is the offset axis: no start, the result's own column
  have h1 : (rowDims N D M wf).start (ix2 i k) idx (1 : Fin 2) + (rowDims N D M wf).batchCoord (ix2 i k) (1 : Fin 2)
      + (rowDims N D M wf).offCoord (ix2 i k) (1 : Fin 2) = k.val := by
    rw [GatherDims.batchCoord_eq_zero _ _ _ List.not_mem_nil]
    unfold GatherDims.start
    rw [dif_neg (show (1 : Fin 2) ∉ (rowDims N D M wf).startIndexMap from
      fun h => Nat.one_ne_zero (congrArg Fin.val (List.mem_singleton.mp h)))]
    simp only [Nat.add_zero, Nat.zero_add]
    unfold GatherDims.offCoord
    rw [dif_pos (show (1 : Fin 2) ∈ (rowDims N D M wf).sKept from (GatherDims.mem_sKept _ _).mpr
      ⟨fun h => Nat.one_ne_zero (congrArg Fin.val (List.mem_singleton.mp h)), List.not_mem_nil⟩)]
    rfl
  funext a
  refine Fin.ext ?_
  match a with
  | ⟨0, _⟩ => exact h0
  | ⟨1, _⟩ => exact h1

end Cert.LibRowGather

end
-- ==== Proof.LawScores.lean ====
/-
  The predictor's result sliced, against the scores of the pairs. The kernel gathers the rows of the node table at
  the positive and negative endpoint lists joined into one list of 200704 (the tail padded with zeros), runs the
  perceptron on all 200704 pairs of rows with its last layer padded from one output to 128, and keeps column 0 of rows
  0 … 99999 and of rows 100000 … 199999. Row i < 100000 of the joined list is entry i of the first list and row 100000 + i
  entry i of the second; a gathered row is the table's row at the wrapped and clamped index word; row 0 of the padded
  weight is the weight and entry 0 of the padded bias the bias. So the two slices are the scores of the two lists.
-/
import proofs.«400663_j26508538151583_4_alg».proof.Proof.SpecHost
import proofs.«400663_j26508538151583_4_alg».proof.Proof.LibRowGather
import Idealize.ShloMosaic.Lib.Pipeline.Value
import Idealize.ShloMosaic.Lib.ValueLayout

noncomputable section

open scoped BigOperators

namespace Cert.Spec

open Idealize.ShloMosaic Idealize.ShloMosaic.ValueIdx

/-- Entry i < 100000 of the joined list is entry i of the first list. -/
theorem catIdx_lo (a b : IVec NodeVec 32) (i : Fin 100000) (h : i.val < 200704) :
    catIdx a b (ix1 ⟨i.val, h⟩) = a (ix1 i) := by
  unfold catIdx
  refine concatenate_apply_piece (t := Pairs) (0 : Fin 1) _ _ _ 0 ?_ NodeVec a ?_ rfl 0 ?_ (ix1 i) ?_ ?_
  · exact Nat.zero_lt_succ _
  · rfl
  · rfl
  · intro c hc; exact absurd (Subsingleton.elim _ _) hc
  · exact Nat.zero_add _

/-- Entry 100000 + i of the joined list is entry i of the second list. -/
theorem catIdx_hi (a b : IVec NodeVec 32) (i : Fin 100000) (h : 100000 + i.val < 200704) :
    catIdx a b (ix1 ⟨100000 + i.val, h⟩) = b (ix1 i) := by
  unfold catIdx
  refine concatenate_apply_piece (t := Pairs) (0 : Fin 1) _ _ _ 1 ?_ NodeVec b ?_ rfl 100000 ?_ (ix1 i) ?_ ?_
  · exact Nat.succ_lt_succ (Nat.zero_lt_succ _)
  · rfl
  · rfl
  · intro c hc; exact absurd (Subsingleton.elim _ _) hc
  · rfl

/-- The column of wrapped index words at row p is the wrapped word of entry p. -/
theorem pairCol_apply (idx : IVec Pairs 32) (p : Fin 200704) :
    pairCol idx (ix2 p (0 : Fin 1)) = wrapWord (idx (ix1 p)) := by
  unfold pairCol
  refine (broadcastInDim_apply _ bc_pairs_col _ _ (ix1 p) ?_).trans rfl
  intro a
  obtain rfl : a = 0 := Subsingleton.elim _ _
  rw [if_neg (by decide)]
  rfl

/-- With no low padding and no interior padding, a coordinate lies in the unpadded box when it is below the extent. -/
theorem pad_box (v n : Nat) (h : v < n) : 0 ≤ v ∧ (v - 0) % (0 + 1) = 0 ∧ (v - 0) / (0 + 1) < n :=
  ⟨Nat.zero_le _, by omega, by omega⟩

/-- … and there the operand's coordinate is the coordinate itself. -/
theorem pad_coord (v : Nat) : (v - 0) / (0 + 1) = v := by omega

/-- A bias as a one-row matrix at (0, l). -/
theorem rowB_apply (c : FVec Ideal Vec128 .f32) (l : Fin 128) : rowB c (ix2 (0 : Fin 1) l) = c (ix1 l) :=
  shapeCast_a_1a_apply c sc_vec_row 0 l

/-- Row 0 of the padded weight is the weight row. -/
theorem padW_apply (P3 : FVec Ideal Row128 .f32) (k : Fin 128) :
    padW P3 (ix2 (0 : Fin 128) k) = P3 (ix2 (0 : Fin 1) k) := by
  unfold padW pad
  have hin : ∀ a : Fin Row128.rank, (![0, 0] : Fin 2 → Nat) a ≤ ((ix2 (0 : Fin 128) k) (a.cast pads_w.1)).val
      ∧ (((ix2 (0 : Fin 128) k) (a.cast pads_w.1)).val - (![0, 0] : Fin 2 → Nat) a) % ((![0, 0] : Fin 2 → Nat) a + 1) = 0
      ∧ (((ix2 (0 : Fin 128) k) (a.cast pads_w.1)).val - (![0, 0] : Fin 2 → Nat) a) / ((![0, 0] : Fin 2 → Nat) a + 1) < Row128.size a := by
    intro a
    match a with
    | ⟨0, _⟩ => exact pad_box (0 : Fin 128).val 1 Nat.one_pos
    | ⟨1, _⟩ => exact pad_box k.val 128 k.isLt
  rw [dif_pos hin]
  congr 1
  funext a
  refine Fin.ext ?_
  match a with
  | ⟨0, _⟩ => exact pad_coord (0 : Fin 128).val
  | ⟨1, _⟩ => exact pad_coord k.val

/-- Entry 0 of the padded bias row is the bias. -/
theorem padB_apply (c3 : FVec Ideal One1 .f32) :
    padB c3 (ix2 (0 : Fin 1) (0 : Fin 128)) = c3 (ix1 (0 : Fin 1)) := by
  unfold padB pad
  have hin : ∀ a : Fin One11.rank, (![0, 0] : Fin 2 → Nat) a ≤ ((ix2 (0 : Fin 1) (0 : Fin 128)) (a.cast pads_b.1)).val
      ∧ (((ix2 (0 : Fin 1) (0 : Fin 128)) (a.cast pads_b.1)).val - (![0, 0] : Fin 2 → Nat) a) % ((![0, 0] : Fin 2 → Nat) a + 1) = 0
      ∧ (((ix2 (0 : Fin 1) (0 : Fin 128)) (a.cast pads_b.1)).val - (![0, 0] : Fin 2 → Nat) a) / ((![0, 0] : Fin 2 → Nat) a + 1) < One11.size a := by
    intro a
    match a with
    | ⟨0, _⟩ => exact pad_box (0 : Fin 1).val 1 Nat.one_pos
    | ⟨1, _⟩ => exact pad_box (0 : Fin 128).val 1 Nat.one_pos
  rw [dif_pos hin]
  refine Eq.trans ?_ (shapeCast_a_1a_apply c3 sc_one 0 0)
  congr 1
  funext a
  refine Fin.ext ?_
  match a with
  | ⟨0, _⟩ => exact pad_coord (0 : Fin 1).val
  | ⟨1, _⟩ => exact pad_coord (0 : Fin 128).val

/-- The first slice at (i, 0) reads the source at (i, 0). -/
theorem scoresLo_apply (R : FVec Ideal PairRows .f32) (i : Fin 100000) (h : i.val < 200704) :
    scoresLo R (ix2 i (0 : Fin 1)) = R (ix2 ⟨i.val, h⟩ (0 : Fin 128)) := by
  unfold scoresLo
  refine (extractStridedSlice_apply _ _ sl_lo _ (ix2 ⟨i.val, by omega⟩ (0 : Fin 1)) ?_).trans
    (extractStridedSlice_apply _ _ sl_out2 _ _ ?_)
  · intro a
    match a with
    | ⟨0, _⟩ => exact (Nat.zero_add _).symm
    | ⟨1, _⟩ => rfl
  · intro a
    match a with
    | ⟨0, _⟩ => exact (Nat.zero_add _).symm
    | ⟨1, _⟩ => rfl

/-- The second slice at (i, 0) reads the source at (100000 + i, 0). -/
theorem scoresHi_apply (R : FVec Ideal PairRows .f32) (i : Fin 100000) (h : 100000 + i.val < 200704) :
    scoresHi R (ix2 i (0 : Fin 1)) = R (ix2 ⟨100000 + i.val, h⟩ (0 : Fin 128)) := by
  unfold scoresHi
  refine (extractStridedSlice_apply _ _ sl_hi _ (ix2 ⟨100000 + i.val, by omega⟩ (0 : Fin 1)) ?_).trans
    (extractStridedSlice_apply _ _ sl_out2 _ _ ?_)
  · intro a
    match a with
    | ⟨0, _⟩ => rfl
    | ⟨1, _⟩ => rfl
  · intro a
    match a with
    | ⟨0, _⟩ => exact (Nat.zero_add _).symm
    | ⟨1, _⟩ => rfl

/-- The predictor's array at (p, q). -/
theorem mlpArr_apply (HS HD : FVec Ideal PairRows .f32) (P1 : FVec Ideal W256 .f32) (c1 : FVec Ideal Row128 .f32)
    (P2 : FVec Ideal W128 .f32) (c2 : FVec Ideal Row128 .f32) (P3 : FVec Ideal W128 .f32) (c3 : FVec Ideal Row128 .f32)
    (p : Fin 200704) (q : Fin 128) :
    mlpArr HS HD P1 c1 P2 c2 P3 c3 (ix2 p q)
      = mlp (fun k => HS (ix2 p k)) (fun k => HD (ix2 p k)) (fun l r => P1 (ix2 l r)) (fun l => c1 (ix2 (0 : Fin 1) l))
          (fun k l => P2 (ix2 k l)) (fun k => c2 (ix2 (0 : Fin 1) k)) (fun k => P3 (ix2 q k)) (c3 (ix2 (0 : Fin 1) q)) := rfl

/-- The scores' array at (i, 0). -/
theorem scoreArr_apply (H : FVec Ideal Nodes .f32) (s d : IVec NodeVec 32) (P1 : FVec Ideal W256 .f32) (c1 : FVec Ideal Vec128 .f32)
    (P2 : FVec Ideal W128 .f32) (c2 : FVec Ideal Vec128 .f32) (P3 : FVec Ideal Row128 .f32) (c3 : FVec Ideal One1 .f32)
    (i : Fin 100000) :
    scoreArr H s d P1 c1 P2 c2 P3 c3 (ix2 i (0 : Fin 1))
      = mlp (fun k => H (ix2 (nodeOf (s (ix1 i))) k)) (fun k => H (ix2 (nodeOf (d (ix1 i))) k)) (fun l r => P1 (ix2 l r))
          (fun l => c1 (ix1 l)) (fun k l => P2 (ix2 k l)) (fun k => c2 (ix1 k)) (fun k => P3 (ix2 (0 : Fin 1) k))
          (c3 (ix1 (0 : Fin 1))) := rfl

/-- A gathered row is the table's row at the node its index word names. -/
theorem gatherPairs_apply (H : FVec Ideal Nodes .f32) (idx : IVec Pairs 32) (p : Fin 200704) (k : Fin 128) :
    gatherPairs H idx (ix2 p k) = H (ix2 (nodeOf (idx (ix1 p))) k) := by
  unfold gatherPairs
  refine (LibRowGather.gather_rows_apply (N := 100000) (D := 128) (M := 200704) (by decide) wf_gatherPairs H
    (pairCol idx) p k).trans ?_
  refine congrArg (fun r : Fin 100000 => H (ix2 r k)) (Fin.ext ?_)
  show min (pairCol idx (ix2 p (0 : Fin 1))).toInt.toNat (100000 - 1) = min (wrapWord (idx (ix1 p))).toInt.toNat 99999
  rw [pairCol_apply]

/-- Column 0 of the first 100000 rows is the scores of the first pair of lists. -/
theorem scoresLo_mlpArr (H : FVec Ideal Nodes .f32) (s1 s2 d1 d2 : IVec NodeVec 32) (P1 : FVec Ideal W256 .f32)
    (c1 : FVec Ideal Vec128 .f32) (P2 : FVec Ideal W128 .f32) (c2 : FVec Ideal Vec128 .f32) (P3 : FVec Ideal Row128 .f32)
    (c3 : FVec Ideal One1 .f32) :
    scoresLo (mlpArr (gatherPairs H (catIdx s1 s2)) (gatherPairs H (catIdx d1 d2)) P1 (rowB c1) P2 (rowB c2) (padW P3) (padB c3))
      = scoreArr H s1 d1 P1 c1 P2 c2 P3 c3 := by
  funext y
  obtain ⟨i, q, rfl⟩ : ∃ (i : Fin 100000) (q : Fin 1), y = ix2 i q := ⟨y 0, y 1, eq_ix2 y⟩
  obtain rfl : q = 0 := Subsingleton.elim _ _
  rw [scoresLo_apply _ i (Nat.lt_trans i.isLt (by decide)), mlpArr_apply, scoreArr_apply]
  simp only [gatherPairs_apply, catIdx_lo, rowB_apply, padW_apply, padB_apply]

/-- Column 0 of rows 100000 … 199999 is the scores of the second pair of lists. -/
theorem scoresHi_mlpArr (H : FVec Ideal Nodes .f32) (s1 s2 d1 d2 : IVec NodeVec 32) (P1 : FVec Ideal W256 .f32)
    (c1 : FVec Ideal Vec128 .f32) (P2 : FVec Ideal W128 .f32) (c2 : FVec Ideal Vec128 .f32) (P3 : FVec Ideal Row128 .f32)
    (c3 : FVec Ideal One1 .f32) :
    scoresHi (mlpArr (gatherPairs H (catIdx s1 s2)) (gatherPairs H (catIdx d1 d2)) P1 (rowB c1) P2 (rowB c2) (padW P3) (padB c3))
      = scoreArr H s2 d2 P1 c1 P2 c2 P3 c3 := by
  funext y
  obtain ⟨i, q, rfl⟩ : ∃ (i : Fin 100000) (q : Fin 1), y = ix2 i q := ⟨y 0, y 1, eq_ix2 y⟩
  obtain rfl : q = 0 := Subsingleton.elim _ _
  rw [scoresHi_apply _ i (by have := i.isLt; omega), mlpArr_apply, scoreArr_apply]
  simp only [gatherPairs_apply, catIdx_hi, rowB_apply, padW_apply, padB_apply]

end Cert.Spec

end
-- ==== Proof.KiResult.lean ====
/-
  The idealized kernel's two results as functions of its arguments. The first launch leaves the first layer's features
  (with the ReLU), the second the second layer's, each by the layer law from the stacked arrangement the launch computes
  on the arrays the host stretch before it prepared; the predictor leaves the perceptron of the rows gathered at the joined
  endpoint lists, whose two slices are the scores of the positive and of the negative pairs.
-/
import proofs.«400663_j26508538151583_4_alg».proof.Proof.KiRun
import proofs.«400663_j26508538151583_4_alg».proof.Proof.KiValue0
import proofs.«400663_j26508538151583_4_alg».proof.Proof.KiValue1
import proofs.«400663_j26508538151583_4_alg».proof.Proof.KiValue2
import proofs.«400663_j26508538151583_4_alg».proof.Proof.KiHost
import proofs.«400663_j26508538151583_4_alg».proof.Proof.LawCombine
import proofs.«400663_j26508538151583_4_alg».proof.Proof.LawScores

set_option maxRecDepth 16384

noncomputable section

namespace Cert.KernelIdeal.Val

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ)

/-- An argument array of core `c` at launch. -/
abbrev arg (c : Dev nD) (r : Ref sig .tc) : Buf (Elt Ideal) ((c : Thread nD τ).loc r) := m ((c : Thread nD τ).loc r)

/-- The node features after the first layer (with max(·, 0)) … -/
def feat1 (c : Dev nD) : FVec Ideal Cert.Spec.Nodes .f32 :=
  Cert.Spec.layer true (arg m c main_arg0) (arg m c main_arg1) (arg m c main_arg2) (arg m c main_arg8) (arg m c main_arg7) (arg m c main_arg9)

/-- … and after the second. -/
def feat2 (c : Dev nD) : FVec Ideal Cert.Spec.Nodes .f32 :=
  Cert.Spec.layer false (feat1 m c) (arg m c main_arg1) (arg m c main_arg2) (arg m c main_arg11) (arg m c main_arg10) (arg m c main_arg12)

/-! ## No item before a launch writes an argument -/

theorem V1_arg (c : Dev nD) (r : Ref sig .tc) (h0 : r ∉ Gen.hostOps0_W) : Gen.V1 m c r = arg m c r :=
  Gen.V1_of m c r h0

theorem X2_arg (c : Dev nD) (r : Ref sig .tc) (h0 : r ∉ Gen.hostOps0_W) (h1 : r ≠ main_v22) : Frm.X2 m c r = arg m c r :=
  (Frm.X2_of_ne m c r h1).trans (V1_arg m c r h0)

theorem X3_of (c : Dev nD) (r : Ref sig .tc) (h : r ∉ Gen.hostOps1_W) : Frm.X3 m c r = Frm.X2 m c r := by
  rw [← Frm.V3_eq, ← Frm.V2_eq]; exact Gen.V3_of m (Frm.outs m) c r h

theorem X4_arg (c : Dev nD) (r : Ref sig .tc) (h0 : r ∉ Gen.hostOps0_W) (h1 : r ≠ main_v22) (h2 : r ∉ Gen.hostOps1_W)
    (h3 : r ≠ main_v35) : Frm.X4 m c r = arg m c r :=
  (Frm.X4_of_ne m c r h3).trans ((X3_of m c r h2).trans (X2_arg m c r h0 h1))

/-! ## The first launch -/

theorem o2_eq (c : Dev nD) : Frm.o2 m c = feat1 m c := by
  unfold Frm.o2
  rw [arr0]
  show Cert.Spec.stackedArr true (StableHlo.after (hostOps0 (F := Ideal)) (Gen.V0 m c) (Proc.devRef .tc main_arg0))
      (StableHlo.after (hostOps0 (F := Ideal)) (Gen.V0 m c) (Proc.devRef .tc main_v20)) (StableHlo.after (hostOps0 (F := Ideal)) (Gen.V0 m c) (Proc.devRef .tc main_v9))
      (StableHlo.after (hostOps0 (F := Ideal)) (Gen.V0 m c) (Proc.devRef .tc main_v10)) (StableHlo.after (hostOps0 (F := Ideal)) (Gen.V0 m c) (Proc.devRef .tc main_v21)) = _
  rw [host0_x, host0_msg, host0_dinv, host0_wcat, host0_bias]
  exact Cert.Spec.stacked_eq_split true _ _ _ _ _ _

/-! ## The second launch -/

theorem o4_eq (c : Dev nD) : Frm.o4 m c = feat2 m c := by
  unfold Frm.o4
  rw [arr1]
  show Cert.Spec.stackedArr false (StableHlo.after (hostOps1 (F := Ideal)) (Frm.X2 m c) (Proc.devRef .tc main_v22))
      (StableHlo.after (hostOps1 (F := Ideal)) (Frm.X2 m c) (Proc.devRef .tc main_v33)) (StableHlo.after (hostOps1 (F := Ideal)) (Frm.X2 m c) (Proc.devRef .tc main_v9))
      (StableHlo.after (hostOps1 (F := Ideal)) (Frm.X2 m c) (Proc.devRef .tc main_v23)) (StableHlo.after (hostOps1 (F := Ideal)) (Frm.X2 m c) (Proc.devRef .tc main_v34)) = _
  rw [host1_h, host1_msg, host1_dinv, host1_wcat, host1_bias, Frm.X2_self, o2_eq,
    X2_arg m c main_arg1 (by decide) (by decide), X2_arg m c main_arg2 (by decide) (by decide),
    X2_arg m c main_arg11 (by decide) (by decide), X2_arg m c main_arg10 (by decide) (by decide),
    X2_arg m c main_arg12 (by decide) (by decide), Frm.X2_of_ne m c main_v9 (by decide)]
  show Cert.Spec.stackedArr false _ _ (StableHlo.after (hostOps0 (F := Ideal)) (Gen.V0 m c) (Proc.devRef .tc main_v9)) _ _ = _
  rw [host0_dinv]
  exact Cert.Spec.stacked_eq_split false _ _ _ _ _ _

/-! ## The predictor and the two slices -/

theorem o10_eq (c : Dev nD) : Frm.o10 m c
    = Cert.Spec.mlpArr (Cert.Spec.gatherPairs (feat2 m c) (Cert.Spec.catIdx (arg m c main_arg3) (arg m c main_arg5)))
        (Cert.Spec.gatherPairs (feat2 m c) (Cert.Spec.catIdx (arg m c main_arg4) (arg m c main_arg6)))
        (arg m c main_arg13) (Cert.Spec.rowB (arg m c main_arg14)) (arg m c main_arg15) (Cert.Spec.rowB (arg m c main_arg16))
        (Cert.Spec.padW (arg m c main_arg17)) (Cert.Spec.padB (arg m c main_arg18)) := by
  unfold Frm.o10
  rw [Cert.KernelIdeal.Val2.arr2]
  show Cert.Spec.mlpArr (pre2 (Frm.X4 m c) (Proc.devRef .tc main_v45)) (pre2 (Frm.X4 m c) (Proc.devRef .tc main_v52)) (pre2 (Frm.X4 m c) (Proc.devRef .tc main_arg13))
      (pre2 (Frm.X4 m c) (Proc.devRef .tc main_v56)) (pre2 (Frm.X4 m c) (Proc.devRef .tc main_arg15)) (pre2 (Frm.X4 m c) (Proc.devRef .tc main_v57))
      (pre2 (Frm.X4 m c) (Proc.devRef .tc main_v53)) (pre2 (Frm.X4 m c) (Proc.devRef .tc main_v55)) = _
  rw [pre2_hs, pre2_hd, pre2_p1, pre2_p2, pre2_c1, pre2_c2, pre2_w3, pre2_c3, Frm.X4_self, o4_eq,
    X4_arg m c main_arg3 (by decide) (by decide) (by decide) (by decide), X4_arg m c main_arg4 (by decide) (by decide) (by decide) (by decide),
    X4_arg m c main_arg5 (by decide) (by decide) (by decide) (by decide), X4_arg m c main_arg6 (by decide) (by decide) (by decide) (by decide),
    X4_arg m c main_arg13 (by decide) (by decide) (by decide) (by decide), X4_arg m c main_arg14 (by decide) (by decide) (by decide) (by decide),
    X4_arg m c main_arg15 (by decide) (by decide) (by decide) (by decide), X4_arg m c main_arg16 (by decide) (by decide) (by decide) (by decide),
    X4_arg m c main_arg17 (by decide) (by decide) (by decide) (by decide), X4_arg m c main_arg18 (by decide) (by decide) (by decide) (by decide)]

/-- The first result: the scores of the positive pairs. -/
theorem out0 (c : Dev nD) : Frm.X11 m c (Proc.devRef .tc main_v60)
    = Cert.Spec.scoreArr (feat2 m c) (arg m c main_arg3) (arg m c main_arg4) (arg m c main_arg13) (arg m c main_arg14)
        (arg m c main_arg15) (arg m c main_arg16) (arg m c main_arg17) (arg m c main_arg18) := by
  show StableHlo.after (hostOps3 (F := Ideal)) (Frm.X10 m c) (Proc.devRef .tc main_v60) = _
  rw [host3_lo, Frm.X10_self, o10_eq]
  exact Cert.Spec.scoresLo_mlpArr _ _ _ _ _ _ _ _ _ _ _

/-- The second result: the scores of the negative pairs. -/
theorem out1 (c : Dev nD) : Frm.X11 m c (Proc.devRef .tc main_v61)
    = Cert.Spec.scoreArr (feat2 m c) (arg m c main_arg5) (arg m c main_arg6) (arg m c main_arg13) (arg m c main_arg14)
        (arg m c main_arg15) (arg m c main_arg16) (arg m c main_arg17) (arg m c main_arg18) := by
  show StableHlo.after (hostOps3 (F := Ideal)) (Frm.X10 m c) (Proc.devRef .tc main_v61) = _
  rw [host3_hi, Frm.X10_self, o10_eq]
  exact Cert.Spec.scoresHi_mlpArr _ _ _ _ _ _ _ _ _ _ _

end Cert.KernelIdeal.Val

end
-- ==== Proof.RefLayers.lean ====
/-
  The reference's two graph-convolution layers are the specification's layers.
  A layer of the reference is: the rows h[src e, ·] gathered at the wrapped source words and added into a zero table at
  the target words (the summed messages); ones added into a zero vector at the target words, then max(·, 1) (the
  divisors); the quotient of the two, row by row; the product of h with the transposed self weight plus the product of
  the quotient with the transposed neighbour weight plus the bias row; and, in the first layer only, max(·, 0).
  The gathers and scatters are the specification's own host terms, so they are identified as closed terms and never
  opened. Everything after them is read at an entry (p, q): a product with a transposed weight is the sum over k of
  the left entry (p, k) times the weight's entry (q, k), the divisor's column spread over a row is its entry p, the
  bias row spread over the nodes is its entry q. What results is the specification's split arrangement, term for term.
-/
import proofs.«400663_j26508538151583_4_alg».proof.Proof.Gen.ReferenceIdeal.Read
import proofs.«400663_j26508538151583_4_alg».proof.Proof.Spec

noncomputable section

open scoped BigOperators

namespace Cert.ReferenceIdeal.RefLayers

open Cert.ReferenceIdeal Idealize.ShloMosaic Idealize.ShloMosaic.ValueIdx
/-! ## The summed messages and the divisors, as closed terms

Both layers gather rows of a node table at the wrapped source words and add them into a zero table at the target
words; both divide by max(deg, 1), the degrees being ones added into a zero vector at the target words. These host
chains are the specification's own terms, so they are identified once and never opened again. -/

/-- The first layer's scatter of gathered rows is the summed messages, whatever table the rows are gathered from. -/
theorem msgSum_chain1 (h : (⟨S100000x128, .f32⟩ : BufTy).Contents (Elt Ideal)) (x1 x2 : (⟨S1600000, .i32⟩ : BufTy).Contents (Elt Ideal)) :
    Host.scatterAdd (F := Ideal) scatter_S100000x128_S1600000x1_S1600000x128_1_0_0_1 (Read.val_main_v7 (F := Ideal)) (Read.val_main_v8 (F := Ideal) x2)
        (Host.gather gather_S100000x128_S1600000x1_S1600000x128_1_0_n_n_0_1_1128 h (Read.val_main_v5 (F := Ideal) x1))
      = Cert.Spec.msgSum h x1 x2 := by
  unfold Read.val_main_v7 Read.val_main_v8 Read.val_main_v5 Read.val_main_v4 Read.val_main_v3 Read.val_main_v2 Read.val_main_v1 Read.val_main_v0 Read.val_main_c Read.val_main_c_0 Read.val_main_cst
  rfl

/-- The second layer's scatter of gathered rows: the same chain under its own operation names. -/
theorem msgSum_chain2 (h : (⟨S100000x128, .f32⟩ : BufTy).Contents (Elt Ideal)) (x1 x2 : (⟨S1600000, .i32⟩ : BufTy).Contents (Elt Ideal)) :
    Host.scatterAdd (F := Ideal) scatter_S100000x128_S1600000x1_S1600000x128_1_0_0_1 (Read.val_main_v35 (F := Ideal)) (Read.val_main_v36 (F := Ideal) x2)
        (Host.gather gather_S100000x128_S1600000x1_S1600000x128_1_0_n_n_0_1_1128 h (Read.val_main_v33 (F := Ideal) x1))
      = Cert.Spec.msgSum h x1 x2 := by
  unfold Read.val_main_v35 Read.val_main_v36 Read.val_main_v33 Read.val_main_v32 Read.val_main_v31 Read.val_main_v30 Read.val_main_v29 Read.val_main_v28 Read.val_main_c_4 Read.val_main_c_5 Read.val_main_cst_6
  rfl

/-- The first layer's summed messages. -/
theorem msg1 (x0 : (⟨S100000x128, .f32⟩ : BufTy).Contents (Elt Ideal)) (x1 x2 : (⟨S1600000, .i32⟩ : BufTy).Contents (Elt Ideal)) :
    Read.val_main_v9 (F := Ideal) x0 x1 x2 = Cert.Spec.msgSum x0 x1 x2 := by
  unfold Read.val_main_v9 Read.val_main_v6
  exact msgSum_chain1 x0 x1 x2

/-- The second layer's summed messages, of the first layer's result. -/
theorem msg2 (x0 : (⟨S100000x128, .f32⟩ : BufTy).Contents (Elt Ideal)) (x1 x2 : (⟨S1600000, .i32⟩ : BufTy).Contents (Elt Ideal))
    (x7 x8 : (⟨S128x128, .f32⟩ : BufTy).Contents (Elt Ideal)) (x9 : (⟨S128, .f32⟩ : BufTy).Contents (Elt Ideal)) :
    Read.val_main_v37 (F := Ideal) x0 x1 x2 x7 x8 x9
      = Cert.Spec.msgSum (Read.val_main_v27 (F := Ideal) x0 x1 x2 x7 x8 x9) x1 x2 := by
  unfold Read.val_main_v37 Read.val_main_v34
  exact msgSum_chain2 _ x1 x2

/-- The first layer's divisors max(deg, 1). -/
theorem dm1 (x2 : (⟨S1600000, .i32⟩ : BufTy).Contents (Elt Ideal)) :
    Read.val_main_v15 (F := Ideal) x2 = Cert.Spec.dmax x2 := by
  unfold Read.val_main_v15 Read.val_main_v14 Read.val_main_v13 Read.val_main_v12 Read.val_main_v11 Read.val_main_v10 Read.val_main_cst_1 Read.val_main_cst_2 Read.val_main_cst_3
  rfl

/-- The second layer's divisors: the same degrees again. -/
theorem dm2 (x2 : (⟨S1600000, .i32⟩ : BufTy).Contents (Elt Ideal)) :
    Read.val_main_v43 (F := Ideal) x2 = Cert.Spec.dmax x2 := by
  unfold Read.val_main_v43 Read.val_main_v42 Read.val_main_v41 Read.val_main_v40 Read.val_main_v39 Read.val_main_v38 Read.val_main_cst_7 Read.val_main_cst_8 Read.val_main_cst_9
  rfl

/-! ## The first layer, entry by entry -/

section layer1

variable (x0 : (⟨S100000x128, .f32⟩ : BufTy).Contents (Elt Ideal)) (x1 x2 : (⟨S1600000, .i32⟩ : BufTy).Contents (Elt Ideal))
  (x7 x8 : (⟨S128x128, .f32⟩ : BufTy).Contents (Elt Ideal)) (x9 : (⟨S128, .f32⟩ : BufTy).Contents (Elt Ideal))

/-- The self product x · W_selfᵀ at an entry. -/
theorem self1_apply (p : Fin 100000) (q : Fin 128) :
    Read.val_main_v20 (F := Ideal) x0 x8 (ix2 p q) = ∑ k : Fin 128, x0 (ix2 p k) * x8 (ix2 q k) := by
  refine (Read.val_main_v20_apply x0 x8 (ix2 p q)).trans (Finset.sum_congr rfl fun k _ => ?_)
  have e1 : Read.lidx_main_v20 (ix2 p q) k = ix2 p k :=
    funext fun a => Fin.ext (by match a with | ⟨0, _⟩ => rfl | ⟨1, _⟩ => rfl)
  have e2 : Read.idx_main_v19 (Read.ridx_main_v20 (ix2 p q) k) = ix2 q k :=
    funext fun a => Fin.ext (by match a with | ⟨0, _⟩ => rfl | ⟨1, _⟩ => rfl)
  rw [Read.val_main_v19_apply, e1, e2]

/-- The mean message at an entry: the summed message over max(deg, 1) of its row. -/
theorem mean1_apply (p : Fin 100000) (k : Fin 128) :
    Read.val_main_v18 (F := Ideal) x0 x1 x2 (ix2 p k)
      = Ideal.div (Cert.Spec.msgSum x0 x1 x2 (ix2 p k)) (Cert.Spec.dmax x2 (ix1 p)) := by
  have e : Read.idx_main_v16 (Read.idx_main_v17 (ix2 p k)) = ix1 p :=
    funext fun a => Fin.ext (by match a with | ⟨0, _⟩ => rfl)
  rw [Read.val_main_v18_apply, Read.val_main_v17_apply, Read.val_main_v16_apply, e, msg1, dm1]
  rfl

/-- The neighbour product mean · W_neighᵀ at an entry. -/
theorem neigh1_apply (p : Fin 100000) (q : Fin 128) :
    Read.val_main_v22 (F := Ideal) x0 x1 x2 x7 (ix2 p q)
      = ∑ k : Fin 128, Ideal.div (Cert.Spec.msgSum x0 x1 x2 (ix2 p k)) (Cert.Spec.dmax x2 (ix1 p)) * x7 (ix2 q k) := by
  refine (Read.val_main_v22_apply x0 x1 x2 x7 (ix2 p q)).trans (Finset.sum_congr rfl fun k _ => ?_)
  have e1 : Read.lidx_main_v22 (ix2 p q) k = ix2 p k :=
    funext fun a => Fin.ext (by match a with | ⟨0, _⟩ => rfl | ⟨1, _⟩ => rfl)
  have e2 : Read.idx_main_v21 (Read.ridx_main_v22 (ix2 p q) k) = ix2 q k :=
    funext fun a => Fin.ext (by match a with | ⟨0, _⟩ => rfl | ⟨1, _⟩ => rfl)
  rw [Read.val_main_v21_apply, e1, e2, mean1_apply]

/-- The bias row spread over the nodes, at an entry. -/
theorem bias1_apply (p : Fin 100000) (q : Fin 128) :
    Read.val_main_v25 (F := Ideal) x9 (ix2 p q) = x9 (ix1 q) := by
  have e : Read.idx_main_v24 (Read.idx_main_v25 (ix2 p q)) = ix1 q :=
    funext fun a => Fin.ext (by match a with | ⟨0, _⟩ => rfl)
  rw [Read.val_main_v25_apply, Read.val_main_v24_apply, e]

/-- The first layer before its max(·, 0), at an entry. -/
theorem pre1_apply (p : Fin 100000) (q : Fin 128) :
    Read.val_main_v26 (F := Ideal) x0 x1 x2 x7 x8 x9 (ix2 p q)
      = Cert.Spec.combineSplit (fun k => x0 (ix2 p k)) (fun k => Cert.Spec.msgSum x0 x1 x2 (ix2 p k)) (Cert.Spec.dmax x2 (ix1 p))
          (fun k => x8 (ix2 q k)) (fun k => x7 (ix2 q k)) (x9 (ix1 q)) := by
  rw [Read.val_main_v26_apply, Read.val_main_v23_apply, self1_apply, neigh1_apply, bias1_apply]
  rfl

/-- The first layer: self product plus product of the mean message plus bias, then max(·, 0). -/
theorem ref_h1 :
    Read.val_main_v27 (F := Ideal) x0 x1 x2 x7 x8 x9 = Cert.Spec.layer true x0 x1 x2 x8 x7 x9 := by
  funext i
  obtain ⟨p, q, rfl⟩ : ∃ (p : Fin 100000) (q : Fin 128), i = ix2 p q := ⟨i 0, i 1, eq_ix2 i⟩
  rw [Read.val_main_v27_apply, pre1_apply, Read.val_main_call0_v0_apply, Read.val_main_call0_cst_apply, Ideal.ofBits_def, Ideal.ofBits_zero_f32]
  rfl

end layer1

/-! ## The second layer, entry by entry

The same reading from the first layer's result, which stays a closed term; no max(·, 0) at the end. -/

section layer2

variable (x0 : (⟨S100000x128, .f32⟩ : BufTy).Contents (Elt Ideal)) (x1 x2 : (⟨S1600000, .i32⟩ : BufTy).Contents (Elt Ideal))
  (x7 x8 : (⟨S128x128, .f32⟩ : BufTy).Contents (Elt Ideal)) (x9 : (⟨S128, .f32⟩ : BufTy).Contents (Elt Ideal))
  (x10 x11 : (⟨S128x128, .f32⟩ : BufTy).Contents (Elt Ideal)) (x12 : (⟨S128, .f32⟩ : BufTy).Contents (Elt Ideal))

/-- The self product h₁ · W_selfᵀ at an entry. -/
theorem self2_apply (p : Fin 100000) (q : Fin 128) :
    Read.val_main_v48 (F := Ideal) x0 x1 x2 x7 x8 x9 x11 (ix2 p q)
      = ∑ k : Fin 128, Read.val_main_v27 (F := Ideal) x0 x1 x2 x7 x8 x9 (ix2 p k) * x11 (ix2 q k) := by
  refine (Read.val_main_v48_apply x0 x1 x2 x7 x8 x9 x11 (ix2 p q)).trans (Finset.sum_congr rfl fun k _ => ?_)
  have e1 : Read.lidx_main_v48 (ix2 p q) k = ix2 p k :=
    funext fun a => Fin.ext (by match a with | ⟨0, _⟩ => rfl | ⟨1, _⟩ => rfl)
  have e2 : Read.idx_main_v47 (Read.ridx_main_v48 (ix2 p q) k) = ix2 q k :=
    funext fun a => Fin.ext (by match a with | ⟨0, _⟩ => rfl | ⟨1, _⟩ => rfl)
  rw [Read.val_main_v47_apply, e1, e2]

/-- The mean message of the first layer's result at an entry. -/
theorem mean2_apply (p : Fin 100000) (k : Fin 128) :
    Read.val_main_v46 (F := Ideal) x0 x1 x2 x7 x8 x9 (ix2 p k)
      = Ideal.div (Cert.Spec.msgSum (Read.val_main_v27 (F := Ideal) x0 x1 x2 x7 x8 x9) x1 x2 (ix2 p k)) (Cert.Spec.dmax x2 (ix1 p)) := by
  have e : Read.idx_main_v44 (Read.idx_main_v45 (ix2 p k)) = ix1 p :=
    funext fun a => Fin.ext (by match a with | ⟨0, _⟩ => rfl)
  rw [Read.val_main_v46_apply, Read.val_main_v45_apply, Read.val_main_v44_apply, e, msg2, dm2]
  rfl

/-- The neighbour product mean · W_neighᵀ at an entry. -/
theorem neigh2_apply (p : Fin 100000) (q : Fin 128) :
    Read.val_main_v50 (F := Ideal) x0 x1 x2 x7 x8 x9 x10 (ix2 p q)
      = ∑ k : Fin 128, Ideal.div (Cert.Spec.msgSum (Read.val_main_v27 (F := Ideal) x0 x1 x2 x7 x8 x9) x1 x2 (ix2 p k)) (Cert.Spec.dmax x2 (ix1 p))
          * x10 (ix2 q k) := by
  refine (Read.val_main_v50_apply x0 x1 x2 x7 x8 x9 x10 (ix2 p q)).trans (Finset.sum_congr rfl fun k _ => ?_)
  have e1 : Read.lidx_main_v50 (ix2 p q) k = ix2 p k :=
    funext fun a => Fin.ext (by match a with | ⟨0, _⟩ => rfl | ⟨1, _⟩ => rfl)
  have e2 : Read.idx_main_v49 (Read.ridx_main_v50 (ix2 p q) k) = ix2 q k :=
    funext fun a => Fin.ext (by match a with | ⟨0, _⟩ => rfl | ⟨1, _⟩ => rfl)
  rw [Read.val_main_v49_apply, e1, e2, mean2_apply]

/-- The bias row spread over the nodes, at an entry. -/
theorem bias2_apply (p : Fin 100000) (q : Fin 128) :
    Read.val_main_v53 (F := Ideal) x12 (ix2 p q) = x12 (ix1 q) := by
  have e : Read.idx_main_v52 (Read.idx_main_v53 (ix2 p q)) = ix1 q :=
    funext fun a => Fin.ext (by match a with | ⟨0, _⟩ => rfl)
  rw [Read.val_main_v53_apply, Read.val_main_v52_apply, e]

/-- The second layer: self product plus product of the mean message plus bias, of the first layer's result. -/
theorem ref_h2 :
    Read.val_main_v54 (F := Ideal) x0 x1 x2 x7 x8 x9 x10 x11 x12
      = Cert.Spec.layer false (Read.val_main_v27 (F := Ideal) x0 x1 x2 x7 x8 x9) x1 x2 x11 x10 x12 := by
  funext i
  obtain ⟨p, q, rfl⟩ : ∃ (p : Fin 100000) (q : Fin 128), i = ix2 p q := ⟨i 0, i 1, eq_ix2 i⟩
  rw [Read.val_main_v54_apply, Read.val_main_v51_apply, self2_apply, neigh2_apply, bias2_apply]
  rfl

end layer2

end Cert.ReferenceIdeal.RefLayers

end
-- ==== Proof.RefScores.lean ====
/-
  The reference's edge predictor, read at an index. From the node features H : [100000, 128] and two lists s, d of
  100000 index words it gathers the rows H[s p, ·] and H[d p, ·] (a negative word counting from the end, the result
  clamped into the table), lays them side by side as a row of 256, and applies three linear layers x ↦ x · Wᵀ + c, the
  first two followed by max(·, 0); the last has one output column. Entry (p, 0) of the result is therefore the
  perceptron `Spec.mlp` of the two gathered rows, which is what `Spec.scoreArr` states. The predictor is written once
  as a function of H and the two lists; the program applies it to the positive and to the negative pairs.
-/
import proofs.«400663_j26508538151583_4_alg».proof.Proof.Gen.ReferenceIdeal.Read
import proofs.«400663_j26508538151583_4_alg».proof.Proof.Spec
import proofs.«400663_j26508538151583_4_alg».proof.Proof.LibPlainDot
import proofs.«400663_j26508538151583_4_alg».proof.Proof.LibRowGather
import Idealize.ShloMosaic.Lib.Pipeline.Value
import Idealize.ShloMosaic.Lib.ValueLayout
import Idealize.ShloMosaic.PureOps.Ideal.Laws

noncomputable section

open scoped BigOperators

namespace Cert.ReferenceIdeal.RefScores

open Cert.ReferenceIdeal Cert.ReferenceIdeal.Gen Idealize.ShloMosaic Idealize.ShloMosaic.ValueIdx

/-! ## The predictor as host operations -/

section Terms
variable {F : FTy → Type} [FloatOps F]

/-- A list of index words, the negative ones counted from the end, as a column. -/
def idxCol (s : IVec S100000 32) : IVec S100000x1 32 :=
  broadcastInDim S100000x1 ![0] bcast_S100000_S100000x1_0
    (select (cmpi .slt s (broadcastInDim S100000 ![] bcast_S_S100000 (constantI S_ 32 0#32)))
      (addi s (broadcastInDim S100000 ![] bcast_S_S100000 (constantI S_ 32 100000#32))) s)

/-- The rows of the table at a list of index words. -/
def rowsAt (H : FVec F S100000x128 .f32) (s : IVec S100000 32) : FVec F S100000x128 .f32 :=
  Host.gather gather_S100000x128_S100000x1_S100000x128_1_0_n_n_0_1_1128 H (idxCol s)

/-- The two gathered tables side by side. -/
def pairRows (H : FVec F S100000x128 .f32) (s d : IVec S100000 32) : FVec F S100000x256 .f32 :=
  concatenate S100000x256 1 [⟨S100000x128, rowsAt H s⟩, ⟨S100000x128, rowsAt H d⟩]
    concatenates_S100000x128_S100000x128_S100000x256_d1

/-- A bias vector repeated down the rows. -/
def biasRows (c : FVec F S128 .f32) : FVec F S100000x128 .f32 :=
  broadcastInDim S100000x128 ![0, 1] bcast_S1x128_S100000x128_0_1 (broadcastInDim S1x128 ![1] bcast_S128_S1x128_1 c)

/-- The zero array a max(·, 0) compares with. -/
def zeroRows : FVec F S100000x128 .f32 :=
  broadcastInDim S100000x128 ![] bcast_S_S100000x128 (constant S_ .f32 0x00000000#32)

/-- The first layer: 256 inputs, 128 outputs, then max(·, 0). -/
def hidden1 (X : FVec F S100000x256 .f32) (P1 : FVec F S128x256 .f32) (c1 : FVec F S128 .f32) : FVec F S100000x128 .f32 :=
  maximumf (addf (Host.dotGeneral dot_S100000x256_S256x128_S100000x128_1_0_0_1_n_n none X
    (transpose S256x128 [1, 0] P1 transposes_S128x256_S256x128_1_0)) (biasRows c1)) zeroRows

/-- The second layer: 128 inputs, 128 outputs, then max(·, 0). -/
def hidden2 (X : FVec F S100000x128 .f32) (P2 : FVec F S128x128 .f32) (c2 : FVec F S128 .f32) : FVec F S100000x128 .f32 :=
  maximumf (addf (Host.dotGeneral dot_S100000x128_S128x128_S100000x128_1_0_0_1_n_n none X
    (transpose S128x128 [1, 0] P2 transposes_S128x128_S128x128_1_0)) (biasRows c2)) zeroRows

/-- The last layer: 128 inputs, one output. -/
def outCol (X : FVec F S100000x128 .f32) (P3 : FVec F S1x128 .f32) (c3 : FVec F S1 .f32) : FVec F S100000x1 .f32 :=
  addf (Host.dotGeneral dot_S100000x128_S128x1_S100000x1_1_0_0_1_n_n none X
    (transpose S128x1 [1, 0] P3 transposes_S1x128_S128x1_1_0))
    (broadcastInDim S100000x1 ![0, 1] bcast_S1x1_S100000x1_0_1 (broadcastInDim S1x1 ![1] bcast_S1_S1x1_1 c3))

/-- The predictor: the scores of the pairs (s p, d p). -/
def scoresOf (H : FVec F S100000x128 .f32) (s d : IVec S100000 32) (P1 : FVec F S128x256 .f32) (c1 : FVec F S128 .f32)
    (P2 : FVec F S128x128 .f32) (c2 : FVec F S128 .f32) (P3 : FVec F S1x128 .f32) (c3 : FVec F S1 .f32) :
    FVec F S100000x1 .f32 :=
  outCol (hidden2 (hidden1 (pairRows H s d) P1 c1) P2 c2) P3 c3

end Terms

/-! ## Each stage at an index -/

/-- The index column at row p is the wrapped word. -/
theorem idxCol_apply (s : IVec S100000 32) (p : Fin 100000) :
    idxCol s (ix2 p (0 : Fin 1)) = Spec.wrapWord (s (ix1 p)) := by
  unfold idxCol
  refine (broadcastInDim_apply _ bcast_S100000_S100000x1_0 _ (ix2 p (0 : Fin 1)) (ix1 p) (fun a => match a with
    | ⟨0, _⟩ => by show p.val = if (100000 : Nat) = 1 then 0 else p.val; rw [if_neg (by decide)])).trans ?_
  rfl

/-- A gathered row is the table's row at the node the word names. -/
theorem rowsAt_apply (H : FVec Ideal S100000x128 .f32) (s : IVec S100000 32) (p : Fin 100000) (k : Fin 128) :
    rowsAt H s (ix2 p k) = H (ix2 (Spec.nodeOf (s (ix1 p))) k) := by
  unfold rowsAt
  refine (Cert.LibRowGather.gather_rows_apply (N := 100000) (D := 128) (M := 100000) (by decide)
    gather_S100000x128_S100000x1_S100000x128_1_0_n_n_0_1_1128_wf H (idxCol s) p k).trans ?_
  refine congrArg (fun r : Fin 100000 => H (ix2 r k)) (Fin.ext ?_)
  show min (idxCol s (ix2 p (0 : Fin 1))).toInt.toNat (100000 - 1) = min (Spec.wrapWord (s (ix1 p))).toInt.toNat 99999
  rw [idxCol_apply]

/-- The joined table at (p, k): the first 128 columns from the first list's row, the rest from the second's. -/
theorem pairRows_apply (H : FVec Ideal S100000x128 .f32) (s d : IVec S100000 32) (p : Fin 100000) (k : Fin 256) :
    pairRows H s d (ix2 p k)
      = Spec.sideBySide (fun k => H (ix2 (Spec.nodeOf (s (ix1 p))) k)) (fun k => H (ix2 (Spec.nodeOf (d (ix1 p))) k)) k := by
  unfold pairRows Spec.sideBySide
  by_cases hk : k.val < 128
  · rw [dif_pos hk]
    exact (concatenate_pair_apply_left (t := S100000x256) (s₁ := S100000x128) (s₂ := S100000x128) 1 _ _ _ (ix2 p k) rfl (ix2 p ⟨k.val, hk⟩) (fun b => match b with
      | ⟨0, _⟩ => rfl
      | ⟨1, _⟩ => rfl)).trans (rowsAt_apply H s p ⟨k.val, hk⟩)
  · rw [dif_neg hk]
    exact (concatenate_pair_apply_right (t := S100000x256) (s₁ := S100000x128) (s₂ := S100000x128) 1 _ _ _ (ix2 p k) rfl rfl (ix2 p ⟨k.val - 128, by have := k.isLt; omega⟩)
      (fun b => match b with
        | ⟨0, _⟩ => fun _ => rfl
        | ⟨1, _⟩ => fun h => (h rfl).elim)
      (by show (k.val - 128) + 128 = k.val; omega)).trans (rowsAt_apply H d p ⟨k.val - 128, by have := k.isLt; omega⟩)

/-- The repeated bias at (p, q) is entry q. -/
theorem biasRows_apply (c : FVec Ideal S128 .f32) (p : Fin 100000) (q : Fin 128) : biasRows c (ix2 p q) = c (ix1 q) := by
  unfold biasRows
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 c (ix2 (0 : Fin 1) q) (ix1 q) (fun a => match a with
    | ⟨0, _⟩ => by show q.val = if (128 : Nat) = 1 then 0 else q.val; rw [if_neg (by decide)])

/-- The zero array is zero. -/
theorem zeroRows_apply (i : S100000x128.Idx) : zeroRows (F := Ideal) i = 0 := by
  unfold zeroRows
  refine (broadcastInDim_apply _ bcast_S_S100000x128 _ i ix0 (fun a => a.elim0)).trans ?_
  exact Ideal.ofBits_zero_f32

/-- The first layer at (p, l). -/
theorem hidden1_apply (X : FVec Ideal S100000x256 .f32) (P1 : FVec Ideal S128x256 .f32) (c1 : FVec Ideal S128 .f32)
    (p : Fin 100000) (l : Fin 128) :
    hidden1 X P1 c1 (ix2 p l) = max ((∑ q : Fin 256, X (ix2 p q) * P1 (ix2 l q)) + c1 (ix1 l)) 0 := by
  unfold hidden1
  rw [maximumf_apply, addf_apply, zeroRows_apply, biasRows_apply]
  have e := Cert.LibPlainDot.dotGeneral_plain_apply 100000 256 128 none X
    (transpose S256x128 [1, 0] P1 transposes_S128x256_S256x128_1_0) (ix2 p l)
  rw [show dot_S100000x256_S256x128_S100000x128_1_0_0_1_n_n = DotDims.plain 100000 256 128 from rfl, e]
  refine congrArg (fun t => max (t + c1 (ix1 l)) 0) (Finset.sum_congr rfl fun q _ => ?_)
  exact congrArg (X (ix2 p q) * ·) (transpose_ix2_apply P1 transposes_S128x256_S256x128_1_0 q l)

/-- The second layer at (p, k). -/
theorem hidden2_apply (X : FVec Ideal S100000x128 .f32) (P2 : FVec Ideal S128x128 .f32) (c2 : FVec Ideal S128 .f32)
    (p : Fin 100000) (k : Fin 128) :
    hidden2 X P2 c2 (ix2 p k) = max ((∑ l : Fin 128, X (ix2 p l) * P2 (ix2 k l)) + c2 (ix1 k)) 0 := by
  unfold hidden2
  rw [maximumf_apply, addf_apply, zeroRows_apply, biasRows_apply]
  have e := Cert.LibPlainDot.dotGeneral_plain_apply 100000 128 128 none X
    (transpose S128x128 [1, 0] P2 transposes_S128x128_S128x128_1_0) (ix2 p k)
  rw [show dot_S100000x128_S128x128_S100000x128_1_0_0_1_n_n = DotDims.plain 100000 128 128 from rfl, e]
  refine congrArg (fun t => max (t + c2 (ix1 k)) 0) (Finset.sum_congr rfl fun l _ => ?_)
  exact congrArg (X (ix2 p l) * ·) (transpose_ix2_apply P2 transposes_S128x128_S128x128_1_0 l k)

/-- The last layer at (p, 0). -/
theorem outCol_apply (X : FVec Ideal S100000x128 .f32) (P3 : FVec Ideal S1x128 .f32) (c3 : FVec Ideal S1 .f32)
    (p : Fin 100000) :
    outCol X P3 c3 (ix2 p (0 : Fin 1)) = (∑ k : Fin 128, X (ix2 p k) * P3 (ix2 (0 : Fin 1) k)) + c3 (ix1 (0 : Fin 1)) := by
  unfold outCol
  rw [addf_apply]
  have e := Cert.LibPlainDot.dotGeneral_plain_apply 100000 128 1 none X
    (transpose S128x1 [1, 0] P3 transposes_S1x128_S128x1_1_0) (ix2 p (0 : Fin 1))
  rw [show dot_S100000x128_S128x1_S100000x1_1_0_0_1_n_n = DotDims.plain 100000 128 1 from rfl, e]
  have eb : broadcastInDim S100000x1 ![0, 1] bcast_S1x1_S100000x1_0_1 (broadcastInDim S1x1 ![1] bcast_S1_S1x1_1 c3)
      (ix2 p (0 : Fin 1)) = c3 (ix1 (0 : Fin 1)) := by
    refine (broadcastInDim_apply _ bcast_S1x1_S100000x1_0_1 _ (ix2 p (0 : Fin 1)) (ix2 (0 : Fin 1) (0 : Fin 1)) (fun a => match a with
      | ⟨0, _⟩ => by show 0 = if (1 : Nat) = 1 then 0 else p.val; rw [if_pos rfl]
      | ⟨1, _⟩ => by show 0 = if (1 : Nat) = 1 then 0 else 0; rw [if_pos rfl])).trans ?_
    exact broadcastInDim_apply _ bcast_S1_S1x1_1 c3 (ix2 (0 : Fin 1) (0 : Fin 1)) (ix1 (0 : Fin 1)) (fun a => match a with
      | ⟨0, _⟩ => by show 0 = if (1 : Nat) = 1 then 0 else 0; rw [if_pos rfl])
  rw [eb]
  refine congrArg (· + c3 (ix1 (0 : Fin 1))) (Finset.sum_congr rfl fun k _ => ?_)
  exact congrArg (X (ix2 p k) * ·) (transpose_ix2_apply P3 transposes_S1x128_S128x1_1_0 k (0 : Fin 1))

/-! ## The predictor is the perceptron of the two gathered rows -/

theorem scoresOf_eq (H : FVec Ideal S100000x128 .f32) (s d : IVec S100000 32) (P1 : FVec Ideal S128x256 .f32)
    (c1 : FVec Ideal S128 .f32) (P2 : FVec Ideal S128x128 .f32) (c2 : FVec Ideal S128 .f32) (P3 : FVec Ideal S1x128 .f32)
    (c3 : FVec Ideal S1 .f32) :
    scoresOf H s d P1 c1 P2 c2 P3 c3 = Spec.scoreArr H s d P1 c1 P2 c2 P3 c3 := by
  funext i
  obtain ⟨p, z, rfl⟩ : ∃ (p : Fin 100000) (z : Fin 1), i = ix2 p z := ⟨i 0, i 1, eq_ix2 i⟩
  obtain rfl : z = 0 := Subsingleton.elim _ _
  unfold scoresOf
  rw [outCol_apply]
  show _ = Spec.mlp (fun k => H (ix2 (Spec.nodeOf (s (ix1 p))) k)) (fun k => H (ix2 (Spec.nodeOf (d (ix1 p))) k))
    (fun l r => P1 (ix2 l r)) (fun l => c1 (ix1 l)) (fun k l => P2 (ix2 k l)) (fun k => c2 (ix1 k))
    (fun k => P3 (ix2 (0 : Fin 1) k)) (c3 (ix1 (0 : Fin 1)))
  unfold Spec.mlp
  refine congrArg (· + c3 (ix1 (0 : Fin 1))) (Finset.sum_congr rfl fun k _ => ?_)
  rw [hidden2_apply]
  refine congrArg (fun t => max (t + c2 (ix1 k)) 0 * P3 (ix2 (0 : Fin 1) k)) (Finset.sum_congr rfl fun l _ => ?_)
  rw [hidden1_apply]
  refine congrArg (fun t => max (t + c1 (ix1 l)) 0 * P2 (ix2 k l)) (Finset.sum_congr rfl fun q _ => ?_)
  rw [pairRows_apply]

/-! ## The program's two predictors are this one -/

section Program
variable {F : FTy → Type} [FloatOps F]

/-- The scores of the positive pairs, as the program composes them, are the predictor at the second layer's features
    and the lists of the positive pairs' endpoints: the two are the same host operations in the same order. -/
theorem val_v86_eq (x0 : (⟨S100000x128, .f32⟩ : BufTy).Contents (Elt F)) (x1 x2 : (⟨S1600000, .i32⟩ : BufTy).Contents (Elt F)) (x3 x4 : (⟨S100000, .i32⟩ : BufTy).Contents (Elt F)) (x7 x8 : (⟨S128x128, .f32⟩ : BufTy).Contents (Elt F)) (x9 : (⟨S128, .f32⟩ : BufTy).Contents (Elt F)) (x10 x11 : (⟨S128x128, .f32⟩ : BufTy).Contents (Elt F)) (x12 : (⟨S128, .f32⟩ : BufTy).Contents (Elt F)) (x13 : (⟨S128x256, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (x17 : (⟨S1x128, .f32⟩ : BufTy).Contents (Elt F)) (x18 : (⟨S1, .f32⟩ : BufTy).Contents (Elt F)) :
    Read.val_main_v86 (F := F) x0 x1 x2 x3 x4 x7 x8 x9 x10 x11 x12 x13 x14 x15 x16 x17 x18
      = scoresOf (Read.val_main_v54 (F := F) x0 x1 x2 x7 x8 x9 x10 x11 x12) x3 x4 x13 x14 x15 x16 x17 x18 := by
  unfold Read.val_main_v86 Read.val_main_v85 Read.val_main_v84 Read.val_main_v83 Read.val_main_v82 Read.val_main_v81 Read.val_main_call2_v0 Read.val_main_call2_cst Read.val_main_v80 Read.val_main_v79 Read.val_main_v78 Read.val_main_v77 Read.val_main_v76 Read.val_main_v75 Read.val_main_call1_v0 Read.val_main_call1_cst Read.val_main_v74 Read.val_main_v73 Read.val_main_v72 Read.val_main_v71 Read.val_main_v70 Read.val_main_v69 Read.val_main_v68 Read.val_main_v67 Read.val_main_v66 Read.val_main_v65 Read.val_main_v64 Read.val_main_c_13 Read.val_main_v63 Read.val_main_v62 Read.val_main_c_12 Read.val_main_v61 Read.val_main_v60 Read.val_main_v59 Read.val_main_v58 Read.val_main_v57 Read.val_main_c_11 Read.val_main_v56 Read.val_main_v55 Read.val_main_c_10
  rfl

/-- The scores of the negative pairs likewise, at the lists of the negative pairs' endpoints. -/
theorem val_v118_eq (x0 : (⟨S100000x128, .f32⟩ : BufTy).Contents (Elt F)) (x1 x2 : (⟨S1600000, .i32⟩ : BufTy).Contents (Elt F)) (x5 x6 : (⟨S100000, .i32⟩ : BufTy).Contents (Elt F)) (x7 x8 : (⟨S128x128, .f32⟩ : BufTy).Contents (Elt F)) (x9 : (⟨S128, .f32⟩ : BufTy).Contents (Elt F)) (x10 x11 : (⟨S128x128, .f32⟩ : BufTy).Contents (Elt F)) (x12 : (⟨S128, .f32⟩ : BufTy).Contents (Elt F)) (x13 : (⟨S128x256, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (x17 : (⟨S1x128, .f32⟩ : BufTy).Contents (Elt F)) (x18 : (⟨S1, .f32⟩ : BufTy).Contents (Elt F)) :
    Read.val_main_v118 (F := F) x0 x1 x2 x5 x6 x7 x8 x9 x10 x11 x12 x13 x14 x15 x16 x17 x18
      = scoresOf (Read.val_main_v54 (F := F) x0 x1 x2 x7 x8 x9 x10 x11 x12) x5 x6 x13 x14 x15 x16 x17 x18 := by
  unfold Read.val_main_v118 Read.val_main_v117 Read.val_main_v116 Read.val_main_v115 Read.val_main_v114 Read.val_main_v113 Read.val_main_call4_v0 Read.val_main_call4_cst Read.val_main_v112 Read.val_main_v111 Read.val_main_v110 Read.val_main_v109 Read.val_main_v108 Read.val_main_v107 Read.val_main_call3_v0 Read.val_main_call3_cst Read.val_main_v106 Read.val_main_v105 Read.val_main_v104 Read.val_main_v103 Read.val_main_v102 Read.val_main_v101 Read.val_main_v100 Read.val_main_v99 Read.val_main_v98 Read.val_main_v97 Read.val_main_v96 Read.val_main_c_17 Read.val_main_v95 Read.val_main_v94 Read.val_main_c_16 Read.val_main_v93 Read.val_main_v92 Read.val_main_v91 Read.val_main_v90 Read.val_main_v89 Read.val_main_c_15 Read.val_main_v88 Read.val_main_v87 Read.val_main_c_14
  rfl

end Program

/-- THE POSITIVE PAIRS' SCORES: entry (p, 0) is the perceptron of rows %arg3[p] and %arg4[p] of the second layer's features. -/
theorem ref_score0 (x0 : (⟨S100000x128, .f32⟩ : BufTy).Contents (Elt Ideal)) (x1 x2 : (⟨S1600000, .i32⟩ : BufTy).Contents (Elt Ideal)) (x3 x4 : (⟨S100000, .i32⟩ : BufTy).Contents (Elt Ideal)) (x7 x8 : (⟨S128x128, .f32⟩ : BufTy).Contents (Elt Ideal)) (x9 : (⟨S128, .f32⟩ : BufTy).Contents (Elt Ideal)) (x10 x11 : (⟨S128x128, .f32⟩ : BufTy).Contents (Elt Ideal)) (x12 : (⟨S128, .f32⟩ : BufTy).Contents (Elt Ideal)) (x13 : (⟨S128x256, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S1x128, .f32⟩ : BufTy).Contents (Elt Ideal)) (x18 : (⟨S1, .f32⟩ : BufTy).Contents (Elt Ideal)) :
    Read.val_main_v86 (F := Ideal) x0 x1 x2 x3 x4 x7 x8 x9 x10 x11 x12 x13 x14 x15 x16 x17 x18
      = Cert.Spec.scoreArr (Read.val_main_v54 (F := Ideal) x0 x1 x2 x7 x8 x9 x10 x11 x12) x3 x4 x13 x14 x15 x16 x17 x18 :=
  (val_v86_eq x0 x1 x2 x3 x4 x7 x8 x9 x10 x11 x12 x13 x14 x15 x16 x17 x18).trans
    (scoresOf_eq (Read.val_main_v54 (F := Ideal) x0 x1 x2 x7 x8 x9 x10 x11 x12) x3 x4 x13 x14 x15 x16 x17 x18)

/-- THE NEGATIVE PAIRS' SCORES: the same at %arg5 and %arg6. -/
theorem ref_score1 (x0 : (⟨S100000x128, .f32⟩ : BufTy).Contents (Elt Ideal)) (x1 x2 : (⟨S1600000, .i32⟩ : BufTy).Contents (Elt Ideal)) (x5 x6 : (⟨S100000, .i32⟩ : BufTy).Contents (Elt Ideal)) (x7 x8 : (⟨S128x128, .f32⟩ : BufTy).Contents (Elt Ideal)) (x9 : (⟨S128, .f32⟩ : BufTy).Contents (Elt Ideal)) (x10 x11 : (⟨S128x128, .f32⟩ : BufTy).Contents (Elt Ideal)) (x12 : (⟨S128, .f32⟩ : BufTy).Contents (Elt Ideal)) (x13 : (⟨S128x256, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S1x128, .f32⟩ : BufTy).Contents (Elt Ideal)) (x18 : (⟨S1, .f32⟩ : BufTy).Contents (Elt Ideal)) :
    Read.val_main_v118 (F := Ideal) x0 x1 x2 x5 x6 x7 x8 x9 x10 x11 x12 x13 x14 x15 x16 x17 x18
      = Cert.Spec.scoreArr (Read.val_main_v54 (F := Ideal) x0 x1 x2 x7 x8 x9 x10 x11 x12) x5 x6 x13 x14 x15 x16 x17 x18 :=
  (val_v118_eq x0 x1 x2 x5 x6 x7 x8 x9 x10 x11 x12 x13 x14 x15 x16 x17 x18).trans
    (scoresOf_eq (Read.val_main_v54 (F := Ideal) x0 x1 x2 x7 x8 x9 x10 x11 x12) x5 x6 x13 x14 x15 x16 x17 x18)

end Cert.ReferenceIdeal.RefScores

end
-- ==== Proof.RefValue.lean ====
/-
  The reference's two results as functions of its arguments: each is the predictor's score, for 100000 pairs of nodes
  named by two lists of index words, of the pairs of rows of the node features after two graph-convolution layers.
-/
import proofs.«400663_j26508538151583_4_alg».proof.Proof.Gen.ReferenceIdeal.Run
import proofs.«400663_j26508538151583_4_alg».proof.Proof.Gen.ReferenceIdeal.Read
import proofs.«400663_j26508538151583_4_alg».proof.Proof.Spec
import proofs.«400663_j26508538151583_4_alg».proof.Proof.RefLayers
import proofs.«400663_j26508538151583_4_alg».proof.Proof.RefScores

set_option maxRecDepth 16384

noncomputable section

namespace Cert.ReferenceIdeal.RefValue

open Cert.ReferenceIdeal Cert.ReferenceIdeal.Gen
open Idealize.ShloMosaic Idealize.ShloMosaic.TcCoe Idealize.SL.Sem

variable (m : (ℓ : Loc nD τ sig) → Buf (Elt Ideal) ℓ)

/-- An argument array of core `c` at launch. -/
abbrev arg (c : Dev nD) (r : Ref sig .tc) : Buf (Elt Ideal) ((c.tc : Thread nD τ).loc r) := m ((c.tc : Thread nD τ).loc r)

/-- The node features after the first layer (with max(·, 0)) … -/
def feat1 (c : Dev nD) : FVec Ideal Cert.Spec.Nodes .f32 :=
  Cert.Spec.layer true (arg m c main_arg0) (arg m c main_arg1) (arg m c main_arg2) (arg m c main_arg8) (arg m c main_arg7) (arg m c main_arg9)

/-- … and after the second. -/
def feat2 (c : Dev nD) : FVec Ideal Cert.Spec.Nodes .f32 :=
  Cert.Spec.layer false (feat1 m c) (arg m c main_arg1) (arg m c main_arg2) (arg m c main_arg11) (arg m c main_arg10) (arg m c main_arg12)

/-- The first result: the scores of the positive pairs. -/
theorem out0 (c : Dev nD) : Cert.ReferenceIdeal.Value.res_main_v86 m c
    = Cert.Spec.scoreArr (feat2 m c) (arg m c main_arg3) (arg m c main_arg4) (arg m c main_arg13) (arg m c main_arg14)
        (arg m c main_arg15) (arg m c main_arg16) (arg m c main_arg17) (arg m c main_arg18) := by
  rw [Read.val_main_v86_eq, RefScores.ref_score0, RefLayers.ref_h2, RefLayers.ref_h1]
  rfl

/-- The second result: the scores of the negative pairs. -/
theorem out1 (c : Dev nD) : Cert.ReferenceIdeal.Value.res_main_v118 m c
    = Cert.Spec.scoreArr (feat2 m c) (arg m c main_arg5) (arg m c main_arg6) (arg m c main_arg13) (arg m c main_arg14)
        (arg m c main_arg15) (arg m c main_arg16) (arg m c main_arg17) (arg m c main_arg18) := by
  rw [Read.val_main_v118_eq, RefScores.ref_score1, RefLayers.ref_h2, RefLayers.ref_h1]
  rfl

end Cert.ReferenceIdeal.RefValue

end
-- ==== Proof.Claims.lean ====
/-
  The five claims. The two kernel programs run by the several-regions launch with every buffer named at the end, which
  gives their frames; the reference's frame is its run with the results dropped; the idealization rewrote nothing. At the
  extended reals both programs return, for the positive and for the negative pairs, the predictor's scores of the rows of
  the node features after two graph-convolution layers — the kernel by the layer law (dividing by max(deg, 1) is
  multiplying by its reciprocal, and a sum over 256 = 128 + 128 indices splits) and by reading its padded and joined
  predictor back at the rows and the column that are kept — so from memories that agree on the arguments the results agree.
-/
import proofs.«400663_j26508538151583_4_alg».proof.Defs
import proofs.«400663_j26508538151583_4_alg».proof.Proof.KRun
import proofs.«400663_j26508538151583_4_alg».proof.Proof.KiRun
import proofs.«400663_j26508538151583_4_alg».proof.Proof.KiResult
import proofs.«400663_j26508538151583_4_alg».proof.Proof.RefValue
import proofs.«400663_j26508538151583_4_alg».proof.Proof.Gen.Pre_finite_inputs

set_option maxRecDepth 16384

noncomputable section

namespace Cert.Proof.Claims

open Idealize.ShloMosaic Idealize.ShloMosaic.TcCoe Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories agreeing on the arguments the reference's node features are the kernel's. -/
theorem feat2_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.RefValue.feat2 m' c = Cert.KernelIdeal.Val.feat2 m c := by
  unfold Cert.ReferenceIdeal.RefValue.feat2 Cert.ReferenceIdeal.RefValue.feat1 Cert.KernelIdeal.Val.feat2 Cert.KernelIdeal.Val.feat1
  unfold Cert.ReferenceIdeal.RefValue.arg Cert.KernelIdeal.Val.arg
  rw [h0, h1, h2, h7, h8, h9, h10, h11, h12]

theorem algebraic : Cert.algebraic_KernelIdeal_ReferenceIdeal := by
  intro m ρ m' ρ' _ hagree
  refine ⟨fun c => Cert.Spec.scoreArr (Cert.KernelIdeal.Val.feat2 m c) (Cert.KernelIdeal.Val.arg m c Cert.KernelIdeal.main_arg3) (Cert.KernelIdeal.Val.arg m c Cert.KernelIdeal.main_arg4)
      (Cert.KernelIdeal.Val.arg m c Cert.KernelIdeal.main_arg13) (Cert.KernelIdeal.Val.arg m c Cert.KernelIdeal.main_arg14) (Cert.KernelIdeal.Val.arg m c Cert.KernelIdeal.main_arg15)
      (Cert.KernelIdeal.Val.arg m c Cert.KernelIdeal.main_arg16) (Cert.KernelIdeal.Val.arg m c Cert.KernelIdeal.main_arg17) (Cert.KernelIdeal.Val.arg m c Cert.KernelIdeal.main_arg18),
    fun c => Cert.Spec.scoreArr (Cert.KernelIdeal.Val.feat2 m c) (Cert.KernelIdeal.Val.arg m c Cert.KernelIdeal.main_arg5) (Cert.KernelIdeal.Val.arg m c Cert.KernelIdeal.main_arg6)
      (Cert.KernelIdeal.Val.arg m c Cert.KernelIdeal.main_arg13) (Cert.KernelIdeal.Val.arg m c Cert.KernelIdeal.main_arg14) (Cert.KernelIdeal.Val.arg m c Cert.KernelIdeal.main_arg15)
      (Cert.KernelIdeal.Val.arg m c Cert.KernelIdeal.main_arg16) (Cert.KernelIdeal.Val.arg m c Cert.KernelIdeal.main_arg17) (Cert.KernelIdeal.Val.arg m c Cert.KernelIdeal.main_arg18), ?_, ?_⟩
  · -- the kernel: every unscoped buffer is named at the end; the two results by their closed forms, the arguments unchanged
    exact (θ_run Cert.KernelIdeal.defs _ _).mono (fun r h c =>
      ⟨(h c _ (Cert.KernelIdeal.Frm.mem_uc Cert.KernelIdeal.main_v60 (by decide))).trans (Cert.KernelIdeal.Val.out0 m c),
       (h c _ (Cert.KernelIdeal.Frm.mem_uc Cert.KernelIdeal.main_v61 (by decide))).trans (Cert.KernelIdeal.Val.out1 m c),
       (h c _ (Cert.KernelIdeal.Frm.mem_uc Cert.KernelIdeal.main_arg0 (by decide))).trans (Cert.KernelIdeal.Frm.X11_arg m c Cert.KernelIdeal.main_arg0 (Cert.KernelIdeal.Gen.V11_main_arg0 m (Cert.KernelIdeal.Frm.outs m) c)),
       (h c _ (Cert.KernelIdeal.Frm.mem_uc Cert.KernelIdeal.main_arg1 (by decide))).trans (Cert.KernelIdeal.Frm.X11_arg m c Cert.KernelIdeal.main_arg1 (Cert.KernelIdeal.Gen.V11_main_arg1 m (Cert.KernelIdeal.Frm.outs m) c)),
       (h c _ (Cert.KernelIdeal.Frm.mem_uc Cert.KernelIdeal.main_arg2 (by decide))).trans (Cert.KernelIdeal.Frm.X11_arg m c Cert.KernelIdeal.main_arg2 (Cert.KernelIdeal.Gen.V11_main_arg2 m (Cert.KernelIdeal.Frm.outs m) c)),
       (h c _ (Cert.KernelIdeal.Frm.mem_uc Cert.KernelIdeal.main_arg3 (by decide))).trans (Cert.KernelIdeal.Frm.X11_arg m c Cert.KernelIdeal.main_arg3 (Cert.KernelIdeal.Gen.V11_main_arg3 m (Cert.KernelIdeal.Frm.outs m) c)),
       (h c _ (Cert.KernelIdeal.Frm.mem_uc Cert.KernelIdeal.main_arg4 (by decide))).trans (Cert.KernelIdeal.Frm.X11_arg m c Cert.KernelIdeal.main_arg4 (Cert.KernelIdeal.Gen.V11_main_arg4 m (Cert.KernelIdeal.Frm.outs m) c)),
       (h c _ (Cert.KernelIdeal.Frm.mem_uc Cert.KernelIdeal.main_arg5 (by decide))).trans (Cert.KernelIdeal.Frm.X11_arg m c Cert.KernelIdeal.main_arg5 (Cert.KernelIdeal.Gen.V11_main_arg5 m (Cert.KernelIdeal.Frm.outs m) c)),
       (h c _ (Cert.KernelIdeal.Frm.mem_uc Cert.KernelIdeal.main_arg6 (by decide))).trans (Cert.KernelIdeal.Frm.X11_arg m c Cert.KernelIdeal.main_arg6 (Cert.KernelIdeal.Gen.V11_main_arg6 m (Cert.KernelIdeal.Frm.outs m) c)),
       (h c _ (Cert.KernelIdeal.Frm.mem_uc Cert.KernelIdeal.main_arg7 (by decide))).trans (Cert.KernelIdeal.Frm.X11_arg m c Cert.KernelIdeal.main_arg7 (Cert.KernelIdeal.Gen.V11_main_arg7 m (Cert.KernelIdeal.Frm.outs m) c)),
       (h c _ (Cert.KernelIdeal.Frm.mem_uc Cert.KernelIdeal.main_arg8 (by decide))).trans (Cert.KernelIdeal.Frm.X11_arg m c Cert.KernelIdeal.main_arg8 (Cert.KernelIdeal.Gen.V11_main_arg8 m (Cert.KernelIdeal.Frm.outs m) c)),
       (h c _ (Cert.KernelIdeal.Frm.mem_uc Cert.KernelIdeal.main_arg9 (by decide))).trans (Cert.KernelIdeal.Frm.X11_arg m c Cert.KernelIdeal.main_arg9 (Cert.KernelIdeal.Gen.V11_main_arg9 m (Cert.KernelIdeal.Frm.outs m) c)),
       (h c _ (Cert.KernelIdeal.Frm.mem_uc Cert.KernelIdeal.main_arg10 (by decide))).trans (Cert.KernelIdeal.Frm.X11_arg m c Cert.KernelIdeal.main_arg10 (Cert.KernelIdeal.Gen.V11_main_arg10 m (Cert.KernelIdeal.Frm.outs m) c)),
       (h c _ (Cert.KernelIdeal.Frm.mem_uc Cert.KernelIdeal.main_arg11 (by decide))).trans (Cert.KernelIdeal.Frm.X11_arg m c Cert.KernelIdeal.main_arg11 (Cert.KernelIdeal.Gen.V11_main_arg11 m (Cert.KernelIdeal.Frm.outs m) c)),
       (h c _ (Cert.KernelIdeal.Frm.mem_uc Cert.KernelIdeal.main_arg12 (by decide))).trans (Cert.KernelIdeal.Frm.X11_arg m c Cert.KernelIdeal.main_arg12 (Cert.KernelIdeal.Gen.V11_main_arg12 m (Cert.KernelIdeal.Frm.outs m) c)),
       (h c _ (Cert.KernelIdeal.Frm.mem_uc Cert.KernelIdeal.main_arg13 (by decide))).trans (Cert.KernelIdeal.Frm.X11_arg m c Cert.KernelIdeal.main_arg13 (Cert.KernelIdeal.Gen.V11_main_arg13 m (Cert.KernelIdeal.Frm.outs m) c)),
       (h c _ (Cert.KernelIdeal.Frm.mem_uc Cert.KernelIdeal.main_arg14 (by decide))).trans (Cert.KernelIdeal.Frm.X11_arg m c Cert.KernelIdeal.main_arg14 (Cert.KernelIdeal.Gen.V11_main_arg14 m (Cert.KernelIdeal.Frm.outs m) c)),
       (h c _ (Cert.KernelIdeal.Frm.mem_uc Cert.KernelIdeal.main_arg15 (by decide))).trans (Cert.KernelIdeal.Frm.X11_arg m c Cert.KernelIdeal.main_arg15 (Cert.KernelIdeal.Gen.V11_main_arg15 m (Cert.KernelIdeal.Frm.outs m) c)),
       (h c _ (Cert.KernelIdeal.Frm.mem_uc Cert.KernelIdeal.main_arg16 (by decide))).trans (Cert.KernelIdeal.Frm.X11_arg m c Cert.KernelIdeal.main_arg16 (Cert.KernelIdeal.Gen.V11_main_arg16 m (Cert.KernelIdeal.Frm.outs m) c)),
       (h c _ (Cert.KernelIdeal.Frm.mem_uc Cert.KernelIdeal.main_arg17 (by decide))).trans (Cert.KernelIdeal.Frm.X11_arg m c Cert.KernelIdeal.main_arg17 (Cert.KernelIdeal.Gen.V11_main_arg17 m (Cert.KernelIdeal.Frm.outs m) c)),
       (h c _ (Cert.KernelIdeal.Frm.mem_uc Cert.KernelIdeal.main_arg18 (by decide))).trans (Cert.KernelIdeal.Frm.X11_arg m c Cert.KernelIdeal.main_arg18 (Cert.KernelIdeal.Gen.V11_main_arg18 m (Cert.KernelIdeal.Frm.outs m) c))⟩)
      (Cert.KernelIdeal.Frm.run_all m ρ)
  · -- the reference: its run, its results by their closed forms, the arguments rewritten by the agreement
    refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15, h16, h17, h18⟩ := hagree c
      rw [Cert.ReferenceIdeal.RefValue.out0, feat2_agree m m' c h0 h1 h2 h7 h8 h9 h10 h11 h12]
      unfold Cert.ReferenceIdeal.RefValue.arg Cert.KernelIdeal.Val.arg
      rw [h3, h4, h13, h14, h15, h16, h17, h18]
    · obtain ⟨h0, h1, h2, h3, h4, h5, h6, h7, h8, h9, h10, h11, h12, h13, h14, h15, h16, h17, h18⟩ := hagree c
      rw [Cert.ReferenceIdeal.RefValue.out1, feat2_agree m m' c h0 h1 h2 h7 h8 h9 h10 h11 h12]
      unfold Cert.ReferenceIdeal.RefValue.arg Cert.KernelIdeal.Val.arg
      rw [h5, h6, h13, h14, h15, h16, h17, h18]

end Cert.Proof.Claims

end
-- ==== Proof.lean ====
/-
  The proof of `Cert.Claim`: a graph-convolution network with an edge predictor, a Pallas kernel against its jnp
  reference. The kernel's program is three launches among host operations (two layer combines over blocks of 5000
  nodes, a three-layer perceptron over blocks of 1024 pairs); its frames come from the several-regions launch with each
  region's proof data at the contents the regions before it left, and its value from reading the three launches' results
  as whole arrays. The mathematics of the comparison is in Proof/Spec.lean; the five claims are assembled in
  Proof/Claims.lean.
-/
import proofs.«400663_j26508538151583_4_alg».proof.Defs
import proofs.«400663_j26508538151583_4_alg».proof.Proof.Gen.Kernel
import proofs.«400663_j26508538151583_4_alg».proof.Proof.Gen.KernelIdeal
import proofs.«400663_j26508538151583_4_alg».proof.Proof.Gen.ReferenceIdeal
import proofs.«400663_j26508538151583_4_alg».proof.Proof.Gen.Pre_finite_inputs
import proofs.«400663_j26508538151583_4_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
